-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S64x256 : Shape := ⟨2, ![64, 256]⟩
abbrev S256x256 : Shape := ⟨2, ![256, 256]⟩
abbrev S800000 : Shape := ⟨1, ![800000]⟩
abbrev S50000 : Shape := ⟨1, ![50000]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S64x256 : S_.BroadcastsInDim S64x256 (![] : Fin 0 → Fin S64x256.rank)
  reducesTo_S64x256_S_d0_1 : S64x256.ReducesTo [0, 1] S_
  bcast_S_S256x256 : S_.BroadcastsInDim S256x256 (![] : Fin 0 → Fin S256x256.rank)
  reducesTo_S256x256_S_d0_1 : S256x256.ReducesTo [0, 1] S_

variable [Facts]

def fn_part1 {F : FTy → Type} [FloatOps F] (main_arg4 : FVec F S256x256 .f32) (main_arg5 : FVec F S256x256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256x256 .f32 := Host.absf main_arg4
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256x256 .f32 := Host.absf main_arg5
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  main_v28

def fn {F : FTy → Type} [FloatOps F] (main_arg0 : FVec F S50000x64 .f32) (main_arg1 : FVec F S64x256 .f32) (main_arg2 : FVec F S256x256 .f32) (main_arg3 : FVec F S256x256 .f32) (main_arg4 : FVec F S256x256 .f32) (main_arg5 : FVec F S256x256 .f32) (main_arg6 : IVec S800000 32) (main_arg7 : IVec S800000 32) (main_arg8 : IVec S50000 32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S64x256 .f32 := Host.absf main_arg1
  let main_cst_0 : FVec F S_ .f32 := constant S_ .f32 0x7F800000#32
  let main_v5 : FVec F S64x256 .f32 := broadcastInDim S64x256 ![] bcast_S_S64x256 main_cst_0
  let main_v6 : IVec S64x256 1 := cmpf .olt main_v4 main_v5
  let main_c_1 : IVec S_ 1 := constantI S_ 1 1#1
  let main_v7 : IVec S_ 1 := (fun x v => Host.reduce IntOp.andi x v reducesTo_S64x256_S_d0_1 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg4 main_arg5 main_v13 main_v16
-- ==== Kernel.lean ====
abbrev S50000x64 : Shape := ⟨2, ![50000, 64]⟩
abbrev S64x256 : Shape := ⟨2, ![64, 256]⟩
abbrev S256x256 : Shape := ⟨2, ![256, 256]⟩
abbrev S800000 : Shape := ⟨1, ![800000]⟩
abbrev S50000 : Shape := ⟨1, ![50000]⟩
abbrev S50000x256 : Shape := ⟨2, ![50000, 256]⟩
abbrev S2000x64 : Shape := ⟨2, ![2000, 64]⟩
abbrev S2000x256 : Shape := ⟨2, ![2000, 256]⟩
abbrev S_ : Shape := ⟨0, ![]⟩
abbrev S800000x1 : Shape := ⟨2, ![800000, 1]⟩
abbrev S800000x256 : Shape := ⟨2, ![800000, 256]⟩
abbrev S50000x1 : Shape := ⟨2, ![50000, 1]⟩
abbrev S128x256 : Shape := ⟨2, ![128, 256]⟩
abbrev S2000x1 : Shape := ⟨2, ![2000, 1]⟩
abbrev S2000x128 : Shape := ⟨2, ![2000, 128]⟩

abbrev nBuf : Space → Nat
  | .hbm => 44
  | .vmem => 39
  | .smem => 0
  | _ => 0

abbrev bufTy : (tb : Table) → Fin (tcTables nBuf tb) → BufTy
  | .hbm, ⟨0, _⟩ => ⟨S50000x64, .f32⟩
  | .hbm, ⟨1, _⟩ => ⟨S64x256, .f32⟩
  | .hbm, ⟨2, _⟩ => ⟨S256x256, .f32⟩
  | .hbm, ⟨3, _⟩ => ⟨S256x256, .f32⟩
  | .hbm, ⟨4, _⟩ => ⟨S256x256, .f32⟩
  | .hbm, ⟨5, _⟩ => ⟨S256x256, .f32⟩
  | .hbm, ⟨6, _⟩ => ⟨S800000, .i32⟩
  | .hbm, ⟨7, _⟩ => ⟨S800000, .i32⟩
  | .hbm, ⟨8, _⟩ => ⟨S50000, .i32⟩
  | .hbm, ⟨9, _⟩ => ⟨S50000x256, .f32⟩
  | .hbm, ⟨10, _⟩ => ⟨S50000x256, .f32⟩
  | .hbm, ⟨11, _⟩ => ⟨S50000x256, .f32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S800000x256, .f32⟩
  | .hbm, ⟨21, _⟩ => ⟨S_, .f32⟩
  | .hbm, ⟨22, _⟩ => ⟨S50000x256, .f32⟩
  | .hbm, ⟨23, _⟩ => ⟨S800000x1, .i32⟩
  | .hbm, ⟨24, _⟩ => ⟨S50000x256, .f32⟩
  | .hbm, ⟨25, _⟩ => ⟨S50000x256, .f32⟩
  | .hbm, ⟨26, _⟩ => ⟨S50000x256, .f32⟩
  | .hbm, ⟨27, _⟩ => ⟨S50000x256, .f32⟩
  | .hbm, ⟨28, _⟩ => ⟨S_, .i32⟩
  | .hbm, ⟨29, _⟩ => ⟨S800000, .i32⟩
  | .hbm, ⟨30, _⟩ => ⟨S800000, .i1⟩
  | .hbm, ⟨31, _⟩ => ⟨S_, .i32⟩
  | .hbm, ⟨32, _⟩ => ⟨S800000, .i32⟩
  | .hbm, ⟨33, _⟩ => ⟨S800000, .i32⟩
  | .hbm, ⟨34, _⟩ => ⟨S800000, .i32⟩
  | .hbm, ⟨35, _⟩ => ⟨S800000x1, .i32⟩
  | .hbm, ⟨36, _⟩ => ⟨S800000x256, .f32⟩
  | .hbm, ⟨37, _⟩ => ⟨S_, .f32⟩
  | .hbm, ⟨38, _⟩ => ⟨S50000x256, .f32⟩
  | .hbm, ⟨39, _⟩ => ⟨S800000x1, .i32⟩
  | .hbm, ⟨40, _⟩ => ⟨S50000x256, .f32⟩
  | .hbm, ⟨41, _⟩ => ⟨S50000x256, .f32⟩
  | .hbm, ⟨42, _⟩ => ⟨S50000x1, .i32⟩
  | .hbm, ⟨43, _⟩ => ⟨S128x256, .f32⟩
  | .local _ .vmem, ⟨0, _⟩ => ⟨S2000x64, .f32⟩
  | .local _ .vmem, ⟨1, _⟩ => ⟨S2000x64, .f32⟩
  | .local _ .vmem, ⟨2, _⟩ => ⟨S64x256, .f32⟩
  | .local _ .vmem, ⟨3, _⟩ => ⟨S2000x256, .f32⟩
  | .local _ .vmem, ⟨4, _⟩ => ⟨S2000x256, .f32⟩
  | .local _ .vmem, ⟨5, _⟩ => ⟨S2000x256, .f32⟩
  | .local _ .vmem, ⟨6, _⟩ => ⟨S2000x256, .f32⟩
  | .local _ .vmem, ⟨7, _⟩ => ⟨S256x256, .f32⟩
  | .local _ .vmem, ⟨8, _⟩ => ⟨S256x256, .f32⟩
  | .local _ .vmem, ⟨9, _⟩ => ⟨S2000x256, .f32⟩
  | .local _ .vmem, ⟨10, _⟩ => ⟨S2000x256, .f32⟩
  | .local _ .vmem, ⟨11, _⟩ => ⟨S2000x256, .f32⟩
  | .local _ .vmem, ⟨12, _⟩ => ⟨S2000x256, .f32⟩
  | .local _ .vmem, ⟨13, _⟩ => ⟨S2000x256, .f32⟩
  | .local _ .vmem, ⟨14, _⟩ => ⟨S2000x256, .f32⟩
  | .local _ .vmem, ⟨15, _⟩ => ⟨S2000x256, .f32⟩
  | .local _ .vmem, ⟨16, _⟩ => ⟨S2000x256, .f32⟩
  | .local _ .vmem, ⟨17, _⟩ => ⟨S2000x256, .f32⟩
  | .local _ .vmem, ⟨18, _⟩ => ⟨S2000x256, .f32⟩
  | .local _ .vmem, ⟨19, _⟩ => ⟨S2000x256, .f32⟩
  | .local _ .vmem, ⟨20, _⟩ => ⟨S2000x256, .f32⟩
  | .local _ .vmem, ⟨21, _⟩ => ⟨S256x256, .f32⟩
  | .local _ .vmem, ⟨22, _⟩ => ⟨S256x256, .f32⟩
  | .local _ .vmem, ⟨23, _⟩ => ⟨S2000x256, .f32⟩
  | .local _ .vmem, ⟨24, _⟩ => ⟨S2000x256, .f32⟩
  | .local _ .vmem, ⟨25, _⟩ => ⟨S2000x256, .f32⟩
  | .local _ .vmem, ⟨26, _⟩ => ⟨S2000x256, .f32⟩
  | .local _ .vmem, ⟨27, _⟩ => ⟨S2000x256, .f32⟩
  | .local _ .vmem, ⟨28, _⟩ => ⟨S2000x256, .f32⟩
  | .local _ .vmem, ⟨29, _⟩ => ⟨S2000x256, .f32⟩
  | .local _ .vmem, ⟨30, _⟩ => ⟨S2000x256, .f32⟩
  | .local _ .vmem, ⟨31, _⟩ => ⟨S2000x256, .f32⟩
  | .local _ .vmem, ⟨32, _⟩ => ⟨S2000x256, .f32⟩
  | .local _ .vmem, ⟨33, _⟩ => ⟨S2000x256, .f32⟩
  | .local _ .vmem, ⟨34, _⟩ => ⟨S2000x256, .f32⟩
  | .local _ .vmem, ⟨35, _⟩ => ⟨S2000x1, .i32⟩
  | .local _ .vmem, ⟨36, _⟩ => ⟨S2000x1, .i32⟩
  | .local _ .vmem, ⟨37, _⟩ => ⟨S128x256, .f32⟩
  | .local _ .vmem, ⟨38, _⟩ => ⟨S128x256, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1_0 : Ref sig .tc := ⟨.hbm, 10, rfl⟩
abbrev main_v1_1 : Ref sig .tc := ⟨.hbm, 11, rfl⟩
abbrev main_c : Ref sig .tc := ⟨.hbm, 12, rfl⟩
abbrev main_v2 : Ref sig .tc := ⟨.hbm, 13, rfl⟩
abbrev main_v3 : Ref sig .tc := ⟨.hbm, 14, rfl⟩
abbrev main_c_0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13_0 : Ref sig .tc := ⟨.hbm, 26, rfl⟩
abbrev main_v13_1 : Ref sig .tc := ⟨.hbm, 27, rfl⟩
abbrev main_c_1 : Ref sig .tc := ⟨.hbm, 28, rfl⟩
abbrev main_v14 : Ref sig .tc := ⟨.hbm, 29, rfl⟩
abbrev main_v15 : Ref sig .tc := ⟨.hbm, 30, rfl⟩
abbrev main_c_2 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_3 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc1_stg4_0 : Ref sig .tc := ⟨.vmem, 11, rfl⟩
abbrev cc1_stg4_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg1_1 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg2_0 : Ref sig .tc := ⟨.vmem, 22, rfl⟩
abbrev cc3_stg3_0 : Ref sig .tc := ⟨.vmem, 23, rfl⟩
abbrev cc3_stg3_1 : Ref sig .tc := ⟨.vmem, 24, rfl⟩
abbrev cc3_stg4_0 : Ref sig .tc := ⟨.vmem, 25, rfl⟩
abbrev cc3_stg4_1 : Ref sig .tc := ⟨.vmem, 26, rfl⟩
abbrev cc4_stg0_0 : Ref sig .tc := ⟨.vmem, 27, rfl⟩
abbrev cc4_stg0_1 : Ref sig .tc := ⟨.vmem, 28, rfl⟩
abbrev cc4_stg1_0 : Ref sig .tc := ⟨.vmem, 29, rfl⟩
abbrev cc4_stg1_1 : Ref sig .tc := ⟨.vmem, 30, rfl⟩
abbrev cc4_stg2_0 : Ref sig .tc := ⟨.vmem, 31, rfl⟩
abbrev cc4_stg2_1 : Ref sig .tc := ⟨.vmem, 32, rfl⟩
abbrev cc5_stg0_0 : Ref sig .tc := ⟨.vmem, 33, rfl⟩
abbrev cc5_stg0_1 : Ref sig .tc := ⟨.vmem, 34, rfl⟩
abbrev cc5_stg1_0 : Ref sig .tc := ⟨.vmem, 35, rfl⟩
abbrev cc5_stg1_1 : Ref sig .tc := ⟨.vmem, 36, rfl⟩
abbrev cc5_stg2_0 : Ref sig .tc := ⟨.vmem, 37, rfl⟩
abbrev cc5_scratch0 : Ref sig .tc := ⟨.vmem, 38, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc1_sem4_0 : DmaSem sig := 11
abbrev cc1_sem4_1 : DmaSem sig := 12
abbrev cc2_sem0_0 : DmaSem sig := 13
abbrev cc2_sem0_1 : DmaSem sig := 14
abbrev cc2_sem1_0 : DmaSem sig := 15
abbrev cc2_sem1_1 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem2_0 : DmaSem sig := 22
abbrev cc3_sem3_0 : DmaSem sig := 23
abbrev cc3_sem3_1 : DmaSem sig := 24
abbrev cc3_sem4_0 : DmaSem sig := 25
abbrev cc3_sem4_1 : DmaSem sig := 26
abbrev cc4_sem0_0 : DmaSem sig := 27
abbrev cc4_sem0_1 : DmaSem sig := 28
abbrev cc4_sem1_0 : DmaSem sig := 29
abbrev cc4_sem1_1 : DmaSem sig := 30
abbrev cc4_sem2_0 : DmaSem sig := 31
abbrev cc4_sem2_1 : DmaSem sig := 32
abbrev cc5_sem0_0 : DmaSem sig := 33
abbrev cc5_sem0_1 : DmaSem sig := 34
abbrev cc5_sem1_0 : DmaSem sig := 35
abbrev cc5_sem1_1 : DmaSem sig := 36
abbrev cc5_sem2_0 : DmaSem sig := 37

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S256x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S2000x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S256x256 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S256x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S2000x256 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S2000x256 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x256 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S2000x256 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![25], ![false]⟩

def k5_cond2 (i : grid5.Coords) : BitVec 1 :=
  let arg0 : BitVec 32 := BitVec.ofNat 32 (i 0).val
  let c24_i32 : BitVec 32 := 24#32
  let v20 : BitVec 1 := Scalar.cmpi .eq arg0 c24_i32
  let v21 : BitVec 32 := Scalar.extui v20
  let c0_i32_8 : BitVec 32 := 0#32
  let v22 : BitVec 1 := Scalar.cmpi .ne v21 c0_i32_8
  v22

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage5_0 : Fin 2 → Memref sig .tc .vmem S2000x256 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S2000x1 .i32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S128x256 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

class Facts₀ : Prop where
  inb_S2000x64_S2000x64_0_0 : ∀ a, (![0, 0] : Fin 2 → Nat) a + S2000x64.size a ≤ S2000x64.size a
  h_S2000x64 : 0 < S2000x64.numel
  bitsLt_bf16_f32 : FTy.bits .bf16 < FTy.bits .f32
  inb_S64x256_S64x256_0_0 : ∀ a, (![0, 0] : Fin 2 → Nat) a + S64x256.size a ≤ S64x256.size a
  h_S64x256 : 0 < S64x256.numel
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  inb_S256x256_S256x256_0_0 : ∀ a, (![0, 0] : Fin 2 → Nat) a + S256x256.size a ≤ S256x256.size a
  h_S256x256 : 0 < S256x256.numel
  bcast_S_S800000 : S_.BroadcastsInDim S800000 (![] : Fin 0 → Fin S800000.rank)
  bcast_S800000_S800000x1_0 : S800000.BroadcastsInDim S800000x1 (![0] : Fin 1 → Fin S800000x1.rank)
  bcast_S_S50000x256 : S_.BroadcastsInDim S50000x256 (![] : Fin 0 → Fin S50000x256.rank)
  shapeCasts_S50000_S50000x1 : S50000.ShapeCasts S50000x1
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  iota_S2000x128_d1_w32 : S2000x128.Iotas .tc 32 [1]
  broadcasts_S2000x1_S2000x128 : S2000x1.Broadcasts S2000x128
  natLt_1_32 : 1 < 32
  dot_S2000x64_S64x256_S2000x256_1_0_0_1_n_n_wf : DotDims.WF S2000x64 S64x256 S2000x256 [1] [0] [0] [1] [] []
  dot_S2000x256_S256x256_S2000x256_1_0_0_1_n_n_wf : DotDims.WF S2000x256 S256x256 S2000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S2000x128_S2000x256_S128x256_0_0_1_1_n_n_wf : DotDims.WF S2000x128 S2000x256 S128x256 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x64.size a ≤ S50000x64.size a
  hwx0_0 : ∀ i : grid0.Coords, EltTy.bits .f32 = 32 ∨ (Rect.block (s := S50000x64) S2000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x256.size a ≤ S64x256.size a
  hwx0_1 : ∀ i : grid0.Coords, EltTy.bits .f32 = 32 ∨ (Rect.block (s := S64x256) S64x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x256.size a ≤ S50000x256.size a
  hwx0_2 : ∀ i : grid0.Coords, EltTy.bits .f32 = 32 ∨ (Rect.block (s := S50000x256) S2000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x256.size a ≤ S256x256.size a
  hwx1_1 : ∀ i : grid1.Coords, EltTy.bits .f32 = 32 ∨ (Rect.block (s := S256x256) S256x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x256.size a ≤ S256x256.size a
  hwx1_2 : ∀ i : grid1.Coords, EltTy.bits .f32 = 32 ∨ (Rect.block (s := S256x256) S256x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x256.size a ≤ S50000x256.size a
  hwx1_3 : ∀ i : grid1.Coords, EltTy.bits .f32 = 32 ∨ (Rect.block (s := S50000x256) S2000x256.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x256.size a ≤ S50000x256.size a
  hwx1_4 : ∀ i : grid1.Coords, EltTy.bits .f32 = 32 ∨ (Rect.block (s := S50000x256) S2000x256.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S50000x256.size a
  hwx2_0 : ∀ i : grid2.Coords, EltTy.bits .f32 = 32 ∨ (Rect.block (s := S50000x256) S2000x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x256.size a ≤ S50000x256.size a
  hwx2_1 : ∀ i : grid2.Coords, EltTy.bits .f32 = 32 ∨ (Rect.block (s := S50000x256) S2000x256.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x256.size a ≤ S50000x256.size a
  hwx2_2 : ∀ i : grid2.Coords, EltTy.bits .f32 = 32 ∨ (Rect.block (s := S50000x256) S2000x256.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x256.size a ≤ S50000x256.size a
  hwx3_0 : ∀ i : grid3.Coords, EltTy.bits .f32 = 32 ∨ (Rect.block (s := S50000x256) S2000x256.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S256x256.size a ≤ S256x256.size a
  hwx3_1 : ∀ i : grid3.Coords, EltTy.bits .f32 = 32 ∨ (Rect.block (s := S256x256) S256x256.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S256x256.size a ≤ S256x256.size a
  hwx3_2 : ∀ i : grid3.Coords, EltTy.bits .f32 = 32 ∨ (Rect.block (s := S256x256) S256x256.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2000x256.size a ≤ S50000x256.size a
  hwx3_3 : ∀ i : grid3.Coords, EltTy.bits .f32 = 32 ∨ (Rect.block (s := S50000x256) S2000x256.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S2000x256.size a ≤ S50000x256.size a
  hwx3_4 : ∀ i : grid3.Coords, EltTy.bits .f32 = 32 ∨ (Rect.block (s := S50000x256) S2000x256.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x256.size a ≤ S50000x256.size a
  hwx4_0 : ∀ i : grid4.Coords, EltTy.bits .f32 = 32 ∨ (Rect.block (s := S50000x256) S2000x256.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x256.size a ≤ S50000x256.size a
  hwx4_1 : ∀ i : grid4.Coords, EltTy.bits .f32 = 32 ∨ (Rect.block (s := S50000x256) S2000x256.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x256.size a ≤ S50000x256.size a
  hwx4_2 : ∀ i : grid4.Coords, EltTy.bits .f32 = 32 ∨ (Rect.block (s := S50000x256) S2000x256.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x256.size a ≤ S50000x256.size a
  hwx5_0 : ∀ i : grid5.Coords, EltTy.bits .f32 = 32 ∨ (Rect.block (s := S50000x256) S2000x256.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2000x1.size a ≤ S50000x1.size a
  hwx5_1 : ∀ i : grid5.Coords, EltTy.bits .i32 = 32 ∨ (Rect.block (s := S50000x1) S2000x1.size (cc5_transform_1 i) (hinb5_1 i)).WholeWords (EltTy.packing .i32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S128x256.size a ≤ S128x256.size a
  hwx5_2 : ∀ i : grid5.Coords, EltTy.bits .f32 = 32 ∨ (Rect.block (s := S128x256) S128x256.size (cc5_transform_2 i) (hinb5_2 i)).WholeWords (EltTy.packing .f32)

variable [Facts₀]

def dot_S2000x64_S64x256_S2000x256_1_0_0_1_n_n : DotDims S2000x64 S64x256 S2000x256 where
  lhsContracting := [1]
  rhsContracting := [0]
  lhsNonContracting := [0]
  rhsNonContracting := [1]
  lhsBatch := []
  rhsBatch := []
  wf := dot_S2000x64_S64x256_S2000x256_1_0_0_1_n_n_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S2000x128_S2000x256_S128x256_0_0_1_1_n_n : DotDims S2000x128 S2000x256 S128x256 where
  lhsContracting := [0]
  rhsContracting := [0]
  lhsNonContracting := [1]
  rhsNonContracting := [1]
  lhsBatch := []
  rhsBatch := []
  wf := dot_S2000x128_S2000x256_S128x256_0_0_1_1_n_n_wf

abbrev win0_0 : Pipeline.Window sig grid0 :=
  Pipeline.Window.ofSpec (Memref.whole main_arg0) S2000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v0) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S256x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S256x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v1_0) S2000x256.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_v1_1) S2000x256.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v11) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v1_1) S2000x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v12) S2000x256.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v12) S2000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg4) S256x256.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_arg5) S256x256.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v13_0) S2000x256.size cc3_transform_3 reads3_3 true false 2 stage3_3 sem3_3
    hrank3 hreads3_3 hinb3_3 nbuf3_3 (Memref.isWhole_whole _) hwx3_3 hstage3_3

abbrev win3_4 : Pipeline.Window sig grid3 :=
  Pipeline.Window.ofSpec (Memref.whole main_v13_1) S2000x256.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v23) S2000x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v13_1) S2000x256.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v24) S2000x256.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v24) S2000x256.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v25) S2000x1.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v26) S128x256.size cc5_transform_2 reads5_2 true true 1 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev idle5 : Fin 3 → grid5.Coords → Bool := fun | 0 => fun _ => false | 1 => fun _ => false | 2 => fun i => !(k5_cond2 i == 1#1) | ⟨_ + 3, h⟩ => absurd h (Nat.not_lt.2 (Nat.le_add_left _ _))

class Facts : Prop extends Facts₀ where

variable [Facts]
-- ==== ReferenceIdeal.lean ====
abbrev S50000x64 : Shape := ⟨2, ![50000, 64]⟩
abbrev S64x256 : Shape := ⟨2, ![64, 256]⟩
abbrev S256x256 : Shape := ⟨2, ![256, 256]⟩
abbrev S800000 : Shape := ⟨1, ![800000]⟩
abbrev S50000 : Shape := ⟨1, ![50000]⟩
abbrev S50000x256 : Shape := ⟨2, ![50000, 256]⟩
abbrev S_ : Shape := ⟨0, ![]⟩
abbrev S800000x1 : Shape := ⟨2, ![800000, 1]⟩
abbrev S800000x256 : Shape := ⟨2, ![800000, 256]⟩
abbrev S128x256 : Shape := ⟨2, ![128, 256]⟩
abbrev S50000x1 : Shape := ⟨2, ![50000, 1]⟩

abbrev nBuf : Space → Nat
  | .hbm => 58
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S64x256, .f32⟩
  | .hbm, ⟨2, _⟩ => ⟨S256x256, .f32⟩
  | .hbm, ⟨3, _⟩ => ⟨S256x256, .f32⟩
  | .hbm, ⟨4, _⟩ => ⟨S256x256, .f32⟩
  | .hbm, ⟨5, _⟩ => ⟨S256x256, .f32⟩
  | .hbm, ⟨6, _⟩ => ⟨S800000, .i32⟩
  | .hbm, ⟨7, _⟩ => ⟨S800000, .i32⟩
  | .hbm, ⟨8, _⟩ => ⟨S50000, .i32⟩
  | .hbm, ⟨9, _⟩ => ⟨S50000x256, .f32⟩
  | .hbm, ⟨10, _⟩ => ⟨S50000x256, .f32⟩
  | .hbm, ⟨11, _⟩ => ⟨S_, .i32⟩
  | .hbm, ⟨12, _⟩ => ⟨S800000, .i32⟩
  | .hbm, ⟨13, _⟩ => ⟨S800000, .i1⟩
  | .hbm, ⟨14, _⟩ => ⟨S_, .i32⟩
  | .hbm, ⟨15, _⟩ => ⟨S800000, .i32⟩
  | .hbm, ⟨16, _⟩ => ⟨S800000, .i32⟩
  | .hbm, ⟨17, _⟩ => ⟨S800000, .i32⟩
  | .hbm, ⟨18, _⟩ => ⟨S800000x1, .i32⟩
  | .hbm, ⟨19, _⟩ => ⟨S800000x256, .f32⟩
  | .hbm, ⟨20, _⟩ => ⟨S_, .f32⟩
  | .hbm, ⟨21, _⟩ => ⟨S50000x256, .f32⟩
  | .hbm, ⟨22, _⟩ => ⟨S800000x1, .i32⟩
  | .hbm, ⟨23, _⟩ => ⟨S50000x256, .f32⟩
  | .hbm, ⟨24, _⟩ => ⟨S_, .f32⟩
  | .hbm, ⟨25, _⟩ => ⟨S50000x256, .f32⟩
  | .hbm, ⟨26, _⟩ => ⟨S50000x256, .f32⟩
  | .hbm, ⟨27, _⟩ => ⟨S50000x256, .f32⟩
  | .hbm, ⟨28, _⟩ => ⟨S_, .f32⟩
  | .hbm, ⟨29, _⟩ => ⟨S50000x256, .f32⟩
  | .hbm, ⟨30, _⟩ => ⟨S50000x256, .f32⟩
  | .hbm, ⟨31, _⟩ => ⟨S50000x256, .f32⟩
  | .hbm, ⟨32, _⟩ => ⟨S50000x256, .f32⟩
  | .hbm, ⟨33, _⟩ => ⟨S_, .i32⟩
  | .hbm, ⟨34, _⟩ => ⟨S800000, .i32⟩
  | .hbm, ⟨35, _⟩ => ⟨S800000, .i1⟩
  | .hbm, ⟨36, _⟩ => ⟨S_, .i32⟩
  | .hbm, ⟨37, _⟩ => ⟨S800000, .i32⟩
  | .hbm, ⟨38, _⟩ => ⟨S800000, .i32⟩
  | .hbm, ⟨39, _⟩ => ⟨S800000, .i32⟩
  | .hbm, ⟨40, _⟩ => ⟨S800000x1, .i32⟩
  | .hbm, ⟨41, _⟩ => ⟨S800000x256, .f32⟩
  | .hbm, ⟨42, _⟩ => ⟨S_, .f32⟩
  | .hbm, ⟨43, _⟩ => ⟨S50000x256, .f32⟩
  | .hbm, ⟨44, _⟩ => ⟨S800000x1, .i32⟩
  | .hbm, ⟨45, _⟩ => ⟨S50000x256, .f32⟩
  | .hbm, ⟨46, _⟩ => ⟨S_, .f32⟩
  | .hbm, ⟨47, _⟩ => ⟨S50000x256, .f32⟩
  | .hbm, ⟨48, _⟩ => ⟨S50000x256, .f32⟩
  | .hbm, ⟨49, _⟩ => ⟨S50000x256, .f32⟩
  | .hbm, ⟨50, _⟩ => ⟨S_, .f32⟩
  | .hbm, ⟨51, _⟩ => ⟨S50000x256, .f32⟩
  | .hbm, ⟨52, _⟩ => ⟨S50000x256, .f32⟩
  | .hbm, ⟨53, _⟩ => ⟨S50000x256, .f32⟩
  | .hbm, ⟨54, _⟩ => ⟨S_, .f32⟩
  | .hbm, ⟨55, _⟩ => ⟨S128x256, .f32⟩
  | .hbm, ⟨56, _⟩ => ⟨S50000x1, .i32⟩
  | .hbm, ⟨57, _⟩ => ⟨S128x256, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_c : Ref sig .tc := ⟨.hbm, 11, rfl⟩
abbrev main_v2 : Ref sig .tc := ⟨.hbm, 12, rfl⟩
abbrev main_v3 : Ref sig .tc := ⟨.hbm, 13, rfl⟩
abbrev main_c_0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_call0_cst : Ref sig .tc := ⟨.hbm, 24, rfl⟩
abbrev main_call0_v0 : Ref sig .tc := ⟨.hbm, 25, rfl⟩
abbrev main_v12 : Ref sig .tc := ⟨.hbm, 26, rfl⟩
abbrev main_v13 : Ref sig .tc := ⟨.hbm, 27, rfl⟩
abbrev main_call1_cst : Ref sig .tc := ⟨.hbm, 28, rfl⟩
abbrev main_call1_v0 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_c_1 : Ref sig .tc := ⟨.hbm, 33, rfl⟩
abbrev main_v17 : Ref sig .tc := ⟨.hbm, 34, rfl⟩
abbrev main_v18 : Ref sig .tc := ⟨.hbm, 35, rfl⟩
abbrev main_c_2 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_cst_3 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_call2_cst : Ref sig .tc := ⟨.hbm, 46, rfl⟩
abbrev main_call2_v0 : Ref sig .tc := ⟨.hbm, 47, rfl⟩
abbrev main_v27 : Ref sig .tc := ⟨.hbm, 48, rfl⟩
abbrev main_v28 : Ref sig .tc := ⟨.hbm, 49, rfl⟩
abbrev main_call3_cst : Ref sig .tc := ⟨.hbm, 50, rfl⟩
abbrev main_call3_v0 : Ref sig .tc := ⟨.hbm, 51, rfl⟩
abbrev main_v29 : Ref sig .tc := ⟨.hbm, 52, rfl⟩
abbrev main_v30 : Ref sig .tc := ⟨.hbm, 53, rfl⟩
abbrev main_cst_4 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S_S50000x256 : S_.BroadcastsInDim S50000x256 (![] : Fin 0 → Fin S50000x256.rank)
  bcast_S_S128x256 : S_.BroadcastsInDim S128x256 (![] : Fin 0 → Fin S128x256.rank)
  bcast_S50000_S50000x1_0 : S50000.BroadcastsInDim S50000x1 (![0] : Fin 1 → Fin S50000x1.rank)
  dot_S50000x64_S64x256_S50000x256_1_0_0_1_n_n_wf : DotDims.WF S50000x64 S64x256 S50000x256 [1] [0] [0] [1] [] []
  dot_S50000x256_S256x256_S50000x256_1_0_0_1_n_n_wf : DotDims.WF S50000x256 S256x256 S50000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  scatter_S128x256_S50000x1_S50000x256_1_0_0_1_wf : ScatterDims.WF S128x256 S50000x1 S50000x256 [1] [0] [0] 1

variable [Facts₀]

def dot_S50000x64_S64x256_S50000x256_1_0_0_1_n_n : DotDims S50000x64 S64x256 S50000x256 where
  lhsContracting := [1]
  rhsContracting := [0]
  lhsNonContracting := [0]
  rhsNonContracting := [1]
  lhsBatch := []
  rhsBatch := []
  wf := dot_S50000x64_S64x256_S50000x256_1_0_0_1_n_n_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def scatter_S128x256_S50000x1_S50000x256_1_0_0_1 : ScatterDims S128x256 S50000x1 S50000x256 where
  updateWindowDims := [1]
  insertedWindowDims := [0]
  scatterDimsToOperandDims := [0]
  indexVectorDim := 1
  wf := scatter_S128x256_S50000x1_S50000x256_1_0_0_1_wf

class Facts : Prop extends Facts₀ where

variable [Facts]
-- ==== Proof.R0Defs.lean ====
/-
  Region 0 (the projection x · W_map, one row block of 2000 rows per grid point): the blocks the pipeline hands the body,
  what the body leaves in the output block, and the region's proof data. The row block of x at point t is rows
  2000·t … 2000·t + 1999; the weight block is the whole weight matrix at every point; the output block is the
  matrix product of the two, stored whole.
-/
import proofs.«430456_j88974542504687_1_alg».proof.Proof.Gen.KernelIdeal.Launch
import proofs.«430456_j88974542504687_1_alg».proof.Proof.Gen.KernelIdeal.Skeleton
import proofs.«430456_j88974542504687_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/- The TensorCore's buffer contents when the region is entered: every statement below is made at this parameter. -/
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole-block rectangles the body loads and stores through. -/
abbrev r0_x : Rect S2000x64 := Rect.unit (s := S2000x64) ![0, 0] S2000x64.size inb_S2000x64_S2000x64_0_0
abbrev r0_w : Rect S64x256 := Rect.unit (s := S64x256) ![0, 0] S64x256.size inb_S64x256_S64x256_0_0
abbrev r0_o : Rect S2000x256 := Rect.unit (s := S2000x256) ![0, 0] S2000x256.size inb_S2000x256_S2000x256_0_0

/-- The output block after the body: its one store, the product of the row block and the weights. -/
def out0_2 (x0 : Vec F S2000x64 .f32) (x1 : Vec F S64x256 .f32) : Vec F S2000x256 .f32 :=
  View.canon [⟨r0_o, k0_pay1 (View.ld x0 r0_x) (View.ld x1 r0_w)⟩]

/-- The proof data of region 0 on core `c`: arrays as found; the inputs' blocks left in place, the output block at
    `out0_2` of them; the scoped rest and the generator register untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

end Cert.KernelIdeal.Hand

end
-- ==== Proof.R1Defs.lean ====
/-
  Region 1 (first layer's two projections of one row block: h · W, and the rectified h · W_res): the blocks the
  pipeline hands the body, what the body leaves in the two output blocks, and the region's proof data.
-/
import proofs.«430456_j88974542504687_1_alg».proof.Proof.Gen.KernelIdeal.Launch
import proofs.«430456_j88974542504687_1_alg».proof.Proof.Gen.KernelIdeal.Skeleton
import proofs.«430456_j88974542504687_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/- The TensorCore's buffer contents when the region is entered: every statement below is made at this parameter. -/
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The whole-block rectangles the body loads and stores through. -/
abbrev r1_h : Rect S2000x256 := Rect.unit (s := S2000x256) ![0, 0] S2000x256.size inb_S2000x256_S2000x256_0_0
abbrev r1_w : Rect S256x256 := Rect.unit (s := S256x256) ![0, 0] S256x256.size inb_S256x256_S256x256_0_0

/-- The first output block after the body: the row block times the layer's weights. -/
def out1_3 (x0 : Vec F S2000x256 .f32) (x1 : Vec F S256x256 .f32) : Vec F S2000x256 .f32 :=
  View.canon [⟨r1_h, k1_pay2 (View.ld x0 r1_h) (View.ld x1 r1_w)⟩]

/-- The second output block after the body: the row block times the residual weights, rectified. -/
def out1_4 (x0 : Vec F S2000x256 .f32) (x2 : Vec F S256x256 .f32) : Vec F S2000x256 .f32 :=
  View.canon [⟨r1_h, k1_pay3 (View.ld x0 r1_h) (View.ld x2 r1_w)⟩]

/-- The proof data of region 1 on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t)
    | ⟨4, _⟩ => out1_4 (iblk1 V c 0 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) := by dsimp only [dat1]
theorem after1_4 (c : Dev nD) (t : Fin cfg1.N) : (dat1 V c).after 4 t = out1_4 (iblk1 V c 0 t) (iblk1 V c 2 t) := by dsimp only [dat1]

end Cert.KernelIdeal.Hand

end
-- ==== Proof.R2Defs.lean ====
/-
  Region 2 (first layer's combination of one row block: the rectified aggregate plus the residual branch): the
  blocks the pipeline hands the body, what the body leaves in the output block, and the region's proof data.
-/
import proofs.«430456_j88974542504687_1_alg».proof.Proof.Gen.KernelIdeal.Launch
import proofs.«430456_j88974542504687_1_alg».proof.Proof.Gen.KernelIdeal.Skeleton
import proofs.«430456_j88974542504687_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/- The TensorCore's buffer contents when the region is entered: every statement below is made at this parameter. -/
variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The whole-block rectangle the body loads and stores through. -/
abbrev r2_h : Rect S2000x256 := Rect.unit (s := S2000x256) ![0, 0] S2000x256.size inb_S2000x256_S2000x256_0_0

/-- The output block after the body: max(aggregate, 0) + residual, entry by entry. -/
def out2_2 (x0 : Vec F S2000x256 .f32) (x1 : Vec F S2000x256 .f32) : Vec F S2000x256 .f32 :=
  View.canon [⟨r2_h, k2_pay1 (View.ld x0 r2_h) (View.ld x1 r2_h)⟩]

/-- The proof data of region 2 on core `c`. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

end Cert.KernelIdeal.Hand

end
-- ==== Proof.R3Defs.lean ====
/-
  Region 3 (second layer's two projections of one row block: h · W, and the rectified h · W_res): the blocks the
  pipeline hands the body, what the body leaves in the two output blocks, and the region's proof data.
-/
import proofs.«430456_j88974542504687_1_alg».proof.Proof.Gen.KernelIdeal.Launch
import proofs.«430456_j88974542504687_1_alg».proof.Proof.Gen.KernelIdeal.Skeleton
import proofs.«430456_j88974542504687_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/- The TensorCore's buffer contents when the region is entered: every statement below is made at this parameter. -/
variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The whole-block rectangles the body loads and stores through. -/
abbrev r3_h : Rect S2000x256 := Rect.unit (s := S2000x256) ![0, 0] S2000x256.size inb_S2000x256_S2000x256_0_0
abbrev r3_w : Rect S256x256 := Rect.unit (s := S256x256) ![0, 0] S256x256.size inb_S256x256_S256x256_0_0

/-- The first output block after the body: the row block times the layer's weights. -/
def out3_3 (x0 : Vec F S2000x256 .f32) (x1 : Vec F S256x256 .f32) : Vec F S2000x256 .f32 :=
  View.canon [⟨r3_h, k3_pay2 (View.ld x0 r3_h) (View.ld x1 r3_w)⟩]

/-- The second output block after the body: the row block times the residual weights, rectified. -/
def out3_4 (x0 : Vec F S2000x256 .f32) (x2 : Vec F S256x256 .f32) : Vec F S2000x256 .f32 :=
  View.canon [⟨r3_h, k3_pay3 (View.ld x0 r3_h) (View.ld x2 r3_w)⟩]

/-- The proof data of region 3 on core `c`. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t)
    | ⟨4, _⟩ => out3_4 (iblk3 V c 0 t) (iblk3 V c 2 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = out3_3 (iblk3 V c 0 t) (iblk3 V c 1 t) := by dsimp only [dat3]
theorem after3_4 (c : Dev nD) (t : Fin cfg3.N) : (dat3 V c).after 4 t = out3_4 (iblk3 V c 0 t) (iblk3 V c 2 t) := by dsimp only [dat3]

end Cert.KernelIdeal.Hand

end
-- ==== Proof.R4Defs.lean ====
/-
  Region 4 (second layer's combination of one row block: the rectified aggregate plus the residual branch): the
  blocks the pipeline hands the body, what the body leaves in the output block, and the region's proof data.
-/
import proofs.«430456_j88974542504687_1_alg».proof.Proof.Gen.KernelIdeal.Launch
import proofs.«430456_j88974542504687_1_alg».proof.Proof.Gen.KernelIdeal.Skeleton
import proofs.«430456_j88974542504687_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/- The TensorCore's buffer contents when the region is entered: every statement below is made at this parameter. -/
variable (V : (c : Dev nD) → (b : Ref sig .tc) → Buf (Elt F) ((c : Thread nD τ).loc b))

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The whole-block rectangle the body loads and stores through. -/
abbrev r4_h : Rect S2000x256 := Rect.unit (s := S2000x256) ![0, 0] S2000x256.size inb_S2000x256_S2000x256_0_0

/-- The output block after the body: max(aggregate, 0) + residual, entry by entry. -/
def out4_2 (x0 : Vec F S2000x256 .f32) (x1 : Vec F S2000x256 .f32) : Vec F S2000x256 .f32 :=
  View.canon [⟨r4_h, k4_pay1 (View.ld x0 r4_h) (View.ld x1 r4_h)⟩]

/-- The proof data of region 4 on core `c`. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => out4_2 (iblk4 V c 0 t) (iblk4 V c 1 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = out4_2 (iblk4 V c 0 t) (iblk4 V c 1 t) := by dsimp only [dat4]

end Cert.KernelIdeal.Hand

end
-- ==== Proof.R5Defs.lean ====
/-
  Region 5 (the per-graph sums): at grid point t the body adds, into an accumulator it keeps in a scratch buffer
  across points, the product of the transposed one-hot matrix of the point's 2000 graph ids with the point's 2000
  rows; it zeroes the accumulator first at point 0 and copies it to the output block at the last point. Here: the
  blocks the pipeline hands the body, the accumulator after each point as a recursion over the points, the
  invariant that carries it, and the region's proof data.
-/
import proofs.«430456_j88974542504687_1_alg».proof.Proof.Gen.KernelIdeal.Launch
import proofs.«430456_j88974542504687_1_alg».proof.Proof.Gen.KernelIdeal.Skeleton
import proofs.«430456_j88974542504687_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/- The TensorCore's buffer contents when the region is entered: every statement below is made at this parameter. -/
variable (V : (c : Dev nD) → (b : Ref sig .tc) → Buf (Elt F) ((c : Thread nD τ).loc b))

/-- Window `w`'s block at point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- The whole-block rectangles the body loads and stores through. -/
abbrev r5_h : Rect S2000x256 := Rect.unit (s := S2000x256) ![0, 0] S2000x256.size inb_S2000x256_S2000x256_0_0
abbrev r5_g : Rect S2000x1 := Rect.unit (s := S2000x1) ![0, 0] S2000x1.size inb_S2000x1_S2000x1_0_0
abbrev r5_a : Rect S128x256 := Rect.unit (s := S128x256) ![0, 0] S128x256.size inb_S128x256_S128x256_0_0

/-- The scratch buffer that holds the accumulator, as the memref the body is called with. -/
abbrev scM5 : Memref sig .tc .vmem S128x256 .f32 := Memref.whole cc5_scratch0

/-- THE ACCUMULATOR after the body at point `n`: at point 0 the body's update of the zero accumulator, afterwards its
    update of what the point before left. -/
def accAt5 (c : Dev nD) : (n : ℕ) → n < cfg5.N → Vec F S128x256 .f32
  | 0, hn => k5_pay2 (iblk5 V c 0 ⟨0, hn⟩) (iblk5 V c 1 ⟨0, hn⟩) (k5_pay1 (F := F))
  | n + 1, hn => k5_pay2 (iblk5 V c 0 ⟨n + 1, hn⟩) (iblk5 V c 1 ⟨n + 1, hn⟩) (accAt5 c n (Nat.lt_of_succ_lt hn))

theorem accAt5_zero (c : Dev nD) (hn : 0 < cfg5.N) :
    accAt5 V c 0 hn = k5_pay2 (iblk5 V c 0 ⟨0, hn⟩) (iblk5 V c 1 ⟨0, hn⟩) (k5_pay1 (F := F)) := rfl

theorem accAt5_succ (c : Dev nD) (n : ℕ) (hn : n + 1 < cfg5.N) :
    accAt5 V c (n + 1) hn = k5_pay2 (iblk5 V c 0 ⟨n + 1, hn⟩) (iblk5 V c 1 ⟨n + 1, hn⟩) (accAt5 V c n (Nat.lt_of_succ_lt hn)) := rfl

/-- The region invariant before position `n`: before the first point every scoped buffer that is no staging buffer at
    some contents and the generator register at some state; afterwards the same with the accumulator's buffer at what
    the point before left in it. -/
def PhiS5 (c : Dev nD) : (n : ℕ) → n ≤ cfg5.N → sProp 𝕄
  | 0, _ => Pipeline.ΦA spec5 c
  | n + 1, hn => iprop(owns (c : Thread nD τ) scM5 fullShare (accAt5 V c n hn)
      ∗ Pipeline.scopedRestBut (Ix := Unit) (Name := ℕ) (U := UR sig nD τ) (Lvl := ℕ) (Val := Elt F) spec5 c [cc5_scratch0]
      ∗ (∃ r, prngReg c r))

theorem PhiS5_zero (c : Dev nD) (n : ℕ) (h : n ≤ cfg5.N) (hz : n = 0) : PhiS5 V c n h = Pipeline.ΦA spec5 c := by
  subst hz; rfl

theorem PhiS5_succ (c : Dev nD) (n : ℕ) (hn : n < cfg5.N) :
    PhiS5 V c (n + 1) hn = iprop(owns (c : Thread nD τ) scM5 fullShare (accAt5 V c n hn)
      ∗ Pipeline.scopedRestBut (Ix := Unit) (Name := ℕ) (U := UR sig nD τ) (Lvl := ℕ) (Val := Elt F) spec5 c [cc5_scratch0]
      ∗ (∃ r, prngReg c r)) := rfl

theorem PhiS5_pos (c : Dev nD) (n : ℕ) (h : n ≤ cfg5.N) (hz : n ≠ 0) :
    PhiS5 V c n h = iprop(owns (c : Thread nD τ) scM5 fullShare (accAt5 V c (n - 1) (by omega))
      ∗ Pipeline.scopedRestBut (Ix := Unit) (Name := ℕ) (U := UR sig nD τ) (Lvl := ℕ) (Val := Elt F) spec5 c [cc5_scratch0]
      ∗ (∃ r, prngReg c r)) := by
  cases n with
  | zero => exact absurd rfl hz
  | succ n => rfl

/-- The proof data of region 5 on core `c`: arrays as found; the inputs' blocks left in place; the output block at
    the accumulator (stored there at the last point only; elsewhere the window is idle and this entry is not read);
    the invariant `PhiS5`; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => accAt5 V c t.val t.isLt
  Φ t := PhiS5 V c t.val (Nat.le_of_lt_succ t.isLt)
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = accAt5 V c t.val t.isLt := by dsimp only [dat5]

theorem PhiS5_castSucc (c : Dev nD) (t : Fin cfg5.N) :
    (dat5 V c).Φ t.castSucc = PhiS5 V c t.val (Nat.le_of_lt t.isLt) := by
  dsimp only [dat5]; simp only [Fin.coe_castSucc]

end Cert.KernelIdeal.Hand

end
-- ==== Proof.Run1.lean ====
/-
  The contents of the TensorCore's buffers at each boundary between two items of @main, as a fold from the launch
  memory: a kernel region leaves its windows' arrays at what its write-backs make of them and every other buffer as it
  found it; a stretch of host operations leaves what the operations compute. Read back through the fold, each of the
  nine argument arrays ends holding what was launched (no host operation writes one, and a region only reads one,
  through an input window), and the result array ends at what the last region's write-backs leave in it.
-/
import proofs.«430456_j88974542504687_1_alg».proof.Proof.R0Defs
import proofs.«430456_j88974542504687_1_alg».proof.Proof.R1Defs
import proofs.«430456_j88974542504687_1_alg».proof.Proof.R2Defs
import proofs.«430456_j88974542504687_1_alg».proof.Proof.R3Defs
import proofs.«430456_j88974542504687_1_alg».proof.Proof.R4Defs
import proofs.«430456_j88974542504687_1_alg».proof.Proof.R5Defs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The buffer contents at each boundary of @main

W0 is the launch memory; WJ, for J from 1 to 9, is what the J-th item of @main leaves. VJ is WJ read at the
TensorCore's references, which is what a region's proof data are stated at. -/

/-- Core c's buffers at launch. -/
abbrev W0 : Dev nD → Valuation τ sig (Elt F) := fun c b => (s₀ m ρ).mem ((c : Dev nD), b)
/-- The same read at the TensorCore's references: what region 0 is entered from. -/
abbrev V0 : (c : Dev nD) → (b : Ref sig .tc) → Buf (Elt F) ((c : Thread nD τ).loc b) := fun c b => W0 m ρ c b

/-! ## Item 1: region 0, the projection -/

/-- At region 0's exit: its three arrays at what the pipeline leaves (the two inputs as entered, the output with every
    block written back), every other buffer as entered. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
/-- Region 0's exit contents at the TensorCore's references: what region 1 is entered from. -/
abbrev V1 : (c : Dev nD) → (b : Ref sig .tc) → Buf (Elt F) ((c : Thread nD τ).loc b) := fun c b => W1 m ρ c b
/-- At the exit each array of the region holds what the pipeline leaves, and every other buffer what it held at entry. -/
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-! ## Item 2: region 1, the first layer's two products -/

/-- At region 1's exit: its five arrays at what the pipeline leaves, every other buffer as entered. -/
def W2 (c : Dev nD) : Valuation τ sig (Elt F) :=
  Pipeline.withArrays spec1 c (W1 m ρ c) fun w => (dat1 (V1 m ρ) c).arrAt w cfg1.N
theorem W2_arr (c : Dev nD) (w : Fin cfg1.W) :
    W2 m ρ c (Proc.devRef .tc (Pipeline.arrRef spec1 w)) = (dat1 (V1 m ρ) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m ρ c (Proc.devRef .tc b) = W1 m ρ c (Proc.devRef .tc b) := by
  unfold W2; exact Pipeline.withArrays_of_ne spec1 c _ _ b hb
/-- Region 1's exit contents at the TensorCore's references. -/
abbrev V2 : (c : Dev nD) → (b : Ref sig .tc) → Buf (Elt F) ((c : Thread nD τ).loc b) := fun c b => W2 m ρ c b
theorem hF1 (c : Dev nD) (w : Fin cfg1.W) : (dat1 (V1 m ρ) c).arrAt w cfg1.N = V2 m ρ c (Pipeline.arrRef spec1 w) :=
  (W2_arr m ρ c w).symm
theorem hrest1 (c : Dev nD) : ∀ b, b ∉ Finset.univ.image (Pipeline.arrRef spec1) → V2 m ρ c b = V1 m ρ c b :=
  fun b hb => W2_of_ne m ρ c b fun w e => hb (Finset.mem_image.mpr ⟨w, Finset.mem_univ _, e⟩)

/-! ## Item 3: the first aggregation (gather the source rows, scatter-add them at the destinations) -/

/-- After the first aggregation's host operations: what region 2 is entered from. -/
abbrev W3 : Dev nD → Valuation τ sig (Elt F) := fun c => StableHlo.after hostOps2 (W2 m ρ c)
abbrev V3 : (c : Dev nD) → (b : Ref sig .tc) → Buf (Elt F) ((c : Thread nD τ).loc b) := fun c b => W3 m ρ c b

/-- The references the first aggregation writes: the result of each of its thirteen operations. -/
abbrev written2 : List (Ref sig .tc) :=
  [main_c, main_v2, main_v3, main_c_0, main_v4, main_v5, main_v6, main_v7, main_v8, main_cst, main_v9, main_v10, main_v11]
theorem hostOps2_writes :
    (hostOps2 : List (HloOp τ sig (Elt F))).Forall fun op => op.writes ⊆ (written2.map (Proc.devRef (τ := τ) .tc)).toFinset := by
  simp only [hostOps2, List.Forall, StableHlo.nullary_writes, StableHlo.unary_writes, StableHlo.binary_writes,
    StableHlo.ternary_writes, Finset.singleton_subset_iff, List.mem_toFinset]
  repeat' apply And.intro
  all_goals exact List.mem_map_of_mem (by decide)
/-- A reference the first aggregation does not write keeps its contents across it. -/
theorem W3_of_not_written (c : Dev nD) (b : Ref sig .tc) (hb : b ∉ written2) :
    W3 m ρ c (Proc.devRef .tc b) = W2 m ρ c (Proc.devRef .tc b) :=
  StableHlo.after_of_writes_sub hostOps2 _ hostOps2_writes hb

/-! ## Item 4: region 2, the first layer's rectified aggregate plus residual -/

/-- At region 2's exit: its three arrays at what the pipeline leaves, every other buffer as entered. -/
def W4 (c : Dev nD) : Valuation τ sig (Elt F) :=
  Pipeline.withArrays spec2 c (W3 m ρ c) fun w => (dat2 (V3 m ρ) c).arrAt w cfg2.N
theorem W4_arr (c : Dev nD) (w : Fin cfg2.W) :
    W4 m ρ c (Proc.devRef .tc (Pipeline.arrRef spec2 w)) = (dat2 (V3 m ρ) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
/-- Region 2's exit contents at the TensorCore's references: what region 3 is entered from. -/
abbrev V4 : (c : Dev nD) → (b : Ref sig .tc) → Buf (Elt F) ((c : Thread nD τ).loc b) := fun c b => W4 m ρ c b
theorem hF2 (c : Dev nD) (w : Fin cfg2.W) : (dat2 (V3 m ρ) c).arrAt w cfg2.N = V4 m ρ c (Pipeline.arrRef spec2 w) :=
  (W4_arr m ρ c w).symm
theorem hrest2 (c : Dev nD) : ∀ b, b ∉ Finset.univ.image (Pipeline.arrRef spec2) → V4 m ρ c b = V3 m ρ c b :=
  fun b hb => W4_of_ne m ρ c b fun w e => hb (Finset.mem_image.mpr ⟨w, Finset.mem_univ _, e⟩)

/-! ## Item 5: region 3, the second layer's two products -/

/-- At region 3's exit: its five arrays at what the pipeline leaves, every other buffer as entered. -/
def W5 (c : Dev nD) : Valuation τ sig (Elt F) :=
  Pipeline.withArrays spec3 c (W4 m ρ c) fun w => (dat3 (V4 m ρ) c).arrAt w cfg3.N
theorem W5_arr (c : Dev nD) (w : Fin cfg3.W) :
    W5 m ρ c (Proc.devRef .tc (Pipeline.arrRef spec3 w)) = (dat3 (V4 m ρ) c).arrAt w cfg3.N := by
  unfold W5; exact Pipeline.withArrays_arr spec3 launch3.win.arr_inj c _ _ w
theorem W5_of_ne (c : Dev nD) (b : Ref sig .tc) (hb : ∀ w, Pipeline.arrRef spec3 w ≠ b) :
    W5 m ρ c (Proc.devRef .tc b) = W4 m ρ c (Proc.devRef .tc b) := by
  unfold W5; exact Pipeline.withArrays_of_ne spec3 c _ _ b hb
/-- Region 3's exit contents at the TensorCore's references. -/
abbrev V5 : (c : Dev nD) → (b : Ref sig .tc) → Buf (Elt F) ((c : Thread nD τ).loc b) := fun c b => W5 m ρ c b
theorem hF3 (c : Dev nD) (w : Fin cfg3.W) : (dat3 (V4 m ρ) c).arrAt w cfg3.N = V5 m ρ c (Pipeline.arrRef spec3 w) :=
  (W5_arr m ρ c w).symm
theorem hrest3 (c : Dev nD) : ∀ b, b ∉ Finset.univ.image (Pipeline.arrRef spec3) → V5 m ρ c b = V4 m ρ c b :=
  fun b hb => W5_of_ne m ρ c b fun w e => hb (Finset.mem_image.mpr ⟨w, Finset.mem_univ _, e⟩)

/-! ## Item 6: the second aggregation -/

/-- After the second aggregation's host operations: what region 4 is entered from. -/
abbrev W6 : Dev nD → Valuation τ sig (Elt F) := fun c => StableHlo.after hostOps4 (W5 m ρ c)
abbrev V6 : (c : Dev nD) → (b : Ref sig .tc) → Buf (Elt F) ((c : Thread nD τ).loc b) := fun c b => W6 m ρ c b

/-- The references the second aggregation writes. -/
abbrev written4 : List (Ref sig .tc) :=
  [main_c_1, main_v14, main_v15, main_c_2, main_v16, main_v17, main_v18, main_v19, main_v20, main_cst_3, main_v21, main_v22, main_v23]
theorem hostOps4_writes :
    (hostOps4 : List (HloOp τ sig (Elt F))).Forall fun op => op.writes ⊆ (written4.map (Proc.devRef (τ := τ) .tc)).toFinset := by
  simp only [hostOps4, List.Forall, StableHlo.nullary_writes, StableHlo.unary_writes, StableHlo.binary_writes,
    StableHlo.ternary_writes, Finset.singleton_subset_iff, List.mem_toFinset]
  repeat' apply And.intro
  all_goals exact List.mem_map_of_mem (by decide)
/-- A reference the second aggregation does not write keeps its contents across it. -/
theorem W6_of_not_written (c : Dev nD) (b : Ref sig .tc) (hb : b ∉ written4) :
    W6 m ρ c (Proc.devRef .tc b) = W5 m ρ c (Proc.devRef .tc b) :=
  StableHlo.after_of_writes_sub hostOps4 _ hostOps4_writes hb

/-! ## Item 7: region 4, the second layer's rectified aggregate plus residual -/

/-- At region 4's exit: its three arrays at what the pipeline leaves, every other buffer as entered. -/
def W7 (c : Dev nD) : Valuation τ sig (Elt F) :=
  Pipeline.withArrays spec4 c (W6 m ρ c) fun w => (dat4 (V6 m ρ) c).arrAt w cfg4.N
theorem W7_arr (c : Dev nD) (w : Fin cfg4.W) :
    W7 m ρ c (Proc.devRef .tc (Pipeline.arrRef spec4 w)) = (dat4 (V6 m ρ) c).arrAt w cfg4.N := by
  unfold W7; exact Pipeline.withArrays_arr spec4 launch4.win.arr_inj c _ _ w
theorem W7_of_ne (c : Dev nD) (b : Ref sig .tc) (hb : ∀ w, Pipeline.arrRef spec4 w ≠ b) :
    W7 m ρ c (Proc.devRef .tc b) = W6 m ρ c (Proc.devRef .tc b) := by
  unfold W7; exact Pipeline.withArrays_of_ne spec4 c _ _ b hb
/-- Region 4's exit contents at the TensorCore's references. -/
abbrev V7 : (c : Dev nD) → (b : Ref sig .tc) → Buf (Elt F) ((c : Thread nD τ).loc b) := fun c b => W7 m ρ c b
theorem hF4 (c : Dev nD) (w : Fin cfg4.W) : (dat4 (V6 m ρ) c).arrAt w cfg4.N = V7 m ρ c (Pipeline.arrRef spec4 w) :=
  (W7_arr m ρ c w).symm
theorem hrest4 (c : Dev nD) : ∀ b, b ∉ Finset.univ.image (Pipeline.arrRef spec4) → V7 m ρ c b = V6 m ρ c b :=
  fun b hb => W7_of_ne m ρ c b fun w e => hb (Finset.mem_image.mpr ⟨w, Finset.mem_univ _, e⟩)

/-! ## Item 8: the graph ids as a column -/

/-- After the reshape of the graph ids: what region 5 is entered from. -/
abbrev W8 : Dev nD → Valuation τ sig (Elt F) := fun c => StableHlo.after hostOps5 (W7 m ρ c)
abbrev V8 : (c : Dev nD) → (b : Ref sig .tc) → Buf (Elt F) ((c : Thread nD τ).loc b) := fun c b => W8 m ρ c b

/-- The one reference the reshape writes. -/
abbrev written5 : List (Ref sig .tc) := [main_v25]
theorem hostOps5_writes :
    (hostOps5 : List (HloOp τ sig (Elt F))).Forall fun op => op.writes ⊆ (written5.map (Proc.devRef (τ := τ) .tc)).toFinset := by
  simp only [hostOps5, List.Forall, StableHlo.reshape_writes, Finset.singleton_subset_iff, List.mem_toFinset]
  exact List.mem_map_of_mem (by decide)
/-- A reference the reshape does not write keeps its contents across it. -/
theorem W8_of_not_written (c : Dev nD) (b : Ref sig .tc) (hb : b ∉ written5) :
    W8 m ρ c (Proc.devRef .tc b) = W7 m ρ c (Proc.devRef .tc b) :=
  StableHlo.after_of_writes_sub hostOps5 _ hostOps5_writes hb

/-! ## Item 9: region 5, the per-graph sums -/

/-- At region 5's exit: its three arrays at what the pipeline leaves (the rows and the graph ids as entered, the sums
    written back once, after the last point), every other buffer as entered. -/
def W9 (c : Dev nD) : Valuation τ sig (Elt F) :=
  Pipeline.withArrays spec5 c (W8 m ρ c) fun w => (dat5 (V8 m ρ) c).arrAt w cfg5.N
theorem W9_arr (c : Dev nD) (w : Fin cfg5.W) :
    W9 m ρ c (Proc.devRef .tc (Pipeline.arrRef spec5 w)) = (dat5 (V8 m ρ) c).arrAt w cfg5.N := by
  unfold W9; exact Pipeline.withArrays_arr spec5 launch5.win.arr_inj c _ _ w
theorem W9_of_ne (c : Dev nD) (b : Ref sig .tc) (hb : ∀ w, Pipeline.arrRef spec5 w ≠ b) :
    W9 m ρ c (Proc.devRef .tc b) = W8 m ρ c (Proc.devRef .tc b) := by
  unfold W9; exact Pipeline.withArrays_of_ne spec5 c _ _ b hb
/-- Region 5's exit contents at the TensorCore's references: what @main returns from. -/
abbrev V9 : (c : Dev nD) → (b : Ref sig .tc) → Buf (Elt F) ((c : Thread nD τ).loc b) := fun c b => W9 m ρ c b
theorem hF5 (c : Dev nD) (w : Fin cfg5.W) : (dat5 (V8 m ρ) c).arrAt w cfg5.N = V9 m ρ c (Pipeline.arrRef spec5 w) :=
  (W9_arr m ρ c w).symm
theorem hrest5 (c : Dev nD) : ∀ b, b ∉ Finset.univ.image (Pipeline.arrRef spec5) → V9 m ρ c b = V8 m ρ c b :=
  fun b hb => W9_of_ne m ρ c b fun w e => hb (Finset.mem_image.mpr ⟨w, Finset.mem_univ _, e⟩)

/-- The result array ends at what region 5's write-backs leave in it. -/
theorem W9_out (c : Dev nD) : W9 m ρ c (Proc.devRef .tc main_v26) = (dat5 (V8 m ρ) c).arrAt 2 cfg5.N :=
  W9_arr m ρ c 2

/-! # The arguments end as launched

No host operation writes an argument array, and a region reads one only through an input window, whose array is never
written back; at every other item the argument is no array of the region. So the fold at an argument's buffer walks
back, item by item, to the launch memory. -/

/-- x, the node features: read by region 0 through its input window 0. -/
theorem W9_main_arg0 (c : Dev nD) : W9 m ρ c (Proc.devRef .tc main_arg0) = m ((c : Thread nD τ).loc main_arg0) :=
  calc W9 m ρ c (Proc.devRef .tc main_arg0)
    _ = W8 m ρ c (Proc.devRef .tc main_arg0) := W9_of_ne m ρ c main_arg0 (by decide)
    _ = W7 m ρ c (Proc.devRef .tc main_arg0) := W8_of_not_written m ρ c main_arg0 (by decide)
    _ = W6 m ρ c (Proc.devRef .tc main_arg0) := W7_of_ne m ρ c main_arg0 (by decide)
    _ = W5 m ρ c (Proc.devRef .tc main_arg0) := W6_of_not_written m ρ c main_arg0 (by decide)
    _ = W4 m ρ c (Proc.devRef .tc main_arg0) := W5_of_ne m ρ c main_arg0 (by decide)
    _ = W3 m ρ c (Proc.devRef .tc main_arg0) := W4_of_ne m ρ c main_arg0 (by decide)
    _ = W2 m ρ c (Proc.devRef .tc main_arg0) := W3_of_not_written m ρ c main_arg0 (by decide)
    _ = W1 m ρ c (Proc.devRef .tc main_arg0) := W2_of_ne m ρ c main_arg0 (by decide)
    _ = W0 m ρ c (Proc.devRef .tc main_arg0) :=
      (W1_arr m ρ c 0).trans (((dat0 (V0 m ρ) c).arrAt_in 0 rfl _).trans (A_eq0 (V0 m ρ) c 0))
    _ = m ((c : Thread nD τ).loc main_arg0) := rfl

/-- W_map, the projection's weights: read by region 0 through its input window 1. -/
theorem W9_main_arg1 (c : Dev nD) : W9 m ρ c (Proc.devRef .tc main_arg1) = m ((c : Thread nD τ).loc main_arg1) :=
  calc W9 m ρ c (Proc.devRef .tc main_arg1)
    _ = W8 m ρ c (Proc.devRef .tc main_arg1) := W9_of_ne m ρ c main_arg1 (by decide)
    _ = W7 m ρ c (Proc.devRef .tc main_arg1) := W8_of_not_written m ρ c main_arg1 (by decide)
    _ = W6 m ρ c (Proc.devRef .tc main_arg1) := W7_of_ne m ρ c main_arg1 (by decide)
    _ = W5 m ρ c (Proc.devRef .tc main_arg1) := W6_of_not_written m ρ c main_arg1 (by decide)
    _ = W4 m ρ c (Proc.devRef .tc main_arg1) := W5_of_ne m ρ c main_arg1 (by decide)
    _ = W3 m ρ c (Proc.devRef .tc main_arg1) := W4_of_ne m ρ c main_arg1 (by decide)
    _ = W2 m ρ c (Proc.devRef .tc main_arg1) := W3_of_not_written m ρ c main_arg1 (by decide)
    _ = W1 m ρ c (Proc.devRef .tc main_arg1) := W2_of_ne m ρ c main_arg1 (by decide)
    _ = W0 m ρ c (Proc.devRef .tc main_arg1) :=
      (W1_arr m ρ c 1).trans (((dat0 (V0 m ρ) c).arrAt_in 1 rfl _).trans (A_eq0 (V0 m ρ) c 1))
    _ = m ((c : Thread nD τ).loc main_arg1) := rfl

/-- W1, the first layer's weights: read by region 1 through its input window 1. -/
theorem W9_main_arg2 (c : Dev nD) : W9 m ρ c (Proc.devRef .tc main_arg2) = m ((c : Thread nD τ).loc main_arg2) :=
  calc W9 m ρ c (Proc.devRef .tc main_arg2)
    _ = W8 m ρ c (Proc.devRef .tc main_arg2) := W9_of_ne m ρ c main_arg2 (by decide)
    _ = W7 m ρ c (Proc.devRef .tc main_arg2) := W8_of_not_written m ρ c main_arg2 (by decide)
    _ = W6 m ρ c (Proc.devRef .tc main_arg2) := W7_of_ne m ρ c main_arg2 (by decide)
    _ = W5 m ρ c (Proc.devRef .tc main_arg2) := W6_of_not_written m ρ c main_arg2 (by decide)
    _ = W4 m ρ c (Proc.devRef .tc main_arg2) := W5_of_ne m ρ c main_arg2 (by decide)
    _ = W3 m ρ c (Proc.devRef .tc main_arg2) := W4_of_ne m ρ c main_arg2 (by decide)
    _ = W2 m ρ c (Proc.devRef .tc main_arg2) := W3_of_not_written m ρ c main_arg2 (by decide)
    _ = W1 m ρ c (Proc.devRef .tc main_arg2) :=
      (W2_arr m ρ c 1).trans (((dat1 (V1 m ρ) c).arrAt_in 1 rfl _).trans (A_eq1 (V1 m ρ) c 1))
    _ = W0 m ρ c (Proc.devRef .tc main_arg2) := W1_of_ne m ρ c main_arg2 (by decide)
    _ = m ((c : Thread nD τ).loc main_arg2) := rfl

/-- Wres1, the first layer's residual weights: read by region 1 through its input window 2. -/
theorem W9_main_arg3 (c : Dev nD) : W9 m ρ c (Proc.devRef .tc main_arg3) = m ((c : Thread nD τ).loc main_arg3) :=
  calc W9 m ρ c (Proc.devRef .tc main_arg3)
    _ = W8 m ρ c (Proc.devRef .tc main_arg3) := W9_of_ne m ρ c main_arg3 (by decide)
    _ = W7 m ρ c (Proc.devRef .tc main_arg3) := W8_of_not_written m ρ c main_arg3 (by decide)
    _ = W6 m ρ c (Proc.devRef .tc main_arg3) := W7_of_ne m ρ c main_arg3 (by decide)
    _ = W5 m ρ c (Proc.devRef .tc main_arg3) := W6_of_not_written m ρ c main_arg3 (by decide)
    _ = W4 m ρ c (Proc.devRef .tc main_arg3) := W5_of_ne m ρ c main_arg3 (by decide)
    _ = W3 m ρ c (Proc.devRef .tc main_arg3) := W4_of_ne m ρ c main_arg3 (by decide)
    _ = W2 m ρ c (Proc.devRef .tc main_arg3) := W3_of_not_written m ρ c main_arg3 (by decide)
    _ = W1 m ρ c (Proc.devRef .tc main_arg3) :=
      (W2_arr m ρ c 2).trans (((dat1 (V1 m ρ) c).arrAt_in 2 rfl _).trans (A_eq1 (V1 m ρ) c 2))
    _ = W0 m ρ c (Proc.devRef .tc main_arg3) := W1_of_ne m ρ c main_arg3 (by decide)
    _ = m ((c : Thread nD τ).loc main_arg3) := rfl

/-- W2, the second layer's weights: read by region 3 through its input window 1. -/
theorem W9_main_arg4 (c : Dev nD) : W9 m ρ c (Proc.devRef .tc main_arg4) = m ((c : Thread nD τ).loc main_arg4) :=
  calc W9 m ρ c (Proc.devRef .tc main_arg4)
    _ = W8 m ρ c (Proc.devRef .tc main_arg4) := W9_of_ne m ρ c main_arg4 (by decide)
    _ = W7 m ρ c (Proc.devRef .tc main_arg4) := W8_of_not_written m ρ c main_arg4 (by decide)
    _ = W6 m ρ c (Proc.devRef .tc main_arg4) := W7_of_ne m ρ c main_arg4 (by decide)
    _ = W5 m ρ c (Proc.devRef .tc main_arg4) := W6_of_not_written m ρ c main_arg4 (by decide)
    _ = W4 m ρ c (Proc.devRef .tc main_arg4) :=
      (W5_arr m ρ c 1).trans (((dat3 (V4 m ρ) c).arrAt_in 1 rfl _).trans (A_eq3 (V4 m ρ) c 1))
    _ = W3 m ρ c (Proc.devRef .tc main_arg4) := W4_of_ne m ρ c main_arg4 (by decide)
    _ = W2 m ρ c (Proc.devRef .tc main_arg4) := W3_of_not_written m ρ c main_arg4 (by decide)
    _ = W1 m ρ c (Proc.devRef .tc main_arg4) := W2_of_ne m ρ c main_arg4 (by decide)
    _ = W0 m ρ c (Proc.devRef .tc main_arg4) := W1_of_ne m ρ c main_arg4 (by decide)
    _ = m ((c : Thread nD τ).loc main_arg4) := rfl

/-- Wres2, the second layer's residual weights: read by region 3 through its input window 2. -/
theorem W9_main_arg5 (c : Dev nD) : W9 m ρ c (Proc.devRef .tc main_arg5) = m ((c : Thread nD τ).loc main_arg5) :=
  calc W9 m ρ c (Proc.devRef .tc main_arg5)
    _ = W8 m ρ c (Proc.devRef .tc main_arg5) := W9_of_ne m ρ c main_arg5 (by decide)
    _ = W7 m ρ c (Proc.devRef .tc main_arg5) := W8_of_not_written m ρ c main_arg5 (by decide)
    _ = W6 m ρ c (Proc.devRef .tc main_arg5) := W7_of_ne m ρ c main_arg5 (by decide)
    _ = W5 m ρ c (Proc.devRef .tc main_arg5) := W6_of_not_written m ρ c main_arg5 (by decide)
    _ = W4 m ρ c (Proc.devRef .tc main_arg5) :=
      (W5_arr m ρ c 2).trans (((dat3 (V4 m ρ) c).arrAt_in 2 rfl _).trans (A_eq3 (V4 m ρ) c 2))
    _ = W3 m ρ c (Proc.devRef .tc main_arg5) := W4_of_ne m ρ c main_arg5 (by decide)
    _ = W2 m ρ c (Proc.devRef .tc main_arg5) := W3_of_not_written m ρ c main_arg5 (by decide)
    _ = W1 m ρ c (Proc.devRef .tc main_arg5) := W2_of_ne m ρ c main_arg5 (by decide)
    _ = W0 m ρ c (Proc.devRef .tc main_arg5) := W1_of_ne m ρ c main_arg5 (by decide)
    _ = m ((c : Thread nD τ).loc main_arg5) := rfl

/-- The edges' sources: read by both aggregations, an array of no region. -/
theorem W9_main_arg6 (c : Dev nD) : W9 m ρ c (Proc.devRef .tc main_arg6) = m ((c : Thread nD τ).loc main_arg6) :=
  calc W9 m ρ c (Proc.devRef .tc main_arg6)
    _ = W8 m ρ c (Proc.devRef .tc main_arg6) := W9_of_ne m ρ c main_arg6 (by decide)
    _ = W7 m ρ c (Proc.devRef .tc main_arg6) := W8_of_not_written m ρ c main_arg6 (by decide)
    _ = W6 m ρ c (Proc.devRef .tc main_arg6) := W7_of_ne m ρ c main_arg6 (by decide)
    _ = W5 m ρ c (Proc.devRef .tc main_arg6) := W6_of_not_written m ρ c main_arg6 (by decide)
    _ = W4 m ρ c (Proc.devRef .tc main_arg6) := W5_of_ne m ρ c main_arg6 (by decide)
    _ = W3 m ρ c (Proc.devRef .tc main_arg6) := W4_of_ne m ρ c main_arg6 (by decide)
    _ = W2 m ρ c (Proc.devRef .tc main_arg6) := W3_of_not_written m ρ c main_arg6 (by decide)
    _ = W1 m ρ c (Proc.devRef .tc main_arg6) := W2_of_ne m ρ c main_arg6 (by decide)
    _ = W0 m ρ c (Proc.devRef .tc main_arg6) := W1_of_ne m ρ c main_arg6 (by decide)
    _ = m ((c : Thread nD τ).loc main_arg6) := rfl

/-- The edges' destinations: read by both aggregations, an array of no region. -/
theorem W9_main_arg7 (c : Dev nD) : W9 m ρ c (Proc.devRef .tc main_arg7) = m ((c : Thread nD τ).loc main_arg7) :=
  calc W9 m ρ c (Proc.devRef .tc main_arg7)
    _ = W8 m ρ c (Proc.devRef .tc main_arg7) := W9_of_ne m ρ c main_arg7 (by decide)
    _ = W7 m ρ c (Proc.devRef .tc main_arg7) := W8_of_not_written m ρ c main_arg7 (by decide)
    _ = W6 m ρ c (Proc.devRef .tc main_arg7) := W7_of_ne m ρ c main_arg7 (by decide)
    _ = W5 m ρ c (Proc.devRef .tc main_arg7) := W6_of_not_written m ρ c main_arg7 (by decide)
    _ = W4 m ρ c (Proc.devRef .tc main_arg7) := W5_of_ne m ρ c main_arg7 (by decide)
    _ = W3 m ρ c (Proc.devRef .tc main_arg7) := W4_of_ne m ρ c main_arg7 (by decide)
    _ = W2 m ρ c (Proc.devRef .tc main_arg7) := W3_of_not_written m ρ c main_arg7 (by decide)
    _ = W1 m ρ c (Proc.devRef .tc main_arg7) := W2_of_ne m ρ c main_arg7 (by decide)
    _ = W0 m ρ c (Proc.devRef .tc main_arg7) := W1_of_ne m ρ c main_arg7 (by decide)
    _ = m ((c : Thread nD τ).loc main_arg7) := rfl

/-- The nodes' graph ids: read by the reshape, an array of no region. -/
theorem W9_main_arg8 (c : Dev nD) : W9 m ρ c (Proc.devRef .tc main_arg8) = m ((c : Thread nD τ).loc main_arg8) :=
  calc W9 m ρ c (Proc.devRef .tc main_arg8)
    _ = W8 m ρ c (Proc.devRef .tc main_arg8) := W9_of_ne m ρ c main_arg8 (by decide)
    _ = W7 m ρ c (Proc.devRef .tc main_arg8) := W8_of_not_written m ρ c main_arg8 (by decide)
    _ = W6 m ρ c (Proc.devRef .tc main_arg8) := W7_of_ne m ρ c main_arg8 (by decide)
    _ = W5 m ρ c (Proc.devRef .tc main_arg8) := W6_of_not_written m ρ c main_arg8 (by decide)
    _ = W4 m ρ c (Proc.devRef .tc main_arg8) := W5_of_ne m ρ c main_arg8 (by decide)
    _ = W3 m ρ c (Proc.devRef .tc main_arg8) := W4_of_ne m ρ c main_arg8 (by decide)
    _ = W2 m ρ c (Proc.devRef .tc main_arg8) := W3_of_not_written m ρ c main_arg8 (by decide)
    _ = W1 m ρ c (Proc.devRef .tc main_arg8) := W2_of_ne m ρ c main_arg8 (by decide)
    _ = W0 m ρ c (Proc.devRef .tc main_arg8) := W1_of_ne m ρ c main_arg8 (by decide)
    _ = m ((c : Thread nD τ).loc main_arg8) := rfl

end Cert.KernelIdeal.Hand

end
-- ==== Proof.R0Body.lean ====
/-
  Region 0: the body obligation. At every grid point the body finds the row block of x and the whole weight
  matrix in its two input buffers, multiplies them, and overwrites the whole output buffer with the product; the
  inputs are left as they were. The row block moves at every point; the weight matrix is brought in once and its
  block index never moves, so its buffer still holds it at every later point.
-/
import proofs.«430456_j88974542504687_1_alg».proof.Proof.R0Defs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/- The TensorCore's buffer contents when the region is entered: every statement below is made at this parameter. -/
variable (V : (c : Dev nD) → (b : Ref sig .tc) → Buf (Elt F) ((c : Thread nD τ).loc b))

/-! ## What the body finds in its input buffers -/

/-- The row block of x: for any proof data over the entry contents whose body leaves that block in place, the
    buffer holds the block of the point, whichever staging contents preceded. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl)
    (fun t => by rw [hafter]; unfold Dat.blockOf iblk0; rw [hA]; try rfl) t d).trans
    (by unfold Dat.fetched Dat.blockOf iblk0; rw [hA]; try rfl)

/-- The weight matrix: brought in at the first point only, and the same block at every point, so the buffer
    holds it throughout. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl)
    (fun t => by rw [hafter]; unfold Dat.blockOf iblk0; rw [hA]; try rfl) t d).trans
    (by unfold Dat.fetched Dat.blockOf iblk0; rw [hA]; try rfl)

theorem before0_0 (c : Dev nD) (t : Fin cfg0.N) (d) : (dat0 V c).before 0 t d = iblk0 V c 0 t :=
  before0_0_of V (dat0 V c) (A_eq0 V c 0) (after0_0 V c) t d

theorem before0_1 (c : Dev nD) (t : Fin cfg0.N) (d) : (dat0 V c).before 1 t d = iblk0 V c 1 t :=
  before0_1_of V (dat0 V c) (A_eq0 V c 1) (after0_1 V c) t d

/-! ## The one store covers the output block -/

/-- The store's rectangle is the whole 2000 × 256 block, so every index of the block lies in it. -/
theorem cover0_2 (p0 : Vec F S2000x256 .f32) (y : S2000x256.Idx) :
    ∃ pc ∈ ([⟨r0_o, p0⟩] : List (View.Piece (Elt F) S2000x256 .f32)), y ∈ pc.1.set :=
  View.cover_of_tiled [⟨r0_o, p0⟩] S2000x256.size (by rfl) y

/-! ## The body's triple -/

set_option maxHeartbeats 1000000 in
/-- The body on three whole buffers — the row block at read contents `x0`, the weights at `x1`, the output at
    anything — runs to a continuation that is handed the inputs unchanged and the output at the product
    `out0_2 x0 x1`. The body reads the output buffer once before overwriting it; that value is never used, and
    the whole-block store makes the result independent of it. -/
theorem sound_kernel0 (c : Dev nD) (E : Set ℕ) (i : grid0.Coords)
    (arg1 : Memref sig .tc .vmem S2000x64 .f32) (harg1 : arg1.IsWhole)
    (arg2 : Memref sig .tc .vmem S64x256 .f32) (harg2 : arg2.IsWhole)
    (arg3 : Memref sig .tc .vmem S2000x256 .f32) (harg3 : arg3.IsWhole)
    (x0 : Vec F S2000x64 .f32) (x1 : Vec F S64x256 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__linear_kernel i arg1 harg1 arg2 harg2 arg3 harg3) K := by
  simp only [cc0__linear_kernel_eq_skeleton]; unfold cc0__linear_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The obligation at a grid point -/

/-- What the body is entered with at point `t`: the invariant, the debts, and the three current buffers. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- What it hands back. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: both inputs hold their blocks, so the triple applies; the invariant and the debts do
    not depend on the point and pass through untouched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.R1Body.lean ====
/-
  Region 1: the body obligation. At every grid point the body finds, in the three input windows' current
  buffers, the row block of h and the two whole weight matrices (the weights arrive at the first point and are
  still there at every later one, their block index never moving); it multiplies the block by each matrix and
  overwrites the two output buffers whole, the second product rectified. So what it leaves is a closed function of
  the three blocks, whatever the output buffers held before.
-/
import proofs.«430456_j88974542504687_1_alg».proof.Proof.R1Defs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/- The TensorCore's buffer contents when the region is entered: every statement below is made at this parameter. -/
variable (V : (c : Dev nD) → (b : Ref sig .tc) → Buf (Elt F) ((c : Thread nD τ).loc b))

/-! ## What the body finds in the input windows -/

/-- The row block of h: its window's current buffer holds the block at every point, for any proof data whose
    array is the entry contents and whose body leaves the block where it is. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The layer's weight matrix: fetched once, at the first point; afterwards the window's block index stands still,
    so the buffer still holds the matrix. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The residual weight matrix: the same. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## Each output buffer is overwritten whole -/

/-- The one store into the first output buffer is the whole 2000 x 256 block, so it covers every index. -/
theorem cover1_3 (p : Vec F S2000x256 .f32) (y : S2000x256.Idx) :
    ∃ pc ∈ ([⟨r1_h, p⟩] : List (View.Piece (Elt F) S2000x256 .f32)), y ∈ pc.1.set :=
  View.cover_of_tiled [⟨r1_h, p⟩] S2000x256.size (by rfl) y

/-- And so does the one store into the second output buffer. -/
theorem cover1_4 (p : Vec F S2000x256 .f32) (y : S2000x256.Idx) :
    ∃ pc ∈ ([⟨r1_h, p⟩] : List (View.Piece (Elt F) S2000x256 .f32)), y ∈ pc.1.set :=
  View.cover_of_tiled [⟨r1_h, p⟩] S2000x256.size (by rfl) y

/-! ## The body's triple -/

/-- On five whole buffers — the inputs reading x0 (row block), x1 and x2 (the two matrices), the outputs holding
    anything — the body runs to a state where the inputs are as they were and the outputs hold the two products,
    out1_3 x0 x1 and out1_4 x0 x2. The body reads each output buffer just before overwriting it; the value read
    is never used, and the whole-block store that follows erases it. -/
theorem sound_kernel1 (c : Dev nD) (E : Set ℕ) (i : grid1.Coords)
    (mA : Memref sig .tc .vmem S2000x256 .f32) (hmA : mA.IsWhole) (mB : Memref sig .tc .vmem S256x256 .f32) (hmB : mB.IsWhole)
    (mC : Memref sig .tc .vmem S256x256 .f32) (hmC : mC.IsWhole) (mD : Memref sig .tc .vmem S2000x256 .f32) (hmD : mD.IsWhole)
    (mE : Memref sig .tc .vmem S2000x256 .f32) (hmE : mE.IsWhole)
    (x0 : Vec F S2000x256 .f32) (x1 x2 : Vec F S256x256 .f32) (K : PUnit → sProp 𝕄) :
    iprop(owns (c : Thread nD τ) mA fullShare x0 ∗ owns (c : Thread nD τ) mB fullShare x1 ∗ owns (c : Thread nD τ) mC fullShare x2
        ∗ (∃ d, owns (c : Thread nD τ) mD fullShare d) ∗ (∃ d, owns (c : Thread nD τ) mE fullShare d)
        ∗ (iprop(owns (c : Thread nD τ) mA fullShare x0 ∗ owns (c : Thread nD τ) mB fullShare x1 ∗ owns (c : Thread nD τ) mC fullShare x2
            ∗ owns (c : Thread nD τ) mD fullShare (out1_3 x0 x1) ∗ owns (c : Thread nD τ) mE fullShare (out1_4 x0 x2)) -∗ K ⟨⟩))
      ⊢ wp frame (wpE (defs₀ (F := F)) Variants.none c none) E (cc1__gcn_transform_kernel i mA hmA mB hmB mC hmC mD hmD mE hmE) K := by
  simp only [cc1__gcn_transform_kernel_eq_skeleton]; unfold cc1__gcn_transform_kernel_skel
  unfold owns
  iintro ⟨⟨%fA, %hfA, HA⟩, ⟨%fB, %hfB, HB⟩, ⟨%fC, %hfC, HC⟩, ⟨%dD, %fD, -, HD⟩, ⟨%dE, %fE, -, HE⟩, Hk⟩
  subst hfA; subst hfB; subst hfC
  sl_exec
  sl_step
  iapply Hk
  isplitl [HA]
  · iexists fA; isplitr; · ipureintro; rfl
    iexact HA
  isplitl [HB]
  · iexists fB; isplitr; · ipureintro; rfl
    iexact HB
  isplitl [HC]
  · iexists fC; isplitr; · ipureintro; rfl
    iexact HC
  isplitl [HD]
  · iexists _; isplitr
    swap; · iexact HD
    ipureintro
    exact View.read_writes_eq_canon _ _ _ (cover1_3 _)
  iexists _; isplitr
  swap; · iexact HE
  ipureintro
  exact View.read_writes_eq_canon _ _ _ (cover1_4 _)

/-! ## The inputs at this region's proof data -/

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The obligation at one point -/

/-- What the body is called with at point t: the invariant, what the core owes, and the five windows' current
    buffers, each at whatever the pipeline left there. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- What it hands back: the same invariant and debts, and each buffer at what the proof data says the body leaves. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- At any point the inputs' buffers hold their blocks, so the body's triple applies; the invariant and the debts
    are not touched and pass through. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%dA, HA⟩, ⟨%dB, HB⟩, ⟨%dC, HC⟩, ⟨%dD, HD⟩, ⟨%dE, HE⟩⟩
  iapply (sound_kernel1 c Set.univ _ _ _ _ _ _ _ _ _ _ _ (iblk1 V c 0 t) (iblk1 V c 1 t) (iblk1 V c 2 t) _)
  isplitl [HA]; · iexact HA
  isplitl [HB]; · iexact HB
  isplitl [HC]; · iexact HC
  isplitl [HD]; · iexists _; iexact HD
  isplitl [HE]; · iexists _; iexact HE
  iintro ⟨HA, HB, HC, HD, HE⟩
  isplitl [HΦ]; · iexact HΦ
  isplitl [Ho]; · iexact Ho
  isplitl [HA]; · iexact HA
  isplitl [HB]; · iexact HB
  isplitl [HC]; · iexact HC
  isplitl [HD]; · iexact HD
  iexact HE

/-- The obligation at every point: the five windows written out one by one. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.R2Body.lean ====
/-
  A combining region: the body obligation. At every grid point the body finds one row block of the aggregate and the
  matching row block of the residual branch in its two input buffers, forms max(aggregate, 0) + residual entry by
  entry, and overwrites the whole output buffer with it; the inputs are left as they were. Both input blocks move
  at every point.
-/
import proofs.«430456_j88974542504687_1_alg».proof.Proof.R2Defs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/- The TensorCore's buffer contents when the region is entered: every statement below is made at this parameter. -/
variable (V : (c : Dev nD) → (b : Ref sig .tc) → Buf (Elt F) ((c : Thread nD τ).loc b))

/-! ## What the body finds in its input buffers -/

/-- The aggregate's row block: for any proof data over the entry contents whose body leaves that block in place,
    the buffer holds the block of the point, whichever staging contents preceded. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl)
    (fun t => by rw [hafter]; unfold Dat.blockOf iblk2; rw [hA]; try rfl) t d).trans
    (by unfold Dat.fetched Dat.blockOf iblk2; rw [hA]; try rfl)

/-- The residual's row block, likewise. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl)
    (fun t => by rw [hafter]; unfold Dat.blockOf iblk2; rw [hA]; try rfl) t d).trans
    (by unfold Dat.fetched Dat.blockOf iblk2; rw [hA]; try rfl)

theorem before2_0 (c : Dev nD) (t : Fin cfg2.N) (d) : (dat2 V c).before 0 t d = iblk2 V c 0 t :=
  before2_0_of V (dat2 V c) (A_eq2 V c 0) (after2_0 V c) t d

theorem before2_1 (c : Dev nD) (t : Fin cfg2.N) (d) : (dat2 V c).before 1 t d = iblk2 V c 1 t :=
  before2_1_of V (dat2 V c) (A_eq2 V c 1) (after2_1 V c) t d

/-! ## The one store covers the output block -/

/-- The store's rectangle is the whole 2000 × 256 block, so every index of the block lies in it. -/
theorem cover2_2 (p0 : Vec F S2000x256 .f32) (y : S2000x256.Idx) :
    ∃ pc ∈ ([⟨r2_h, p0⟩] : List (View.Piece (Elt F) S2000x256 .f32)), y ∈ pc.1.set :=
  View.cover_of_tiled [⟨r2_h, p0⟩] S2000x256.size (by rfl) y

/-! ## The body's triple -/

set_option maxHeartbeats 1000000 in
/-- The body on three whole buffers — the aggregate's block at read contents `x0`, the residual's at `x1`, the
    output at anything — runs to a continuation that is handed the inputs unchanged and the output at
    `out2_2 x0 x1`. The body reads the output buffer once before overwriting it; that value is never used, and
    the whole-block store makes the result independent of it. -/
theorem sound_kernel2 (c : Dev nD) (E : Set ℕ) (i)
    (bufA : Memref sig .tc .vmem S2000x256 .f32) (wA : bufA.IsWhole)
    (bufB : Memref sig .tc .vmem S2000x256 .f32) (wB : bufB.IsWhole)
    (bufC : Memref sig .tc .vmem S2000x256 .f32) (wC : bufC.IsWhole)
    (x0 x1 : Vec F S2000x256 .f32) (K : PUnit → sProp 𝕄) :
    iprop(owns (c : Thread nD τ) bufA fullShare x0 ∗ owns (c : Thread nD τ) bufB fullShare x1
        ∗ (∃ d, owns (c : Thread nD τ) bufC fullShare d)
        ∗ (iprop(owns (c : Thread nD τ) bufA fullShare x0 ∗ owns (c : Thread nD τ) bufB fullShare x1
            ∗ owns (c : Thread nD τ) bufC fullShare (out2_2 x0 x1)) -∗ K ⟨⟩))
      ⊢ wp frame (wpE (defs₀ (F := F)) Variants.none c none) E (cc2__combine_kernel i bufA wA bufB wB bufC wC) K := by
  simp only [cc2__combine_kernel_eq_skeleton]; unfold cc2__combine_kernel_skel
  unfold owns
  iintro ⟨⟨%fa, %hfa, Ha⟩, ⟨%fb, %hfb, Hb⟩, ⟨%dc, %fc, -, Hc⟩, Hk⟩
  subst hfa; subst hfb
  sl_exec
  sl_step
  iapply Hk
  isplitl [Ha]
  · iexists fa; isplitr; · ipureintro; rfl
    iexact Ha
  isplitl [Hb]
  · iexists fb; isplitr; · ipureintro; rfl
    iexact Hb
  iexists _; isplitr
  swap; · iexact Hc
  ipureintro
  exact View.read_writes_eq_canon _ _ _ (cover2_2 _)

/-! ## The obligation at a grid point -/

/-- What the body is entered with at point `t`: the invariant, the debts, and the three current buffers. -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- What it hands back. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: both inputs hold their blocks, so the triple applies; the invariant and the debts do
    not depend on the point and pass through untouched. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Hdebt, ⟨%da, Ha⟩, ⟨%db, Hb⟩, ⟨%dc, Hc⟩⟩
  iapply (sound_kernel2 c Set.univ _ _ _ _ _ _ _ (iblk2 V c 0 t) (iblk2 V c 1 t) _)
  isplitl [Ha]; · iexact Ha
  isplitl [Hb]; · iexact Hb
  isplitl [Hc]; · iexists _; iexact Hc
  iintro ⟨Ha, Hb, Hc⟩
  isplitl [HΦ]; · iexact HΦ
  isplitl [Hdebt]; · iexact Hdebt
  isplitl [Ha]; · iexact Ha
  isplitl [Hb]; · iexact Hb
  iexact Hc

theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.R3Body.lean ====
/-
  Region 3: the body obligation. At every grid point the body finds, in the three input windows' current
  buffers, the row block of h and the two whole weight matrices (the weights arrive at the first point and are
  still there at every later one, their block index never moving); it multiplies the block by each matrix and
  overwrites the two output buffers whole, the second product rectified. So what it leaves is a closed function of
  the three blocks, whatever the output buffers held before.
-/
import proofs.«430456_j88974542504687_1_alg».proof.Proof.R3Defs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/- The TensorCore's buffer contents when the region is entered: every statement below is made at this parameter. -/
variable (V : (c : Dev nD) → (b : Ref sig .tc) → Buf (Elt F) ((c : Thread nD τ).loc b))

/-! ## What the body finds in the input windows -/

/-- The row block of h: its window's current buffer holds the block at every point, for any proof data whose
    array is the entry contents and whose body leaves the block where it is. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- The layer's weight matrix: fetched once, at the first point; afterwards the window's block index stands still,
    so the buffer still holds the matrix. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- The residual weight matrix: the same. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-! ## Each output buffer is overwritten whole -/

/-- The one store into the first output buffer is the whole 2000 x 256 block, so it covers every index. -/
theorem cover3_3 (p : Vec F S2000x256 .f32) (y : S2000x256.Idx) :
    ∃ pc ∈ ([⟨r3_h, p⟩] : List (View.Piece (Elt F) S2000x256 .f32)), y ∈ pc.1.set :=
  View.cover_of_tiled [⟨r3_h, p⟩] S2000x256.size (by rfl) y

/-- And so does the one store into the second output buffer. -/
theorem cover3_4 (p : Vec F S2000x256 .f32) (y : S2000x256.Idx) :
    ∃ pc ∈ ([⟨r3_h, p⟩] : List (View.Piece (Elt F) S2000x256 .f32)), y ∈ pc.1.set :=
  View.cover_of_tiled [⟨r3_h, p⟩] S2000x256.size (by rfl) y

/-! ## The body's triple -/

/-- On five whole buffers — the inputs reading x0 (row block), x1 and x2 (the two matrices), the outputs holding
    anything — the body runs to a state where the inputs are as they were and the outputs hold the two products,
    out3_3 x0 x1 and out3_4 x0 x2. The body reads each output buffer just before overwriting it; the value read
    is never used, and the whole-block store that follows erases it. -/
theorem sound_kernel3 (c : Dev nD) (E : Set ℕ) (i : grid3.Coords)
    (mA : Memref sig .tc .vmem S2000x256 .f32) (hmA : mA.IsWhole) (mB : Memref sig .tc .vmem S256x256 .f32) (hmB : mB.IsWhole)
    (mC : Memref sig .tc .vmem S256x256 .f32) (hmC : mC.IsWhole) (mD : Memref sig .tc .vmem S2000x256 .f32) (hmD : mD.IsWhole)
    (mE : Memref sig .tc .vmem S2000x256 .f32) (hmE : mE.IsWhole)
    (x0 : Vec F S2000x256 .f32) (x1 x2 : Vec F S256x256 .f32) (K : PUnit → sProp 𝕄) :
    iprop(owns (c : Thread nD τ) mA fullShare x0 ∗ owns (c : Thread nD τ) mB fullShare x1 ∗ owns (c : Thread nD τ) mC fullShare x2
        ∗ (∃ d, owns (c : Thread nD τ) mD fullShare d) ∗ (∃ d, owns (c : Thread nD τ) mE fullShare d)
        ∗ (iprop(owns (c : Thread nD τ) mA fullShare x0 ∗ owns (c : Thread nD τ) mB fullShare x1 ∗ owns (c : Thread nD τ) mC fullShare x2
            ∗ owns (c : Thread nD τ) mD fullShare (out3_3 x0 x1) ∗ owns (c : Thread nD τ) mE fullShare (out3_4 x0 x2)) -∗ K ⟨⟩))
      ⊢ wp frame (wpE (defs₀ (F := F)) Variants.none c none) E (cc3__gcn_transform_kernel i mA hmA mB hmB mC hmC mD hmD mE hmE) K := by
  simp only [cc3__gcn_transform_kernel_eq_skeleton]; unfold cc3__gcn_transform_kernel_skel
  unfold owns
  iintro ⟨⟨%fA, %hfA, HA⟩, ⟨%fB, %hfB, HB⟩, ⟨%fC, %hfC, HC⟩, ⟨%dD, %fD, -, HD⟩, ⟨%dE, %fE, -, HE⟩, Hk⟩
  subst hfA; subst hfB; subst hfC
  sl_exec
  sl_step
  iapply Hk
  isplitl [HA]
  · iexists fA; isplitr; · ipureintro; rfl
    iexact HA
  isplitl [HB]
  · iexists fB; isplitr; · ipureintro; rfl
    iexact HB
  isplitl [HC]
  · iexists fC; isplitr; · ipureintro; rfl
    iexact HC
  isplitl [HD]
  · iexists _; isplitr
    swap; · iexact HD
    ipureintro
    exact View.read_writes_eq_canon _ _ _ (cover3_3 _)
  iexists _; isplitr
  swap; · iexact HE
  ipureintro
  exact View.read_writes_eq_canon _ _ _ (cover3_4 _)

/-! ## The inputs at this region's proof data -/

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-! ## The obligation at one point -/

/-- What the body is called with at point t: the invariant, what the core owes, and the five windows' current
    buffers, each at whatever the pipeline left there. -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d)))

/-- What it hands back: the same invariant and debts, and each buffer at what the proof data says the body leaves. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t))

/-- At any point the inputs' buffers hold their blocks, so the body's triple applies; the invariant and the debts
    are not touched and pass through. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3, after3_4]
  iintro ⟨HΦ, Ho, ⟨%dA, HA⟩, ⟨%dB, HB⟩, ⟨%dC, HC⟩, ⟨%dD, HD⟩, ⟨%dE, HE⟩⟩
  iapply (sound_kernel3 c Set.univ _ _ _ _ _ _ _ _ _ _ _ (iblk3 V c 0 t) (iblk3 V c 1 t) (iblk3 V c 2 t) _)
  isplitl [HA]; · iexact HA
  isplitl [HB]; · iexact HB
  isplitl [HC]; · iexact HC
  isplitl [HD]; · iexists _; iexact HD
  isplitl [HE]; · iexists _; iexact HE
  iintro ⟨HA, HB, HC, HD, HE⟩
  isplitl [HΦ]; · iexact HΦ
  isplitl [Ho]; · iexact Ho
  isplitl [HA]; · iexact HA
  isplitl [HB]; · iexact HB
  isplitl [HC]; · iexact HC
  isplitl [HD]; · iexact HD
  iexact HE

/-- The obligation at every point: the five windows written out one by one. -/
theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.R4Body.lean ====
/-
  A combining region: the body obligation. At every grid point the body finds one row block of the aggregate and the
  matching row block of the residual branch in its two input buffers, forms max(aggregate, 0) + residual entry by
  entry, and overwrites the whole output buffer with it; the inputs are left as they were. Both input blocks move
  at every point.
-/
import proofs.«430456_j88974542504687_1_alg».proof.Proof.R4Defs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/- The TensorCore's buffer contents when the region is entered: every statement below is made at this parameter. -/
variable (V : (c : Dev nD) → (b : Ref sig .tc) → Buf (Elt F) ((c : Thread nD τ).loc b))

/-! ## What the body finds in its input buffers -/

/-- The aggregate's row block: for any proof data over the entry contents whose body leaves that block in place,
    the buffer holds the block of the point, whichever staging contents preceded. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl)
    (fun t => by rw [hafter]; unfold Dat.blockOf iblk4; rw [hA]; try rfl) t d).trans
    (by unfold Dat.fetched Dat.blockOf iblk4; rw [hA]; try rfl)

/-- The residual's row block, likewise. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl)
    (fun t => by rw [hafter]; unfold Dat.blockOf iblk4; rw [hA]; try rfl) t d).trans
    (by unfold Dat.fetched Dat.blockOf iblk4; rw [hA]; try rfl)

theorem before4_0 (c : Dev nD) (t : Fin cfg4.N) (d) : (dat4 V c).before 0 t d = iblk4 V c 0 t :=
  before4_0_of V (dat4 V c) (A_eq4 V c 0) (after4_0 V c) t d

theorem before4_1 (c : Dev nD) (t : Fin cfg4.N) (d) : (dat4 V c).before 1 t d = iblk4 V c 1 t :=
  before4_1_of V (dat4 V c) (A_eq4 V c 1) (after4_1 V c) t d

/-! ## The one store covers the output block -/

/-- The store's rectangle is the whole 2000 × 256 block, so every index of the block lies in it. -/
theorem cover4_2 (p0 : Vec F S2000x256 .f32) (y : S2000x256.Idx) :
    ∃ pc ∈ ([⟨r4_h, p0⟩] : List (View.Piece (Elt F) S2000x256 .f32)), y ∈ pc.1.set :=
  View.cover_of_tiled [⟨r4_h, p0⟩] S2000x256.size (by rfl) y

/-! ## The body's triple -/

set_option maxHeartbeats 1000000 in
/-- The body on three whole buffers — the aggregate's block at read contents `x0`, the residual's at `x1`, the
    output at anything — runs to a continuation that is handed the inputs unchanged and the output at
    `out4_2 x0 x1`. The body reads the output buffer once before overwriting it; that value is never used, and
    the whole-block store makes the result independent of it. -/
theorem sound_kernel4 (c : Dev nD) (E : Set ℕ) (i)
    (bufA : Memref sig .tc .vmem S2000x256 .f32) (wA : bufA.IsWhole)
    (bufB : Memref sig .tc .vmem S2000x256 .f32) (wB : bufB.IsWhole)
    (bufC : Memref sig .tc .vmem S2000x256 .f32) (wC : bufC.IsWhole)
    (x0 x1 : Vec F S2000x256 .f32) (K : PUnit → sProp 𝕄) :
    iprop(owns (c : Thread nD τ) bufA fullShare x0 ∗ owns (c : Thread nD τ) bufB fullShare x1
        ∗ (∃ d, owns (c : Thread nD τ) bufC fullShare d)
        ∗ (iprop(owns (c : Thread nD τ) bufA fullShare x0 ∗ owns (c : Thread nD τ) bufB fullShare x1
            ∗ owns (c : Thread nD τ) bufC fullShare (out4_2 x0 x1)) -∗ K ⟨⟩))
      ⊢ wp frame (wpE (defs₀ (F := F)) Variants.none c none) E (cc4__combine_kernel i bufA wA bufB wB bufC wC) K := by
  simp only [cc4__combine_kernel_eq_skeleton]; unfold cc4__combine_kernel_skel
  unfold owns
  iintro ⟨⟨%fa, %hfa, Ha⟩, ⟨%fb, %hfb, Hb⟩, ⟨%dc, %fc, -, Hc⟩, Hk⟩
  subst hfa; subst hfb
  sl_exec
  sl_step
  iapply Hk
  isplitl [Ha]
  · iexists fa; isplitr; · ipureintro; rfl
    iexact Ha
  isplitl [Hb]
  · iexists fb; isplitr; · ipureintro; rfl
    iexact Hb
  iexists _; isplitr
  swap; · iexact Hc
  ipureintro
  exact View.read_writes_eq_canon _ _ _ (cover4_2 _)

/-! ## The obligation at a grid point -/

/-- What the body is entered with at point `t`: the invariant, the debts, and the three current buffers. -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d)))

/-- What it hands back. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t))

/-- The body at any point: both inputs hold their blocks, so the triple applies; the invariant and the debts do
    not depend on the point and pass through untouched. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).Φ t.succ = (dat4 V c).Φ t.castSucc from rfl,
    show (dat4 V c).owesAt () t.succ = (dat4 V c).owesAt () t.castSucc from rfl,
    after4_0, after4_1, after4_2]
  iintro ⟨HΦ, Hdebt, ⟨%da, Ha⟩, ⟨%db, Hb⟩, ⟨%dc, Hc⟩⟩
  iapply (sound_kernel4 c Set.univ _ _ _ _ _ _ _ (iblk4 V c 0 t) (iblk4 V c 1 t) _)
  isplitl [Ha]; · iexact Ha
  isplitl [Hb]; · iexact Hb
  isplitl [Hc]; · iexists _; iexact Hc
  iintro ⟨Ha, Hb, Hc⟩
  isplitl [HΦ]; · iexact HΦ
  isplitl [Hdebt]; · iexact Hdebt
  isplitl [Ha]; · iexact Ha
  isplitl [Hb]; · iexact Hb
  iexact Hc

theorem body_obligation4 (c : Dev nD) : BodyObligation (dat4 (F := F) V c) (defs₀ (F := F)) Variants.none () Set.univ := fun t => by
  rw [bigSep_W4, bigSep_W4]
  exact sound_body4 V c t

end Cert.KernelIdeal.Hand

end
-- ==== Proof.R5Body.lean ====
/-
  Region 5 (the per-graph sums): the body obligation and the two ends of its invariant.

  First the body on any whole buffers, in each of the three cases of its two conditionals: the accumulator's buffer
  ends at the body's update of what it held (of zeros at the first point, where the body clears it first); at the
  last point the output buffer ends at that same value; elsewhere the output buffer is not touched. Then the
  obligation: at every point the two input buffers hold the point's blocks; the invariant hands the body the
  accumulator's buffer (at anything before the first point, at what the point before left afterwards); the run of
  the point's case updates it; the output window is idle at every point but the last and is handed back as found.
-/
import proofs.«430456_j88974542504687_1_alg».proof.Proof.R5Defs
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first conditional's test: the grid coordinate is zero. -/
abbrev isFirst5 (i : grid5.Coords) : Prop :=
  (Scalar.cmpi .ne (Scalar.extui (Scalar.cmpi .eq (BitVec.ofNat 32 (i 0).val) 0#32)) 0#32) = 1#1
/-- The second conditional's test: the grid coordinate is the last one. -/
abbrev isLast5 (i : grid5.Coords) : Prop := k5_cond2 i = 1#1

/-- Over the 25 points the first test holds at point 0 only, -/
theorem isFirst5_iff : ∀ t : Fin cfg5.N, isFirst5 (grid5.coords t) ↔ t.val = 0 :=
  (by decide +kernel : ∀ t : Fin grid5.N, isFirst5 (grid5.coords t) ↔ t.val = 0)
/-- and the second at point 24 only. -/
theorem isLast5_iff : ∀ t : Fin cfg5.N, isLast5 (grid5.coords t) ↔ t.val = 24 :=
  (by decide +kernel : ∀ t : Fin grid5.N, isLast5 (grid5.coords t) ↔ t.val = 24)

/-- The offsets of every load and store of the body: zero on both axes. -/
theorem offZero : (![0, 0] : Fin 2 → Nat) = fun _ => 0 := funext fun a => by fin_cases a <;> rfl

/-- A store through the whole accumulator rectangle, made last, covers every index. -/
theorem cover_last5 (w : Vec F S128x256 .f32) (L : List (View.Piece (Elt F) S128x256 .f32)) (y : S128x256.Idx) :
    ∃ p ∈ ((⟨r5_a, w⟩ : View.Piece (Elt F) S128x256 .f32) :: L), y ∈ p.1.set :=
  ⟨_, List.mem_cons_self, View.mem_set_unit_zero offZero inb_S128x256_S128x256_0_0 y⟩

/-- So after such a store the buffer reads the stored value, whatever it held and whatever was stored before. -/
theorem read_after_whole5 {κ : Kind} {sp : Space} (v : View sig κ sp S128x256 .f32) (f : v.ty.Contents (Elt F))
    (w : Vec F S128x256 .f32) (L : List (View.Piece (Elt F) S128x256 .f32)) :
    v.read (Elt F) (v.writes (Elt F) f ((⟨r5_a, w⟩ : View.Piece (Elt F) S128x256 .f32) :: L)) = w := by
  rw [View.read_writes_eq_canon _ _ _ (cover_last5 w L), View.canon_cons_unit_zero (S := S128x256) offZero]

/-- THE FIRST POINT. The body clears the accumulator, then adds the point's product to it: whatever the
    accumulator's buffer held, it ends at the update of zeros; the row block, the id block and the output buffer
    are as they were. -/
theorem run5_first (c : Dev nD) (i : grid5.Coords)
    (arg1 : Memref sig .tc .vmem S2000x256 .f32) (harg1 : arg1.IsWhole)
    (arg2 : Memref sig .tc .vmem S2000x1 .i32) (harg2 : arg2.IsWhole)
    (arg3 : Memref sig .tc .vmem S128x256 .f32) (harg3 : arg3.IsWhole)
    (arg4 : Memref sig .tc .vmem S128x256 .f32) (harg4 : arg4.IsWhole)
    (hc0 : isFirst5 i) (hc1 : ¬isLast5 i)
    (x0 : Vec F S2000x256 .f32) (x1 : Vec F S2000x1 .i32) (xo : Vec F S128x256 .f32)
    (E : Set ℕ) (K : PUnit → sProp 𝕄) :
    iprop(owns (c : Thread nD τ) arg1 fullShare x0 ∗ owns (c : Thread nD τ) arg2 fullShare x1
        ∗ owns (c : Thread nD τ) arg3 fullShare xo ∗ (∃ d, owns (c : Thread nD τ) arg4 fullShare d)
        ∗ (iprop(owns (c : Thread nD τ) arg1 fullShare x0 ∗ owns (c : Thread nD τ) arg2 fullShare x1
            ∗ owns (c : Thread nD τ) arg3 fullShare xo
            ∗ owns (c : Thread nD τ) arg4 fullShare (k5_pay2 x0 x1 (k5_pay1 (F := F)))) -∗ K ⟨⟩))
      ⊢ wp frame (wpE (defs₀ (F := F)) Variants.none c none) E (cc5__pool_kernel i arg1 harg1 arg2 harg2 arg3 harg3 arg4 harg4) K := by
  simp only [cc5__pool_kernel_eq_skeleton]; unfold cc5__pool_kernel_skel
  unfold owns
  iintro ⟨⟨%f0, %hf0, H0⟩, ⟨%f1, %hf1, H1⟩, ⟨%fo, %hfo, HO⟩, ⟨%ds, %fs, -, HS⟩, Hk⟩
  obtain rfl := harg1.eq_unread hf0; obtain rfl := harg2.eq_unread hf1; obtain rfl := harg3.eq_unread hfo
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [HO]
  · iexists _; isplitr; · ipureintro; exact harg3.read_unread _
    iexact HO
  iexists _; isplitr
  swap; · iexact HS
  ipureintro
  sl_unfold_words
  rw [read_after_whole5]
  simp only [View.readAt_eq_ld, harg1.read_unread, harg2.read_unread, View.ld_unit_zero (S := S2000x256) offZero,
    View.ld_unit_zero (S := S2000x1) offZero, View.readCov_unit_zero (S := S128x256) _ offZero]

/-- A MIDDLE POINT. Neither conditional is taken: the accumulator, held at `a`, ends at the update of `a`; the
    row block, the id block and the output buffer are as they were. -/
theorem run5_middle (c : Dev nD) (i : grid5.Coords)
    (arg1 : Memref sig .tc .vmem S2000x256 .f32) (harg1 : arg1.IsWhole)
    (arg2 : Memref sig .tc .vmem S2000x1 .i32) (harg2 : arg2.IsWhole)
    (arg3 : Memref sig .tc .vmem S128x256 .f32) (harg3 : arg3.IsWhole)
    (arg4 : Memref sig .tc .vmem S128x256 .f32) (harg4 : arg4.IsWhole)
    (hc0 : ¬isFirst5 i) (hc1 : ¬isLast5 i)
    (x0 : Vec F S2000x256 .f32) (x1 : Vec F S2000x1 .i32) (xo : Vec F S128x256 .f32) (a : Vec F S128x256 .f32)
    (E : Set ℕ) (K : PUnit → sProp 𝕄) :
    iprop(owns (c : Thread nD τ) arg1 fullShare x0 ∗ owns (c : Thread nD τ) arg2 fullShare x1
        ∗ owns (c : Thread nD τ) arg3 fullShare xo ∗ owns (c : Thread nD τ) arg4 fullShare a
        ∗ (iprop(owns (c : Thread nD τ) arg1 fullShare x0 ∗ owns (c : Thread nD τ) arg2 fullShare x1
            ∗ owns (c : Thread nD τ) arg3 fullShare xo
            ∗ owns (c : Thread nD τ) arg4 fullShare (k5_pay2 x0 x1 a)) -∗ K ⟨⟩))
      ⊢ wp frame (wpE (defs₀ (F := F)) Variants.none c none) E (cc5__pool_kernel i arg1 harg1 arg2 harg2 arg3 harg3 arg4 harg4) K := by
  simp only [cc5__pool_kernel_eq_skeleton]; unfold cc5__pool_kernel_skel
  unfold owns
  iintro ⟨⟨%f0, %hf0, H0⟩, ⟨%f1, %hf1, H1⟩, ⟨%fo, %hfo, HO⟩, ⟨%fs, %hfs, HS⟩, Hk⟩
  obtain rfl := harg1.eq_unread hf0; obtain rfl := harg2.eq_unread hf1; obtain rfl := harg3.eq_unread hfo
  obtain rfl := harg4.eq_unread hfs
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [HO]
  · iexists _; isplitr; · ipureintro; exact harg3.read_unread _
    iexact HO
  iexists _; isplitr
  swap; · iexact HS
  ipureintro
  sl_unfold_words
  rw [read_after_whole5]
  simp only [View.readAt_eq_ld, harg1.read_unread, harg2.read_unread, harg4.read_unread,
    View.ld_unit_zero (S := S2000x256) offZero, View.ld_unit_zero (S := S2000x1) offZero,
    View.ld_unit_zero (S := S128x256) offZero]

/-- THE LAST POINT. The first conditional is not taken, the second is: the accumulator, held at `a`, ends at the
    update of `a`, and the output buffer, whatever it held, ends at that same value; the row block and the id block
    are as they were. -/
theorem run5_last (c : Dev nD) (i : grid5.Coords)
    (arg1 : Memref sig .tc .vmem S2000x256 .f32) (harg1 : arg1.IsWhole)
    (arg2 : Memref sig .tc .vmem S2000x1 .i32) (harg2 : arg2.IsWhole)
    (arg3 : Memref sig .tc .vmem S128x256 .f32) (harg3 : arg3.IsWhole)
    (arg4 : Memref sig .tc .vmem S128x256 .f32) (harg4 : arg4.IsWhole)
    (hc0 : ¬isFirst5 i) (hc1 : isLast5 i)
    (x0 : Vec F S2000x256 .f32) (x1 : Vec F S2000x1 .i32) (a : Vec F S128x256 .f32)
    (E : Set ℕ) (K : PUnit → sProp 𝕄) :
    iprop(owns (c : Thread nD τ) arg1 fullShare x0 ∗ owns (c : Thread nD τ) arg2 fullShare x1
        ∗ (∃ d, owns (c : Thread nD τ) arg3 fullShare d) ∗ owns (c : Thread nD τ) arg4 fullShare a
        ∗ (iprop(owns (c : Thread nD τ) arg1 fullShare x0 ∗ owns (c : Thread nD τ) arg2 fullShare x1
            ∗ owns (c : Thread nD τ) arg3 fullShare (k5_pay2 x0 x1 a)
            ∗ owns (c : Thread nD τ) arg4 fullShare (k5_pay2 x0 x1 a)) -∗ K ⟨⟩))
      ⊢ wp frame (wpE (defs₀ (F := F)) Variants.none c none) E (cc5__pool_kernel i arg1 harg1 arg2 harg2 arg3 harg3 arg4 harg4) K := by
  simp only [cc5__pool_kernel_eq_skeleton]; unfold cc5__pool_kernel_skel
  unfold owns
  iintro ⟨⟨%f0, %hf0, H0⟩, ⟨%f1, %hf1, H1⟩, ⟨%dO, %fo, -, HO⟩, ⟨%fs, %hfs, HS⟩, Hk⟩
  obtain rfl := harg1.eq_unread hf0; obtain rfl := harg2.eq_unread hf1
  obtain rfl := harg4.eq_unread hfs
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [HO]
  · iexists _; isplitr
    swap; · iexact HO
    ipureintro
    sl_unfold_words
    rw [read_after_whole5]
    simp only [View.readAt_eq_ld, harg1.read_unread, harg2.read_unread, harg4.read_unread,
      View.ld_unit_zero (S := S2000x256) offZero, View.ld_unit_zero (S := S2000x1) offZero,
      View.ld_unit_zero (S := S128x256) offZero, View.readCov_unit_zero (S := S128x256) _ offZero]
  iexists _; isplitr
  swap; · iexact HS
  ipureintro
  sl_unfold_words
  rw [read_after_whole5]
  simp only [View.readAt_eq_ld, harg1.read_unread, harg2.read_unread, harg4.read_unread,
    View.ld_unit_zero (S := S2000x256) offZero, View.ld_unit_zero (S := S2000x1) offZero,
    View.ld_unit_zero (S := S128x256) offZero]

/- The TensorCore's buffer contents when the region is entered: every statement below is made at this parameter. -/
variable (V : (c : Dev nD) → (b : Ref sig .tc) → Buf (Elt F) ((c : Thread nD τ).loc b))

/-! ## What the body finds in its input buffers -/

/-- The row block's buffer holds the point's block of rows at every point. -/
theorem before5_0 (c : Dev nD) (t : Fin cfg5.N) (d) : (dat5 V c).before 0 t d = iblk5 V c 0 t :=
  ((dat5 V c).before_in_eq_fetched 0 rfl (fun _ => rfl) (fun _ _ _ => rfl)
    (fun t => by rw [after5_0]; unfold Dat.blockOf iblk5; rw [A_eq5]; try rfl) t d).trans
    (by unfold Dat.fetched Dat.blockOf iblk5; rw [A_eq5]; try rfl)

/-- The id block's buffer holds the point's block of graph ids at every point. -/
theorem before5_1 (c : Dev nD) (t : Fin cfg5.N) (d) : (dat5 V c).before 1 t d = iblk5 V c 1 t :=
  ((dat5 V c).before_in_eq_fetched 1 rfl (fun _ => rfl) (fun _ _ _ => rfl)
    (fun t => by rw [after5_1]; unfold Dat.blockOf iblk5; rw [A_eq5]; try rfl) t d).trans
    (by unfold Dat.fetched Dat.blockOf iblk5; rw [A_eq5]; try rfl)

/-! ## Where the windows are idle -/

/-- The inputs are never idle. -/
theorem live5_0 : ∀ t : Fin cfg5.N, cfg5.idle 0 (grid5.coords t) = false := fun _ => rfl
theorem live5_1 : ∀ t : Fin cfg5.N, cfg5.idle 1 (grid5.coords t) = false := fun _ => rfl
/-- The output window is idle wherever the second conditional is not taken, and there it is not written back; -/
theorem idle5_2 : ∀ t : Fin cfg5.N, ¬isLast5 (grid5.coords t) → cfg5.idle 2 (grid5.coords t) = true := by decide +kernel
theorem noFlush5_2 : ∀ t : Fin cfg5.N, ¬isLast5 (grid5.coords t) → (cfg5.win 2).flush t = false := by decide +kernel
/-- where it is taken the window is live. -/
theorem live5_2 : ∀ t : Fin cfg5.N, isLast5 (grid5.coords t) → cfg5.idle 2 (grid5.coords t) = false := by decide +kernel

/-! ## The accumulator at a point, by the point's case -/

theorem accAt5_first (c : Dev nD) (t : Fin cfg5.N) (hz : t.val = 0) :
    accAt5 V c t.val t.isLt = k5_pay2 (iblk5 V c 0 t) (iblk5 V c 1 t) (k5_pay1 (F := F)) := by
  obtain ⟨n, hn⟩ := t
  cases n with
  | zero => rfl
  | succ n => exact absurd hz (Nat.succ_ne_zero n)

theorem accAt5_later (c : Dev nD) (t : Fin cfg5.N) (hz : t.val ≠ 0) :
    accAt5 V c t.val t.isLt
      = k5_pay2 (iblk5 V c 0 t) (iblk5 V c 1 t) (accAt5 V c (t.val - 1) (Nat.lt_of_le_of_lt (Nat.sub_le _ _) t.isLt)) := by
  obtain ⟨n, hn⟩ := t
  cases n with
  | zero => exact absurd rfl hz
  | succ n => rfl

/-! ## The class's invariant, opened at the accumulator's buffer -/

/-- Every scoped buffer that is no staging buffer at some contents: the accumulator's buffer at some contents, and
    the others. -/
theorem PhiA5_eq (c : Dev nD) :
    (Pipeline.ΦA spec5 c : sProp 𝕄)
      = iprop(iprop(iprop(∃ d, owns (c : Thread nD τ) scM5 fullShare d)
          ∗ Pipeline.scopedRestBut (Ix := Unit) (Name := ℕ) (U := UR sig nD τ) (Lvl := ℕ) (Val := Elt F) spec5 c [cc5_scratch0])
          ∗ (∃ r, prngReg c r)) := by
  unfold Pipeline.ΦA; rw [scopedRest5_split]; simp only [scM5, owns_whole]; try rfl

/-! ## The body at a point -/

/-- Each window's current staging buffer at point `t`, as the pipeline passes it to the body, and its wholeness. -/
abbrev ms5_0 (t : Fin cfg5.N) : Memref sig .tc .vmem S2000x256 .f32 := win5_0.stage (cfg5.slots t 0)
abbrev hs5_0 (t : Fin cfg5.N) : (ms5_0 t).IsWhole := hstage5_0 ((cfg5.slots t 0).cast nbuf5_0)
abbrev ms5_1 (t : Fin cfg5.N) : Memref sig .tc .vmem S2000x1 .i32 := win5_1.stage (cfg5.slots t 1)
abbrev hs5_1 (t : Fin cfg5.N) : (ms5_1 t).IsWhole := hstage5_1 ((cfg5.slots t 1).cast nbuf5_1)
abbrev ms5_2 (t : Fin cfg5.N) : Memref sig .tc .vmem S128x256 .f32 := win5_2.stage (cfg5.slots t 2)
abbrev hs5_2 (t : Fin cfg5.N) : (ms5_2 t).IsWhole := hstage5_2 ((cfg5.slots t 2).cast nbuf5_2)

/-- What the body is called with at point `t`: the invariant, what the core owes, and the three current buffers, -/
def bodyPre5 (c : Dev nD) (t : Fin cfg5.N) : sProp 𝕄 :=
  iprop((dat5 V c).Φ t.castSucc ∗ (dat5 V c).owesAt () t.castSucc
    ∗ (∃ d, owns (c : Thread nD τ) (ms5_0 t) fullShare ((dat5 V c).before 0 t d))
    ∗ (∃ d, owns (c : Thread nD τ) (ms5_1 t) fullShare ((dat5 V c).before 1 t d))
    ∗ (∃ d, owns (c : Thread nD τ) (ms5_2 t) fullShare ((dat5 V c).before 2 t d)))

/-- and what it returns. -/
def bodyPost5 (c : Dev nD) (t : Fin cfg5.N) : sProp 𝕄 :=
  iprop((dat5 V c).Φ t.succ ∗ (dat5 V c).owesAt () t.succ
    ∗ (dat5 V c).leavesExact 0 t
    ∗ (dat5 V c).leavesExact 1 t
    ∗ (dat5 V c).leavesExact 2 t)

set_option maxHeartbeats 1600000 in
/-- The body at any point, by the point's case: point 0 (the invariant is the class's: the accumulator's buffer at
    anything), the points strictly between (the accumulator's buffer at what the point before left) and point 24
    (the same, and the output window live). In every case the accumulator is handed back at `accAt5` of the point. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1]
  rw [show (dat5 V c).owesAt () t.succ = (dat5 V c).owesAt () t.castSucc from rfl]
  rw [show (dat5 V c).Φ t.succ = PhiS5 V c (t.val + 1) t.isLt from rfl, PhiS5_succ]
  rw [show (dat5 V c).leavesExact 0 t = owns (c : Thread nD τ) (ms5_0 t) fullShare ((dat5 V c).after 0 t) from by
    unfold Dat.leavesExact; rw [live5_0 t], after5_0]
  rw [show (dat5 V c).leavesExact 1 t = owns (c : Thread nD τ) (ms5_1 t) fullShare ((dat5 V c).after 1 t) from by
    unfold Dat.leavesExact; rw [live5_1 t], after5_1]
  have hN : t.val < 25 := lt_of_lt_of_eq t.isLt (show cfg5.N = 25 from N_5)
  by_cases hl : t.val = 24
  · -- the last point
    have hz : t.val ≠ 0 := by omega
    have hF : ¬isFirst5 (grid5.coords t) := fun h => hz ((isFirst5_iff t).mp h)
    have hL : isLast5 (grid5.coords t) := (isLast5_iff t).mpr hl
    rw [show (dat5 V c).leavesExact 2 t = owns (c : Thread nD τ) (ms5_2 t) fullShare ((dat5 V c).after 2 t) from by
      unfold Dat.leavesExact; rw [live5_2 t hL], after5_2]
    rw [PhiS5_castSucc V c t, PhiS5_pos V c _ _ hz, accAt5_later V c t hz]
    iintro ⟨⟨HS, Hr, Hg⟩, Ho, ⟨%d0, H0⟩, ⟨%d1, H1⟩, ⟨%d2, H2⟩⟩
    iapply (run5_last c (grid5.coords t) (ms5_0 t) (hs5_0 t) (ms5_1 t) (hs5_1 t) (ms5_2 t) (hs5_2 t) scM5
      (Memref.isWhole_whole _) hF hL (iblk5 V c 0 t) (iblk5 V c 1 t) (accAt5 V c (t.val - 1) _) Set.univ _)
    isplitl [H0]; · iexact H0
    isplitl [H1]; · iexact H1
    isplitl [H2]; · iexists _; iexact H2
    isplitl [HS]; · iexact HS
    iintro ⟨H0, H1, H2, HS⟩
    isplitl [HS Hr Hg]
    · isplitl [HS]; · iexact HS
      isplitl [Hr]; · iexact Hr
      iexact Hg
    isplitl [Ho]; · iexact Ho
    isplitl [H0]; · iexact H0
    isplitl [H1]; · iexact H1
    iexact H2
  · have hL : ¬isLast5 (grid5.coords t) := fun h => hl ((isLast5_iff t).mp h)
    rw [Dat.leavesExact_idle (dat5 V c) 2 t (idle5_2 t hL) (noFlush5_2 t hL)]
    by_cases hz : t.val = 0
    · -- the first point
      have hF : isFirst5 (grid5.coords t) := (isFirst5_iff t).mpr hz
      rw [PhiS5_castSucc V c t, PhiS5_zero V c _ _ hz, PhiA5_eq, accAt5_first V c t hz]
      iintro ⟨⟨⟨HS, Hr⟩, Hg⟩, Ho, ⟨%d0, H0⟩, ⟨%d1, H1⟩, ⟨%d2, H2⟩⟩
      iapply (run5_first c (grid5.coords t) (ms5_0 t) (hs5_0 t) (ms5_1 t) (hs5_1 t) (ms5_2 t) (hs5_2 t) scM5
        (Memref.isWhole_whole _) hF hL (iblk5 V c 0 t) (iblk5 V c 1 t) ((dat5 V c).before 2 t d2) Set.univ _)
      isplitl [H0]; · iexact H0
      isplitl [H1]; · iexact H1
      isplitl [H2]; · iexact H2
      isplitl [HS]; · iexact HS
      iintro ⟨H0, H1, H2, HS⟩
      isplitl [HS Hr Hg]
      · isplitl [HS]; · iexact HS
        isplitl [Hr]; · iexact Hr
        iexact Hg
      isplitl [Ho]; · iexact Ho
      isplitl [H0]; · iexact H0
      isplitl [H1]; · iexact H1
      iexists _; iexact H2
    · -- a point strictly between
      have hF : ¬isFirst5 (grid5.coords t) := fun h => hz ((isFirst5_iff t).mp h)
      rw [PhiS5_castSucc V c t, PhiS5_pos V c _ _ hz, accAt5_later V c t hz]
      iintro ⟨⟨HS, Hr, Hg⟩, Ho, ⟨%d0, H0⟩, ⟨%d1, H1⟩, ⟨%d2, H2⟩⟩
      iapply (run5_middle c (grid5.coords t) (ms5_0 t) (hs5_0 t) (ms5_1 t) (hs5_1 t) (ms5_2 t) (hs5_2 t) scM5
        (Memref.isWhole_whole _) hF hL (iblk5 V c 0 t) (iblk5 V c 1 t) ((dat5 V c).before 2 t d2)
        (accAt5 V c (t.val - 1) _) Set.univ _)
      isplitl [H0]; · iexact H0
      isplitl [H1]; · iexact H1
      isplitl [H2]; · iexact H2
      isplitl [HS]; · iexact HS
      iintro ⟨H0, H1, H2, HS⟩
      isplitl [HS Hr Hg]
      · isplitl [HS]; · iexact HS
        isplitl [Hr]; · iexact Hr
        iexact Hg
      isplitl [Ho]; · iexact Ho
      isplitl [H0]; · iexact H0
      isplitl [H1]; · iexact H1
      iexists _; iexact H2

/-! ## The obligation and the invariant's two ends -/

theorem body_obligation5 (c : Dev nD) : BodyObligation (dat5 (F := F) V c) (defs₀ (F := F)) Variants.none () Set.univ := fun t => by
  rw [bigSep_W5, bigSep_W5]
  exact sound_body5 V c t

/-- What the launch hands the region is the invariant before the first point. -/
theorem hin5 (c : Dev nD) : Pipeline.ΦA spec5 c ⊢ (dat5 V c).Φ 0 := by
  rw [show (dat5 V c).Φ 0 = PhiS5 V c 0 (Nat.zero_le _) from rfl, PhiS5_zero V c 0 _ rfl]

/-- After the last point the invariant gives the class's invariant back: the accumulator's named contents are forgotten. -/
theorem hout5 (c : Dev nD) : (dat5 V c).Φ (Fin.last cfg5.N) ⊢ Pipeline.ΦA spec5 c := by
  have hne : (Fin.last cfg5.N).val ≠ 0 := by rw [Fin.val_last]; have : cfg5.N = 25 := N_5; omega
  rw [show (dat5 V c).Φ (Fin.last cfg5.N) = PhiS5 V c (Fin.last cfg5.N).val (Nat.le_of_lt_succ (Fin.last cfg5.N).isLt) from rfl,
    PhiS5_pos V c _ _ hne, PhiA5_eq]
  iintro ⟨HS, Hr, Hg⟩
  isplitl [HS Hr]
  · isplitl [HS]; · iexists _; iexact HS
    iexact Hr
  iexact Hg

end Cert.KernelIdeal.Hand

end
-- ==== Proof.Run.lean ====
/-
  The run of @main over the boundary contents of the fold: each kernel region as a segment over the thread state "every
  unscoped buffer at the boundary's contents, the generator register at some state, nothing owed", each stretch of host
  operations as a segment between two boundaries, the nine segments in @main's order, and the launch over them: every
  weakly fair execution terminates, and every final memory holds the last boundary's contents in every unscoped buffer.
-/
import proofs.«430456_j88974542504687_1_alg».proof.Proof.Run1
import proofs.«430456_j88974542504687_1_alg».proof.Proof.R0Body
import proofs.«430456_j88974542504687_1_alg».proof.Proof.R1Body
import proofs.«430456_j88974542504687_1_alg».proof.Proof.R2Body
import proofs.«430456_j88974542504687_1_alg».proof.Proof.R3Body
import proofs.«430456_j88974542504687_1_alg».proof.Proof.R4Body
import proofs.«430456_j88974542504687_1_alg».proof.Proof.R5Body
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The proof data family and the thread state -/

/-- The prefetched tables' admissible contents: no pipeline has a table. -/
abbrev adm : (p : Fin 6) → (pcfgs (F := F) p).Adm := fun p => (cfgs p).toPCfg_adm
/-- Every pipeline's proof data, each at its own region's entry contents. A literal match, so that the pinned
    configuration at a numeral reduces to the printed one. -/
def pdats : (p : Fin 6) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V1 m ρ) c
  | ⟨2, _⟩ => fun c => dat2 (V3 m ρ) c
  | ⟨3, _⟩ => fun c => dat3 (V4 m ρ) c
  | ⟨4, _⟩ => fun c => dat4 (V6 m ρ) c
  | ⟨5, _⟩ => fun c => dat5 (V8 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (a region's
    invariant takes it in and gives it back) and what the core owes, which is nothing. -/
abbrev R (c : Dev nD) : sProp 𝕄 := iprop((∃ r, prngReg c r) ∗ ∃ W, owes (c : Thread nD τ) (0 : CellTallies nD τ sig Unit) W)
/-- A stretch of host operations as a segment: over the unscoped references from the contents W, with R riding along;
    it is left with those references at what the operations make of W. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No operation of the first aggregation allocates a buffer. -/
theorem hostOps2_fresh : (hostOps2 : List (HloOp τ sig (Elt F))).Forall fun op => op.fresh = ∅ := by
  simp only [List.Forall]; repeat' constructor
/-- No operation of the second aggregation allocates a buffer. -/
theorem hostOps4_fresh : (hostOps4 : List (HloOp τ sig (Elt F))).Forall fun op => op.fresh = ∅ := by
  simp only [List.Forall]; repeat' constructor
/-- The reshape allocates no buffer. -/
theorem hostOps5_fresh : (hostOps5 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what the core owes: every unscoped buffer at the last boundary's contents, the
    generator register at some state. -/
abbrev Tₙ (c : Dev nD) : sProp 𝕄 := iprop(StableHlo.held (c : Thread nD τ) (Pipeline.ucRefs τ sig) (W9 m ρ c) ∗ ∃ r, prngReg c r)

/-! # The regions as segments

Each region is entered from every unscoped buffer at its entry contents beside R. At the entry its windows' arrays are
split out of the unscoped buffers and the rest bypasses the region; the generator register goes into the region's
invariant and comes back out of it; at the exit the arrays are put back, now at what the write-backs left, which with
the bypassing rest is every unscoped buffer at the exit contents. Nothing is owed, and no kernel has a semaphore of its
own. -/

set_option backward.isDefEq.respectTransparency.types false in
/-- Region 0 (the projection): entered from every unscoped buffer at W0, left at W1. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 (the first layer's two products): entered from every unscoped buffer at W1, left at W2. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V1 m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec1 c (V1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V1 m ρ c) (V2 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 (the first layer's rectified aggregate plus residual): entered from every unscoped buffer at W3, left at W4. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V3 m ρ) c).loose
  hwaits := Pipeline.hwaits_of_owed_zero _ _ _ _ L lv 2 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec2 c (V3 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V3 m ρ c) (V4 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 (the second layer's two products): entered from every unscoped buffer at W4, left at W5. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V4 m ρ) c).loose
  hwaits := Pipeline.hwaits_of_owed_zero _ _ _ _ L lv 3 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec3 c (V4 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V4 m ρ c) (V5 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 (the second layer's rectified aggregate plus residual): entered from every unscoped buffer at W6, left at W7. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V6 m ρ) c).loose
  hwaits := Pipeline.hwaits_of_owed_zero _ _ _ _ L lv 4 fun _ _ => rfl
  pre c := iprop(StableHlo.held (c : Thread nD τ) (Pipeline.ucRefs τ sig) (W6 m ρ c) ∗ R c)
  post c := iprop(StableHlo.held (c : Thread nD τ) (Pipeline.ucRefs τ sig) (W7 m ρ c) ∗ R c)
  X c := iprop(∃ r, prngReg c r)
  Y c := iprop(∃ r, prngReg c r)
  Z c := Pipeline.unscopedRest (Ix := Unit) (Name := ℕ) (U := UR sig nD τ) (Lvl := ℕ) spec4 c (V6 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V6 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V6 m ρ c) (V7 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5 (the per-graph sums): entered from every unscoped buffer at W8, left at W9, which is what @main returns
    from. Its invariant is its own: it carries the running sums in the scratch buffer from one grid point to the next. What
    the launch hands the region makes the class's invariant, which is the region's before the first point; after the
    last point the region's invariant gives the class's back, the scratch buffer's contents forgotten. -/
def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (V8 m ρ) c).loose
  hwaits := Pipeline.hwaits_of_owed_zero _ _ _ _ L lv 5 fun _ _ => rfl
  pre c := iprop(StableHlo.held (c : Thread nD τ) (Pipeline.ucRefs τ sig) (W8 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec5 c (V8 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (V8 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (show Pipeline.ΦA spec5 c ⊢ (pdats m ρ 5 c).Φ 0 from hin5 (V8 m ρ) c)
    unfold Pipeline.ΦA
    iintro ⟨Hp, -, Hr⟩
    isplitl [Hr]; · iexact Hr
    iexact Hp
  hout c := by
    rw [Pipeline.ownSems0_none]
    refine BIBase.Entails.trans (show (pdats m ρ 5 c).Φ (Fin.last _) ⊢ Pipeline.ΦA spec5 c from hout5 (V8 m ρ) c) ?_
    unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (V8 m ρ c) (V9 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! # @main as segments, and the launch -/

/-- @main's nine segments in order: a region per kernel call, a host segment per stretch from its boundary's contents. -/
abbrev segs : List (Pipeline.Seg (pcfgs (F := F)) adm (pdats m ρ) () defs₀ 𝒱₀ L lv) :=
  [ .region (reg0 m ρ),
    .region (reg1 m ρ),
    .host (hseg hostOps2 hostOps2_sub hostOps2_fresh (W2 m ρ)),
    .region (reg2 m ρ),
    .region (reg3 m ρ),
    .host (hseg hostOps4 hostOps4_sub hostOps4_fresh (W5 m ρ)),
    .region (reg4 m ρ),
    .host (hseg hostOps5 hostOps5_sub hostOps5_fresh (W7 m ρ)),
    .region (reg5 m ρ) ]
/-- @main is the run of the segments: it is the chain of its nine items, and the segments' run is the same chain. -/
theorem main_run (c : Dev nD) : main (F := F) c = Pipeline.Seg.run (segs m ρ) := (main_chain c).trans (by chain_rfl)

set_option backward.isDefEq.respectTransparency.types false in
/-- THE RUN: at the compiled mesh, from any memory with zero counters, every weakly fair execution of @main on the
    TensorCores terminates, nothing faulting, and every final memory holds, in every unscoped buffer of every core, the
    last boundary's contents W9. The launch over the nine segments; the thread states chain because each segment is
    entered from exactly what the one before it left; the last thread state is read against the final state buffer by
    buffer. -/
theorem run_all : θ_run defs (onTc (τ := τ) (main (F := F))) ⟨m, fun _ => 0, ρ⟩ (fun r => ∀ c : Dev nD,
      ∀ b ∈ Pipeline.ucRefs τ sig, r.2.mem ((c : Thread nD τ).1, b) = W9 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c b hb => h c b hb)

end Cert.KernelIdeal.Hand

end
-- ==== Proof.K.R0Defs.lean ====
/-
  Region 0 (the projection x · W_map, one row block of 2000 rows per grid point): the blocks the pipeline hands the body,
  what the body leaves in the output block, and the region's proof data. The row block of x at point t is rows
  2000·t … 2000·t + 1999; the weight block is the whole weight matrix at every point; the output block is the
  matrix product of the two, stored whole.
-/
import proofs.«430456_j88974542504687_1_alg».proof.Proof.Gen.Kernel.Launch
import proofs.«430456_j88974542504687_1_alg».proof.Proof.Gen.Kernel.Skeleton
import proofs.«430456_j88974542504687_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/- The TensorCore's buffer contents when the region is entered: every statement below is made at this parameter. -/
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole-block rectangles the body loads and stores through. -/
abbrev r0_x : Rect S2000x64 := Rect.unit (s := S2000x64) ![0, 0] S2000x64.size inb_S2000x64_S2000x64_0_0
abbrev r0_w : Rect S64x256 := Rect.unit (s := S64x256) ![0, 0] S64x256.size inb_S64x256_S64x256_0_0
abbrev r0_o : Rect S2000x256 := Rect.unit (s := S2000x256) ![0, 0] S2000x256.size inb_S2000x256_S2000x256_0_0

/-- The output block after the body: its one store, the product of the row block and the weights. -/
def out0_2 (x0 : Vec F S2000x64 .f32) (x1 : Vec F S64x256 .f32) : Vec F S2000x256 .f32 :=
  View.canon [⟨r0_o, k0_pay1 (View.ld x0 r0_x) (View.ld x1 r0_w)⟩]

/-- The proof data of region 0 on core `c`: arrays as found; the inputs' blocks left in place, the output block at
    `out0_2` of them; the scoped rest and the generator register untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

end Cert.Kernel.Hand

end
-- ==== Proof.K.R1Defs.lean ====
/-
  Region 1 (first layer's two projections of one row block: h · W, and the rectified h · W_res): the blocks the
  pipeline hands the body, what the body leaves in the two output blocks, and the region's proof data.
-/
import proofs.«430456_j88974542504687_1_alg».proof.Proof.Gen.Kernel.Launch
import proofs.«430456_j88974542504687_1_alg».proof.Proof.Gen.Kernel.Skeleton
import proofs.«430456_j88974542504687_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/- The TensorCore's buffer contents when the region is entered: every statement below is made at this parameter. -/
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The whole-block rectangles the body loads and stores through. -/
abbrev r1_h : Rect S2000x256 := Rect.unit (s := S2000x256) ![0, 0] S2000x256.size inb_S2000x256_S2000x256_0_0
abbrev r1_w : Rect S256x256 := Rect.unit (s := S256x256) ![0, 0] S256x256.size inb_S256x256_S256x256_0_0

/-- The first output block after the body: the row block times the layer's weights. -/
def out1_3 (x0 : Vec F S2000x256 .f32) (x1 : Vec F S256x256 .f32) : Vec F S2000x256 .f32 :=
  View.canon [⟨r1_h, k1_pay2 (View.ld x0 r1_h) (View.ld x1 r1_w)⟩]

/-- The second output block after the body: the row block times the residual weights, rectified. -/
def out1_4 (x0 : Vec F S2000x256 .f32) (x2 : Vec F S256x256 .f32) : Vec F S2000x256 .f32 :=
  View.canon [⟨r1_h, k1_pay3 (View.ld x0 r1_h) (View.ld x2 r1_w)⟩]

/-- The proof data of region 1 on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t)
    | ⟨4, _⟩ => out1_4 (iblk1 V c 0 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) := by dsimp only [dat1]
theorem after1_4 (c : Dev nD) (t : Fin cfg1.N) : (dat1 V c).after 4 t = out1_4 (iblk1 V c 0 t) (iblk1 V c 2 t) := by dsimp only [dat1]

end Cert.Kernel.Hand

end
-- ==== Proof.K.R2Defs.lean ====
/-
  Region 2 (first layer's combination of one row block: the rectified aggregate plus the residual branch): the
  blocks the pipeline hands the body, what the body leaves in the output block, and the region's proof data.
-/
import proofs.«430456_j88974542504687_1_alg».proof.Proof.Gen.Kernel.Launch
import proofs.«430456_j88974542504687_1_alg».proof.Proof.Gen.Kernel.Skeleton
import proofs.«430456_j88974542504687_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/- The TensorCore's buffer contents when the region is entered: every statement below is made at this parameter. -/
variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The whole-block rectangle the body loads and stores through. -/
abbrev r2_h : Rect S2000x256 := Rect.unit (s := S2000x256) ![0, 0] S2000x256.size inb_S2000x256_S2000x256_0_0

/-- The output block after the body: max(aggregate, 0) + residual, entry by entry. -/
def out2_2 (x0 : Vec F S2000x256 .f32) (x1 : Vec F S2000x256 .f32) : Vec F S2000x256 .f32 :=
  View.canon [⟨r2_h, k2_pay1 (View.ld x0 r2_h) (View.ld x1 r2_h)⟩]

/-- The proof data of region 2 on core `c`. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

end Cert.Kernel.Hand

end
-- ==== Proof.K.R3Defs.lean ====
/-
  Region 3 (second layer's two projections of one row block: h · W, and the rectified h · W_res): the blocks the
  pipeline hands the body, what the body leaves in the two output blocks, and the region's proof data.
-/
import proofs.«430456_j88974542504687_1_alg».proof.Proof.Gen.Kernel.Launch
import proofs.«430456_j88974542504687_1_alg».proof.Proof.Gen.Kernel.Skeleton
import proofs.«430456_j88974542504687_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/- The TensorCore's buffer contents when the region is entered: every statement below is made at this parameter. -/
variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The whole-block rectangles the body loads and stores through. -/
abbrev r3_h : Rect S2000x256 := Rect.unit (s := S2000x256) ![0, 0] S2000x256.size inb_S2000x256_S2000x256_0_0
abbrev r3_w : Rect S256x256 := Rect.unit (s := S256x256) ![0, 0] S256x256.size inb_S256x256_S256x256_0_0

/-- The first output block after the body: the row block times the layer's weights. -/
def out3_3 (x0 : Vec F S2000x256 .f32) (x1 : Vec F S256x256 .f32) : Vec F S2000x256 .f32 :=
  View.canon [⟨r3_h, k3_pay2 (View.ld x0 r3_h) (View.ld x1 r3_w)⟩]

/-- The second output block after the body: the row block times the residual weights, rectified. -/
def out3_4 (x0 : Vec F S2000x256 .f32) (x2 : Vec F S256x256 .f32) : Vec F S2000x256 .f32 :=
  View.canon [⟨r3_h, k3_pay3 (View.ld x0 r3_h) (View.ld x2 r3_w)⟩]

/-- The proof data of region 3 on core `c`. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t)
    | ⟨4, _⟩ => out3_4 (iblk3 V c 0 t) (iblk3 V c 2 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = out3_3 (iblk3 V c 0 t) (iblk3 V c 1 t) := by dsimp only [dat3]
theorem after3_4 (c : Dev nD) (t : Fin cfg3.N) : (dat3 V c).after 4 t = out3_4 (iblk3 V c 0 t) (iblk3 V c 2 t) := by dsimp only [dat3]

end Cert.Kernel.Hand

end
-- ==== Proof.K.R4Defs.lean ====
/-
  Region 4 (second layer's combination of one row block: the rectified aggregate plus the residual branch): the
  blocks the pipeline hands the body, what the body leaves in the output block, and the region's proof data.
-/
import proofs.«430456_j88974542504687_1_alg».proof.Proof.Gen.Kernel.Launch
import proofs.«430456_j88974542504687_1_alg».proof.Proof.Gen.Kernel.Skeleton
import proofs.«430456_j88974542504687_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/- The TensorCore's buffer contents when the region is entered: every statement below is made at this parameter. -/
variable (V : (c : Dev nD) → (b : Ref sig .tc) → Buf (Elt F) ((c : Thread nD τ).loc b))

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The whole-block rectangle the body loads and stores through. -/
abbrev r4_h : Rect S2000x256 := Rect.unit (s := S2000x256) ![0, 0] S2000x256.size inb_S2000x256_S2000x256_0_0

/-- The output block after the body: max(aggregate, 0) + residual, entry by entry. -/
def out4_2 (x0 : Vec F S2000x256 .f32) (x1 : Vec F S2000x256 .f32) : Vec F S2000x256 .f32 :=
  View.canon [⟨r4_h, k4_pay1 (View.ld x0 r4_h) (View.ld x1 r4_h)⟩]

/-- The proof data of region 4 on core `c`. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => out4_2 (iblk4 V c 0 t) (iblk4 V c 1 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = out4_2 (iblk4 V c 0 t) (iblk4 V c 1 t) := by dsimp only [dat4]

end Cert.Kernel.Hand

end
-- ==== Proof.K.R5Defs.lean ====
/-
  Region 5 (the per-graph sums): at grid point t the body adds, into an accumulator it keeps in a scratch buffer
  across points, the product of the transposed one-hot matrix of the point's 2000 graph ids with the point's 2000
  rows; it zeroes the accumulator first at point 0 and copies it to the output block at the last point. Here: the
  blocks the pipeline hands the body, the accumulator after each point as a recursion over the points, the
  invariant that carries it, and the region's proof data.
-/
import proofs.«430456_j88974542504687_1_alg».proof.Proof.Gen.Kernel.Launch
import proofs.«430456_j88974542504687_1_alg».proof.Proof.Gen.Kernel.Skeleton
import proofs.«430456_j88974542504687_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/- The TensorCore's buffer contents when the region is entered: every statement below is made at this parameter. -/
variable (V : (c : Dev nD) → (b : Ref sig .tc) → Buf (Elt F) ((c : Thread nD τ).loc b))

/-- Window `w`'s block at point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- The whole-block rectangles the body loads and stores through. -/
abbrev r5_h : Rect S2000x256 := Rect.unit (s := S2000x256) ![0, 0] S2000x256.size inb_S2000x256_S2000x256_0_0
abbrev r5_g : Rect S2000x1 := Rect.unit (s := S2000x1) ![0, 0] S2000x1.size inb_S2000x1_S2000x1_0_0
abbrev r5_a : Rect S128x256 := Rect.unit (s := S128x256) ![0, 0] S128x256.size inb_S128x256_S128x256_0_0

/-- The scratch buffer that holds the accumulator, as the memref the body is called with. -/
abbrev scM5 : Memref sig .tc .vmem S128x256 .f32 := Memref.whole cc5_scratch0

/-- THE ACCUMULATOR after the body at point `n`: at point 0 the body's update of the zero accumulator, afterwards its
    update of what the point before left. -/
def accAt5 (c : Dev nD) : (n : ℕ) → n < cfg5.N → Vec F S128x256 .f32
  | 0, hn => k5_pay2 (iblk5 V c 0 ⟨0, hn⟩) (iblk5 V c 1 ⟨0, hn⟩) (k5_pay1 (F := F))
  | n + 1, hn => k5_pay2 (iblk5 V c 0 ⟨n + 1, hn⟩) (iblk5 V c 1 ⟨n + 1, hn⟩) (accAt5 c n (Nat.lt_of_succ_lt hn))

theorem accAt5_zero (c : Dev nD) (hn : 0 < cfg5.N) :
    accAt5 V c 0 hn = k5_pay2 (iblk5 V c 0 ⟨0, hn⟩) (iblk5 V c 1 ⟨0, hn⟩) (k5_pay1 (F := F)) := rfl

theorem accAt5_succ (c : Dev nD) (n : ℕ) (hn : n + 1 < cfg5.N) :
    accAt5 V c (n + 1) hn = k5_pay2 (iblk5 V c 0 ⟨n + 1, hn⟩) (iblk5 V c 1 ⟨n + 1, hn⟩) (accAt5 V c n (Nat.lt_of_succ_lt hn)) := rfl

/-- The region invariant before position `n`: before the first point every scoped buffer that is no staging buffer at
    some contents and the generator register at some state; afterwards the same with the accumulator's buffer at what
    the point before left in it. -/
def PhiS5 (c : Dev nD) : (n : ℕ) → n ≤ cfg5.N → sProp 𝕄
  | 0, _ => Pipeline.ΦA spec5 c
  | n + 1, hn => iprop(owns (c : Thread nD τ) scM5 fullShare (accAt5 V c n hn)
      ∗ Pipeline.scopedRestBut (Ix := Unit) (Name := ℕ) (U := UR sig nD τ) (Lvl := ℕ) (Val := Elt F) spec5 c [cc5_scratch0]
      ∗ (∃ r, prngReg c r))

theorem PhiS5_zero (c : Dev nD) (n : ℕ) (h : n ≤ cfg5.N) (hz : n = 0) : PhiS5 V c n h = Pipeline.ΦA spec5 c := by
  subst hz; rfl

theorem PhiS5_succ (c : Dev nD) (n : ℕ) (hn : n < cfg5.N) :
    PhiS5 V c (n + 1) hn = iprop(owns (c : Thread nD τ) scM5 fullShare (accAt5 V c n hn)
      ∗ Pipeline.scopedRestBut (Ix := Unit) (Name := ℕ) (U := UR sig nD τ) (Lvl := ℕ) (Val := Elt F) spec5 c [cc5_scratch0]
      ∗ (∃ r, prngReg c r)) := rfl

theorem PhiS5_pos (c : Dev nD) (n : ℕ) (h : n ≤ cfg5.N) (hz : n ≠ 0) :
    PhiS5 V c n h = iprop(owns (c : Thread nD τ) scM5 fullShare (accAt5 V c (n - 1) (by omega))
      ∗ Pipeline.scopedRestBut (Ix := Unit) (Name := ℕ) (U := UR sig nD τ) (Lvl := ℕ) (Val := Elt F) spec5 c [cc5_scratch0]
      ∗ (∃ r, prngReg c r)) := by
  cases n with
  | zero => exact absurd rfl hz
  | succ n => rfl

/-- The proof data of region 5 on core `c`: arrays as found; the inputs' blocks left in place; the output block at
    the accumulator (stored there at the last point only; elsewhere the window is idle and this entry is not read);
    the invariant `PhiS5`; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => accAt5 V c t.val t.isLt
  Φ t := PhiS5 V c t.val (Nat.le_of_lt_succ t.isLt)
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = accAt5 V c t.val t.isLt := by dsimp only [dat5]

theorem PhiS5_castSucc (c : Dev nD) (t : Fin cfg5.N) :
    (dat5 V c).Φ t.castSucc = PhiS5 V c t.val (Nat.le_of_lt t.isLt) := by
  dsimp only [dat5]; simp only [Fin.coe_castSucc]

end Cert.Kernel.Hand

end
-- ==== Proof.K.Run1.lean ====
/-
  The contents of the TensorCore's buffers at each boundary between two items of @main, as a fold from the launch
  memory: a kernel region leaves its windows' arrays at what its write-backs make of them and every other buffer as it
  found it; a stretch of host operations leaves what the operations compute. Read back through the fold, each of the
  nine argument arrays ends holding what was launched (no host operation writes one, and a region only reads one,
  through an input window), and the result array ends at what the last region's write-backs leave in it.
-/
import proofs.«430456_j88974542504687_1_alg».proof.Proof.K.R0Defs
import proofs.«430456_j88974542504687_1_alg».proof.Proof.K.R1Defs
import proofs.«430456_j88974542504687_1_alg».proof.Proof.K.R2Defs
import proofs.«430456_j88974542504687_1_alg».proof.Proof.K.R3Defs
import proofs.«430456_j88974542504687_1_alg».proof.Proof.K.R4Defs
import proofs.«430456_j88974542504687_1_alg».proof.Proof.K.R5Defs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The buffer contents at each boundary of @main

W0 is the launch memory; WJ, for J from 1 to 9, is what the J-th item of @main leaves. VJ is WJ read at the
TensorCore's references, which is what a region's proof data are stated at. -/

/-- Core c's buffers at launch. -/
abbrev W0 : Dev nD → Valuation τ sig (Elt F) := fun c b => (s₀ m ρ).mem ((c : Dev nD), b)
/-- The same read at the TensorCore's references: what region 0 is entered from. -/
abbrev V0 : (c : Dev nD) → (b : Ref sig .tc) → Buf (Elt F) ((c : Thread nD τ).loc b) := fun c b => W0 m ρ c b

/-! ## Item 1: region 0, the projection -/

/-- At region 0's exit: its three arrays at what the pipeline leaves (the two inputs as entered, the output with every
    block written back), every other buffer as entered. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
/-- Region 0's exit contents at the TensorCore's references: what region 1 is entered from. -/
abbrev V1 : (c : Dev nD) → (b : Ref sig .tc) → Buf (Elt F) ((c : Thread nD τ).loc b) := fun c b => W1 m ρ c b
/-- At the exit each array of the region holds what the pipeline leaves, and every other buffer what it held at entry. -/
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-! ## Item 2: region 1, the first layer's two products -/

/-- At region 1's exit: its five arrays at what the pipeline leaves, every other buffer as entered. -/
def W2 (c : Dev nD) : Valuation τ sig (Elt F) :=
  Pipeline.withArrays spec1 c (W1 m ρ c) fun w => (dat1 (V1 m ρ) c).arrAt w cfg1.N
theorem W2_arr (c : Dev nD) (w : Fin cfg1.W) :
    W2 m ρ c (Proc.devRef .tc (Pipeline.arrRef spec1 w)) = (dat1 (V1 m ρ) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m ρ c (Proc.devRef .tc b) = W1 m ρ c (Proc.devRef .tc b) := by
  unfold W2; exact Pipeline.withArrays_of_ne spec1 c _ _ b hb
/-- Region 1's exit contents at the TensorCore's references. -/
abbrev V2 : (c : Dev nD) → (b : Ref sig .tc) → Buf (Elt F) ((c : Thread nD τ).loc b) := fun c b => W2 m ρ c b
theorem hF1 (c : Dev nD) (w : Fin cfg1.W) : (dat1 (V1 m ρ) c).arrAt w cfg1.N = V2 m ρ c (Pipeline.arrRef spec1 w) :=
  (W2_arr m ρ c w).symm
theorem hrest1 (c : Dev nD) : ∀ b, b ∉ Finset.univ.image (Pipeline.arrRef spec1) → V2 m ρ c b = V1 m ρ c b :=
  fun b hb => W2_of_ne m ρ c b fun w e => hb (Finset.mem_image.mpr ⟨w, Finset.mem_univ _, e⟩)

/-! ## Item 3: the first aggregation (gather the source rows, scatter-add them at the destinations) -/

/-- After the first aggregation's host operations: what region 2 is entered from. -/
abbrev W3 : Dev nD → Valuation τ sig (Elt F) := fun c => StableHlo.after hostOps2 (W2 m ρ c)
abbrev V3 : (c : Dev nD) → (b : Ref sig .tc) → Buf (Elt F) ((c : Thread nD τ).loc b) := fun c b => W3 m ρ c b

/-- The references the first aggregation writes: the result of each of its thirteen operations. -/
abbrev written2 : List (Ref sig .tc) :=
  [main_c, main_v2, main_v3, main_c_0, main_v4, main_v5, main_v6, main_v7, main_v8, main_cst, main_v9, main_v10, main_v11]
theorem hostOps2_writes :
    (hostOps2 : List (HloOp τ sig (Elt F))).Forall fun op => op.writes ⊆ (written2.map (Proc.devRef (τ := τ) .tc)).toFinset := by
  simp only [hostOps2, List.Forall, StableHlo.nullary_writes, StableHlo.unary_writes, StableHlo.binary_writes,
    StableHlo.ternary_writes, Finset.singleton_subset_iff, List.mem_toFinset]
  repeat' apply And.intro
  all_goals exact List.mem_map_of_mem (by decide)
/-- A reference the first aggregation does not write keeps its contents across it. -/
theorem W3_of_not_written (c : Dev nD) (b : Ref sig .tc) (hb : b ∉ written2) :
    W3 m ρ c (Proc.devRef .tc b) = W2 m ρ c (Proc.devRef .tc b) :=
  StableHlo.after_of_writes_sub hostOps2 _ hostOps2_writes hb

/-! ## Item 4: region 2, the first layer's rectified aggregate plus residual -/

/-- At region 2's exit: its three arrays at what the pipeline leaves, every other buffer as entered. -/
def W4 (c : Dev nD) : Valuation τ sig (Elt F) :=
  Pipeline.withArrays spec2 c (W3 m ρ c) fun w => (dat2 (V3 m ρ) c).arrAt w cfg2.N
theorem W4_arr (c : Dev nD) (w : Fin cfg2.W) :
    W4 m ρ c (Proc.devRef .tc (Pipeline.arrRef spec2 w)) = (dat2 (V3 m ρ) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
/-- Region 2's exit contents at the TensorCore's references: what region 3 is entered from. -/
abbrev V4 : (c : Dev nD) → (b : Ref sig .tc) → Buf (Elt F) ((c : Thread nD τ).loc b) := fun c b => W4 m ρ c b
theorem hF2 (c : Dev nD) (w : Fin cfg2.W) : (dat2 (V3 m ρ) c).arrAt w cfg2.N = V4 m ρ c (Pipeline.arrRef spec2 w) :=
  (W4_arr m ρ c w).symm
theorem hrest2 (c : Dev nD) : ∀ b, b ∉ Finset.univ.image (Pipeline.arrRef spec2) → V4 m ρ c b = V3 m ρ c b :=
  fun b hb => W4_of_ne m ρ c b fun w e => hb (Finset.mem_image.mpr ⟨w, Finset.mem_univ _, e⟩)

/-! ## Item 5: region 3, the second layer's two products -/

/-- At region 3's exit: its five arrays at what the pipeline leaves, every other buffer as entered. -/
def W5 (c : Dev nD) : Valuation τ sig (Elt F) :=
  Pipeline.withArrays spec3 c (W4 m ρ c) fun w => (dat3 (V4 m ρ) c).arrAt w cfg3.N
theorem W5_arr (c : Dev nD) (w : Fin cfg3.W) :
    W5 m ρ c (Proc.devRef .tc (Pipeline.arrRef spec3 w)) = (dat3 (V4 m ρ) c).arrAt w cfg3.N := by
  unfold W5; exact Pipeline.withArrays_arr spec3 launch3.win.arr_inj c _ _ w
theorem W5_of_ne (c : Dev nD) (b : Ref sig .tc) (hb : ∀ w, Pipeline.arrRef spec3 w ≠ b) :
    W5 m ρ c (Proc.devRef .tc b) = W4 m ρ c (Proc.devRef .tc b) := by
  unfold W5; exact Pipeline.withArrays_of_ne spec3 c _ _ b hb
/-- Region 3's exit contents at the TensorCore's references. -/
abbrev V5 : (c : Dev nD) → (b : Ref sig .tc) → Buf (Elt F) ((c : Thread nD τ).loc b) := fun c b => W5 m ρ c b
theorem hF3 (c : Dev nD) (w : Fin cfg3.W) : (dat3 (V4 m ρ) c).arrAt w cfg3.N = V5 m ρ c (Pipeline.arrRef spec3 w) :=
  (W5_arr m ρ c w).symm
theorem hrest3 (c : Dev nD) : ∀ b, b ∉ Finset.univ.image (Pipeline.arrRef spec3) → V5 m ρ c b = V4 m ρ c b :=
  fun b hb => W5_of_ne m ρ c b fun w e => hb (Finset.mem_image.mpr ⟨w, Finset.mem_univ _, e⟩)

/-! ## Item 6: the second aggregation -/

/-- After the second aggregation's host operations: what region 4 is entered from. -/
abbrev W6 : Dev nD → Valuation τ sig (Elt F) := fun c => StableHlo.after hostOps4 (W5 m ρ c)
abbrev V6 : (c : Dev nD) → (b : Ref sig .tc) → Buf (Elt F) ((c : Thread nD τ).loc b) := fun c b => W6 m ρ c b

/-- The references the second aggregation writes. -/
abbrev written4 : List (Ref sig .tc) :=
  [main_c_1, main_v14, main_v15, main_c_2, main_v16, main_v17, main_v18, main_v19, main_v20, main_cst_3, main_v21, main_v22, main_v23]
theorem hostOps4_writes :
    (hostOps4 : List (HloOp τ sig (Elt F))).Forall fun op => op.writes ⊆ (written4.map (Proc.devRef (τ := τ) .tc)).toFinset := by
  simp only [hostOps4, List.Forall, StableHlo.nullary_writes, StableHlo.unary_writes, StableHlo.binary_writes,
    StableHlo.ternary_writes, Finset.singleton_subset_iff, List.mem_toFinset]
  repeat' apply And.intro
  all_goals exact List.mem_map_of_mem (by decide)
/-- A reference the second aggregation does not write keeps its contents across it. -/
theorem W6_of_not_written (c : Dev nD) (b : Ref sig .tc) (hb : b ∉ written4) :
    W6 m ρ c (Proc.devRef .tc b) = W5 m ρ c (Proc.devRef .tc b) :=
  StableHlo.after_of_writes_sub hostOps4 _ hostOps4_writes hb

/-! ## Item 7: region 4, the second layer's rectified aggregate plus residual -/

/-- At region 4's exit: its three arrays at what the pipeline leaves, every other buffer as entered. -/
def W7 (c : Dev nD) : Valuation τ sig (Elt F) :=
  Pipeline.withArrays spec4 c (W6 m ρ c) fun w => (dat4 (V6 m ρ) c).arrAt w cfg4.N
theorem W7_arr (c : Dev nD) (w : Fin cfg4.W) :
    W7 m ρ c (Proc.devRef .tc (Pipeline.arrRef spec4 w)) = (dat4 (V6 m ρ) c).arrAt w cfg4.N := by
  unfold W7; exact Pipeline.withArrays_arr spec4 launch4.win.arr_inj c _ _ w
theorem W7_of_ne (c : Dev nD) (b : Ref sig .tc) (hb : ∀ w, Pipeline.arrRef spec4 w ≠ b) :
    W7 m ρ c (Proc.devRef .tc b) = W6 m ρ c (Proc.devRef .tc b) := by
  unfold W7; exact Pipeline.withArrays_of_ne spec4 c _ _ b hb
/-- Region 4's exit contents at the TensorCore's references. -/
abbrev V7 : (c : Dev nD) → (b : Ref sig .tc) → Buf (Elt F) ((c : Thread nD τ).loc b) := fun c b => W7 m ρ c b
theorem hF4 (c : Dev nD) (w : Fin cfg4.W) : (dat4 (V6 m ρ) c).arrAt w cfg4.N = V7 m ρ c (Pipeline.arrRef spec4 w) :=
  (W7_arr m ρ c w).symm
theorem hrest4 (c : Dev nD) : ∀ b, b ∉ Finset.univ.image (Pipeline.arrRef spec4) → V7 m ρ c b = V6 m ρ c b :=
  fun b hb => W7_of_ne m ρ c b fun w e => hb (Finset.mem_image.mpr ⟨w, Finset.mem_univ _, e⟩)

/-! ## Item 8: the graph ids as a column -/

/-- After the reshape of the graph ids: what region 5 is entered from. -/
abbrev W8 : Dev nD → Valuation τ sig (Elt F) := fun c => StableHlo.after hostOps5 (W7 m ρ c)
abbrev V8 : (c : Dev nD) → (b : Ref sig .tc) → Buf (Elt F) ((c : Thread nD τ).loc b) := fun c b => W8 m ρ c b

/-- The one reference the reshape writes. -/
abbrev written5 : List (Ref sig .tc) := [main_v25]
theorem hostOps5_writes :
    (hostOps5 : List (HloOp τ sig (Elt F))).Forall fun op => op.writes ⊆ (written5.map (Proc.devRef (τ := τ) .tc)).toFinset := by
  simp only [hostOps5, List.Forall, StableHlo.reshape_writes, Finset.singleton_subset_iff, List.mem_toFinset]
  exact List.mem_map_of_mem (by decide)
/-- A reference the reshape does not write keeps its contents across it. -/
theorem W8_of_not_written (c : Dev nD) (b : Ref sig .tc) (hb : b ∉ written5) :
    W8 m ρ c (Proc.devRef .tc b) = W7 m ρ c (Proc.devRef .tc b) :=
  StableHlo.after_of_writes_sub hostOps5 _ hostOps5_writes hb

/-! ## Item 9: region 5, the per-graph sums -/

/-- At region 5's exit: its three arrays at what the pipeline leaves (the rows and the graph ids as entered, the sums
    written back once, after the last point), every other buffer as entered. -/
def W9 (c : Dev nD) : Valuation τ sig (Elt F) :=
  Pipeline.withArrays spec5 c (W8 m ρ c) fun w => (dat5 (V8 m ρ) c).arrAt w cfg5.N
theorem W9_arr (c : Dev nD) (w : Fin cfg5.W) :
    W9 m ρ c (Proc.devRef .tc (Pipeline.arrRef spec5 w)) = (dat5 (V8 m ρ) c).arrAt w cfg5.N := by
  unfold W9; exact Pipeline.withArrays_arr spec5 launch5.win.arr_inj c _ _ w
theorem W9_of_ne (c : Dev nD) (b : Ref sig .tc) (hb : ∀ w, Pipeline.arrRef spec5 w ≠ b) :
    W9 m ρ c (Proc.devRef .tc b) = W8 m ρ c (Proc.devRef .tc b) := by
  unfold W9; exact Pipeline.withArrays_of_ne spec5 c _ _ b hb
/-- Region 5's exit contents at the TensorCore's references: what @main returns from. -/
abbrev V9 : (c : Dev nD) → (b : Ref sig .tc) → Buf (Elt F) ((c : Thread nD τ).loc b) := fun c b => W9 m ρ c b
theorem hF5 (c : Dev nD) (w : Fin cfg5.W) : (dat5 (V8 m ρ) c).arrAt w cfg5.N = V9 m ρ c (Pipeline.arrRef spec5 w) :=
  (W9_arr m ρ c w).symm
theorem hrest5 (c : Dev nD) : ∀ b, b ∉ Finset.univ.image (Pipeline.arrRef spec5) → V9 m ρ c b = V8 m ρ c b :=
  fun b hb => W9_of_ne m ρ c b fun w e => hb (Finset.mem_image.mpr ⟨w, Finset.mem_univ _, e⟩)

/-- The result array ends at what region 5's write-backs leave in it. -/
theorem W9_out (c : Dev nD) : W9 m ρ c (Proc.devRef .tc main_v26) = (dat5 (V8 m ρ) c).arrAt 2 cfg5.N :=
  W9_arr m ρ c 2

/-! # The arguments end as launched

No host operation writes an argument array, and a region reads one only through an input window, whose array is never
written back; at every other item the argument is no array of the region. So the fold at an argument's buffer walks
back, item by item, to the launch memory. -/

/-- x, the node features: read by region 0 through its input window 0. -/
theorem W9_main_arg0 (c : Dev nD) : W9 m ρ c (Proc.devRef .tc main_arg0) = m ((c : Thread nD τ).loc main_arg0) :=
  calc W9 m ρ c (Proc.devRef .tc main_arg0)
    _ = W8 m ρ c (Proc.devRef .tc main_arg0) := W9_of_ne m ρ c main_arg0 (by decide)
    _ = W7 m ρ c (Proc.devRef .tc main_arg0) := W8_of_not_written m ρ c main_arg0 (by decide)
    _ = W6 m ρ c (Proc.devRef .tc main_arg0) := W7_of_ne m ρ c main_arg0 (by decide)
    _ = W5 m ρ c (Proc.devRef .tc main_arg0) := W6_of_not_written m ρ c main_arg0 (by decide)
    _ = W4 m ρ c (Proc.devRef .tc main_arg0) := W5_of_ne m ρ c main_arg0 (by decide)
    _ = W3 m ρ c (Proc.devRef .tc main_arg0) := W4_of_ne m ρ c main_arg0 (by decide)
    _ = W2 m ρ c (Proc.devRef .tc main_arg0) := W3_of_not_written m ρ c main_arg0 (by decide)
    _ = W1 m ρ c (Proc.devRef .tc main_arg0) := W2_of_ne m ρ c main_arg0 (by decide)
    _ = W0 m ρ c (Proc.devRef .tc main_arg0) :=
      (W1_arr m ρ c 0).trans (((dat0 (V0 m ρ) c).arrAt_in 0 rfl _).trans (A_eq0 (V0 m ρ) c 0))
    _ = m ((c : Thread nD τ).loc main_arg0) := rfl

/-- W_map, the projection's weights: read by region 0 through its input window 1. -/
theorem W9_main_arg1 (c : Dev nD) : W9 m ρ c (Proc.devRef .tc main_arg1) = m ((c : Thread nD τ).loc main_arg1) :=
  calc W9 m ρ c (Proc.devRef .tc main_arg1)
    _ = W8 m ρ c (Proc.devRef .tc main_arg1) := W9_of_ne m ρ c main_arg1 (by decide)
    _ = W7 m ρ c (Proc.devRef .tc main_arg1) := W8_of_not_written m ρ c main_arg1 (by decide)
    _ = W6 m ρ c (Proc.devRef .tc main_arg1) := W7_of_ne m ρ c main_arg1 (by decide)
    _ = W5 m ρ c (Proc.devRef .tc main_arg1) := W6_of_not_written m ρ c main_arg1 (by decide)
    _ = W4 m ρ c (Proc.devRef .tc main_arg1) := W5_of_ne m ρ c main_arg1 (by decide)
    _ = W3 m ρ c (Proc.devRef .tc main_arg1) := W4_of_ne m ρ c main_arg1 (by decide)
    _ = W2 m ρ c (Proc.devRef .tc main_arg1) := W3_of_not_written m ρ c main_arg1 (by decide)
    _ = W1 m ρ c (Proc.devRef .tc main_arg1) := W2_of_ne m ρ c main_arg1 (by decide)
    _ = W0 m ρ c (Proc.devRef .tc main_arg1) :=
      (W1_arr m ρ c 1).trans (((dat0 (V0 m ρ) c).arrAt_in 1 rfl _).trans (A_eq0 (V0 m ρ) c 1))
    _ = m ((c : Thread nD τ).loc main_arg1) := rfl

/-- W1, the first layer's weights: read by region 1 through its input window 1. -/
theorem W9_main_arg2 (c : Dev nD) : W9 m ρ c (Proc.devRef .tc main_arg2) = m ((c : Thread nD τ).loc main_arg2) :=
  calc W9 m ρ c (Proc.devRef .tc main_arg2)
    _ = W8 m ρ c (Proc.devRef .tc main_arg2) := W9_of_ne m ρ c main_arg2 (by decide)
    _ = W7 m ρ c (Proc.devRef .tc main_arg2) := W8_of_not_written m ρ c main_arg2 (by decide)
    _ = W6 m ρ c (Proc.devRef .tc main_arg2) := W7_of_ne m ρ c main_arg2 (by decide)
    _ = W5 m ρ c (Proc.devRef .tc main_arg2) := W6_of_not_written m ρ c main_arg2 (by decide)
    _ = W4 m ρ c (Proc.devRef .tc main_arg2) := W5_of_ne m ρ c main_arg2 (by decide)
    _ = W3 m ρ c (Proc.devRef .tc main_arg2) := W4_of_ne m ρ c main_arg2 (by decide)
    _ = W2 m ρ c (Proc.devRef .tc main_arg2) := W3_of_not_written m ρ c main_arg2 (by decide)
    _ = W1 m ρ c (Proc.devRef .tc main_arg2) :=
      (W2_arr m ρ c 1).trans (((dat1 (V1 m ρ) c).arrAt_in 1 rfl _).trans (A_eq1 (V1 m ρ) c 1))
    _ = W0 m ρ c (Proc.devRef .tc main_arg2) := W1_of_ne m ρ c main_arg2 (by decide)
    _ = m ((c : Thread nD τ).loc main_arg2) := rfl

/-- Wres1, the first layer's residual weights: read by region 1 through its input window 2. -/
theorem W9_main_arg3 (c : Dev nD) : W9 m ρ c (Proc.devRef .tc main_arg3) = m ((c : Thread nD τ).loc main_arg3) :=
  calc W9 m ρ c (Proc.devRef .tc main_arg3)
    _ = W8 m ρ c (Proc.devRef .tc main_arg3) := W9_of_ne m ρ c main_arg3 (by decide)
    _ = W7 m ρ c (Proc.devRef .tc main_arg3) := W8_of_not_written m ρ c main_arg3 (by decide)
    _ = W6 m ρ c (Proc.devRef .tc main_arg3) := W7_of_ne m ρ c main_arg3 (by decide)
    _ = W5 m ρ c (Proc.devRef .tc main_arg3) := W6_of_not_written m ρ c main_arg3 (by decide)
    _ = W4 m ρ c (Proc.devRef .tc main_arg3) := W5_of_ne m ρ c main_arg3 (by decide)
    _ = W3 m ρ c (Proc.devRef .tc main_arg3) := W4_of_ne m ρ c main_arg3 (by decide)
    _ = W2 m ρ c (Proc.devRef .tc main_arg3) := W3_of_not_written m ρ c main_arg3 (by decide)
    _ = W1 m ρ c (Proc.devRef .tc main_arg3) :=
      (W2_arr m ρ c 2).trans (((dat1 (V1 m ρ) c).arrAt_in 2 rfl _).trans (A_eq1 (V1 m ρ) c 2))
    _ = W0 m ρ c (Proc.devRef .tc main_arg3) := W1_of_ne m ρ c main_arg3 (by decide)
    _ = m ((c : Thread nD τ).loc main_arg3) := rfl

/-- W2, the second layer's weights: read by region 3 through its input window 1. -/
theorem W9_main_arg4 (c : Dev nD) : W9 m ρ c (Proc.devRef .tc main_arg4) = m ((c : Thread nD τ).loc main_arg4) :=
  calc W9 m ρ c (Proc.devRef .tc main_arg4)
    _ = W8 m ρ c (Proc.devRef .tc main_arg4) := W9_of_ne m ρ c main_arg4 (by decide)
    _ = W7 m ρ c (Proc.devRef .tc main_arg4) := W8_of_not_written m ρ c main_arg4 (by decide)
    _ = W6 m ρ c (Proc.devRef .tc main_arg4) := W7_of_ne m ρ c main_arg4 (by decide)
    _ = W5 m ρ c (Proc.devRef .tc main_arg4) := W6_of_not_written m ρ c main_arg4 (by decide)
    _ = W4 m ρ c (Proc.devRef .tc main_arg4) :=
      (W5_arr m ρ c 1).trans (((dat3 (V4 m ρ) c).arrAt_in 1 rfl _).trans (A_eq3 (V4 m ρ) c 1))
    _ = W3 m ρ c (Proc.devRef .tc main_arg4) := W4_of_ne m ρ c main_arg4 (by decide)
    _ = W2 m ρ c (Proc.devRef .tc main_arg4) := W3_of_not_written m ρ c main_arg4 (by decide)
    _ = W1 m ρ c (Proc.devRef .tc main_arg4) := W2_of_ne m ρ c main_arg4 (by decide)
    _ = W0 m ρ c (Proc.devRef .tc main_arg4) := W1_of_ne m ρ c main_arg4 (by decide)
    _ = m ((c : Thread nD τ).loc main_arg4) := rfl

/-- Wres2, the second layer's residual weights: read by region 3 through its input window 2. -/
theorem W9_main_arg5 (c : Dev nD) : W9 m ρ c (Proc.devRef .tc main_arg5) = m ((c : Thread nD τ).loc main_arg5) :=
  calc W9 m ρ c (Proc.devRef .tc main_arg5)
    _ = W8 m ρ c (Proc.devRef .tc main_arg5) := W9_of_ne m ρ c main_arg5 (by decide)
    _ = W7 m ρ c (Proc.devRef .tc main_arg5) := W8_of_not_written m ρ c main_arg5 (by decide)
    _ = W6 m ρ c (Proc.devRef .tc main_arg5) := W7_of_ne m ρ c main_arg5 (by decide)
    _ = W5 m ρ c (Proc.devRef .tc main_arg5) := W6_of_not_written m ρ c main_arg5 (by decide)
    _ = W4 m ρ c (Proc.devRef .tc main_arg5) :=
      (W5_arr m ρ c 2).trans (((dat3 (V4 m ρ) c).arrAt_in 2 rfl _).trans (A_eq3 (V4 m ρ) c 2))
    _ = W3 m ρ c (Proc.devRef .tc main_arg5) := W4_of_ne m ρ c main_arg5 (by decide)
    _ = W2 m ρ c (Proc.devRef .tc main_arg5) := W3_of_not_written m ρ c main_arg5 (by decide)
    _ = W1 m ρ c (Proc.devRef .tc main_arg5) := W2_of_ne m ρ c main_arg5 (by decide)
    _ = W0 m ρ c (Proc.devRef .tc main_arg5) := W1_of_ne m ρ c main_arg5 (by decide)
    _ = m ((c : Thread nD τ).loc main_arg5) := rfl

/-- The edges' sources: read by both aggregations, an array of no region. -/
theorem W9_main_arg6 (c : Dev nD) : W9 m ρ c (Proc.devRef .tc main_arg6) = m ((c : Thread nD τ).loc main_arg6) :=
  calc W9 m ρ c (Proc.devRef .tc main_arg6)
    _ = W8 m ρ c (Proc.devRef .tc main_arg6) := W9_of_ne m ρ c main_arg6 (by decide)
    _ = W7 m ρ c (Proc.devRef .tc main_arg6) := W8_of_not_written m ρ c main_arg6 (by decide)
    _ = W6 m ρ c (Proc.devRef .tc main_arg6) := W7_of_ne m ρ c main_arg6 (by decide)
    _ = W5 m ρ c (Proc.devRef .tc main_arg6) := W6_of_not_written m ρ c main_arg6 (by decide)
    _ = W4 m ρ c (Proc.devRef .tc main_arg6) := W5_of_ne m ρ c main_arg6 (by decide)
    _ = W3 m ρ c (Proc.devRef .tc main_arg6) := W4_of_ne m ρ c main_arg6 (by decide)
    _ = W2 m ρ c (Proc.devRef .tc main_arg6) := W3_of_not_written m ρ c main_arg6 (by decide)
    _ = W1 m ρ c (Proc.devRef .tc main_arg6) := W2_of_ne m ρ c main_arg6 (by decide)
    _ = W0 m ρ c (Proc.devRef .tc main_arg6) := W1_of_ne m ρ c main_arg6 (by decide)
    _ = m ((c : Thread nD τ).loc main_arg6) := rfl

/-- The edges' destinations: read by both aggregations, an array of no region. -/
theorem W9_main_arg7 (c : Dev nD) : W9 m ρ c (Proc.devRef .tc main_arg7) = m ((c : Thread nD τ).loc main_arg7) :=
  calc W9 m ρ c (Proc.devRef .tc main_arg7)
    _ = W8 m ρ c (Proc.devRef .tc main_arg7) := W9_of_ne m ρ c main_arg7 (by decide)
    _ = W7 m ρ c (Proc.devRef .tc main_arg7) := W8_of_not_written m ρ c main_arg7 (by decide)
    _ = W6 m ρ c (Proc.devRef .tc main_arg7) := W7_of_ne m ρ c main_arg7 (by decide)
    _ = W5 m ρ c (Proc.devRef .tc main_arg7) := W6_of_not_written m ρ c main_arg7 (by decide)
    _ = W4 m ρ c (Proc.devRef .tc main_arg7) := W5_of_ne m ρ c main_arg7 (by decide)
    _ = W3 m ρ c (Proc.devRef .tc main_arg7) := W4_of_ne m ρ c main_arg7 (by decide)
    _ = W2 m ρ c (Proc.devRef .tc main_arg7) := W3_of_not_written m ρ c main_arg7 (by decide)
    _ = W1 m ρ c (Proc.devRef .tc main_arg7) := W2_of_ne m ρ c main_arg7 (by decide)
    _ = W0 m ρ c (Proc.devRef .tc main_arg7) := W1_of_ne m ρ c main_arg7 (by decide)
    _ = m ((c : Thread nD τ).loc main_arg7) := rfl

/-- The nodes' graph ids: read by the reshape, an array of no region. -/
theorem W9_main_arg8 (c : Dev nD) : W9 m ρ c (Proc.devRef .tc main_arg8) = m ((c : Thread nD τ).loc main_arg8) :=
  calc W9 m ρ c (Proc.devRef .tc main_arg8)
    _ = W8 m ρ c (Proc.devRef .tc main_arg8) := W9_of_ne m ρ c main_arg8 (by decide)
    _ = W7 m ρ c (Proc.devRef .tc main_arg8) := W8_of_not_written m ρ c main_arg8 (by decide)
    _ = W6 m ρ c (Proc.devRef .tc main_arg8) := W7_of_ne m ρ c main_arg8 (by decide)
    _ = W5 m ρ c (Proc.devRef .tc main_arg8) := W6_of_not_written m ρ c main_arg8 (by decide)
    _ = W4 m ρ c (Proc.devRef .tc main_arg8) := W5_of_ne m ρ c main_arg8 (by decide)
    _ = W3 m ρ c (Proc.devRef .tc main_arg8) := W4_of_ne m ρ c main_arg8 (by decide)
    _ = W2 m ρ c (Proc.devRef .tc main_arg8) := W3_of_not_written m ρ c main_arg8 (by decide)
    _ = W1 m ρ c (Proc.devRef .tc main_arg8) := W2_of_ne m ρ c main_arg8 (by decide)
    _ = W0 m ρ c (Proc.devRef .tc main_arg8) := W1_of_ne m ρ c main_arg8 (by decide)
    _ = m ((c : Thread nD τ).loc main_arg8) := rfl

end Cert.Kernel.Hand

end
-- ==== Proof.K.R0Body.lean ====
/-
  Region 0: the body obligation. At every grid point the body finds the row block of x and the whole weight
  matrix in its two input buffers, multiplies them, and overwrites the whole output buffer with the product; the
  inputs are left as they were. The row block moves at every point; the weight matrix is brought in once and its
  block index never moves, so its buffer still holds it at every later point.
-/
import proofs.«430456_j88974542504687_1_alg».proof.Proof.K.R0Defs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/- The TensorCore's buffer contents when the region is entered: every statement below is made at this parameter. -/
variable (V : (c : Dev nD) → (b : Ref sig .tc) → Buf (Elt F) ((c : Thread nD τ).loc b))

/-! ## What the body finds in its input buffers -/

/-- The row block of x: for any proof data over the entry contents whose body leaves that block in place, the
    buffer holds the block of the point, whichever staging contents preceded. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl)
    (fun t => by rw [hafter]; unfold Dat.blockOf iblk0; rw [hA]; try rfl) t d).trans
    (by unfold Dat.fetched Dat.blockOf iblk0; rw [hA]; try rfl)

/-- The weight matrix: brought in at the first point only, and the same block at every point, so the buffer
    holds it throughout. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl)
    (fun t => by rw [hafter]; unfold Dat.blockOf iblk0; rw [hA]; try rfl) t d).trans
    (by unfold Dat.fetched Dat.blockOf iblk0; rw [hA]; try rfl)

theorem before0_0 (c : Dev nD) (t : Fin cfg0.N) (d) : (dat0 V c).before 0 t d = iblk0 V c 0 t :=
  before0_0_of V (dat0 V c) (A_eq0 V c 0) (after0_0 V c) t d

theorem before0_1 (c : Dev nD) (t : Fin cfg0.N) (d) : (dat0 V c).before 1 t d = iblk0 V c 1 t :=
  before0_1_of V (dat0 V c) (A_eq0 V c 1) (after0_1 V c) t d

/-! ## The one store covers the output block -/

/-- The store's rectangle is the whole 2000 × 256 block, so every index of the block lies in it. -/
theorem cover0_2 (p0 : Vec F S2000x256 .f32) (y : S2000x256.Idx) :
    ∃ pc ∈ ([⟨r0_o, p0⟩] : List (View.Piece (Elt F) S2000x256 .f32)), y ∈ pc.1.set :=
  View.cover_of_tiled [⟨r0_o, p0⟩] S2000x256.size (by rfl) y

/-! ## The body's triple -/

set_option maxHeartbeats 1000000 in
/-- The body on three whole buffers — the row block at read contents `x0`, the weights at `x1`, the output at
    anything — runs to a continuation that is handed the inputs unchanged and the output at the product
    `out0_2 x0 x1`. The body reads the output buffer once before overwriting it; that value is never used, and
    the whole-block store makes the result independent of it. -/
theorem sound_kernel0 (c : Dev nD) (E : Set ℕ) (i : grid0.Coords)
    (arg1 : Memref sig .tc .vmem S2000x64 .f32) (harg1 : arg1.IsWhole)
    (arg2 : Memref sig .tc .vmem S64x256 .f32) (harg2 : arg2.IsWhole)
    (arg3 : Memref sig .tc .vmem S2000x256 .f32) (harg3 : arg3.IsWhole)
    (x0 : Vec F S2000x64 .f32) (x1 : Vec F S64x256 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__linear_kernel i arg1 harg1 arg2 harg2 arg3 harg3) K := by
  simp only [cc0__linear_kernel_eq_skeleton]; unfold cc0__linear_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The obligation at a grid point -/

/-- What the body is entered with at point `t`: the invariant, the debts, and the three current buffers. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- What it hands back. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: both inputs hold their blocks, so the triple applies; the invariant and the debts do
    not depend on the point and pass through untouched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.R1Body.lean ====
/-
  Region 1: the body obligation. At every grid point the body finds, in the three input windows' current
  buffers, the row block of h and the two whole weight matrices (the weights arrive at the first point and are
  still there at every later one, their block index never moving); it multiplies the block by each matrix and
  overwrites the two output buffers whole, the second product rectified. So what it leaves is a closed function of
  the three blocks, whatever the output buffers held before.
-/
import proofs.«430456_j88974542504687_1_alg».proof.Proof.K.R1Defs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/- The TensorCore's buffer contents when the region is entered: every statement below is made at this parameter. -/
variable (V : (c : Dev nD) → (b : Ref sig .tc) → Buf (Elt F) ((c : Thread nD τ).loc b))

/-! ## What the body finds in the input windows -/

/-- The row block of h: its window's current buffer holds the block at every point, for any proof data whose
    array is the entry contents and whose body leaves the block where it is. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The layer's weight matrix: fetched once, at the first point; afterwards the window's block index stands still,
    so the buffer still holds the matrix. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The residual weight matrix: the same. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## Each output buffer is overwritten whole -/

/-- The one store into the first output buffer is the whole 2000 x 256 block, so it covers every index. -/
theorem cover1_3 (p : Vec F S2000x256 .f32) (y : S2000x256.Idx) :
    ∃ pc ∈ ([⟨r1_h, p⟩] : List (View.Piece (Elt F) S2000x256 .f32)), y ∈ pc.1.set :=
  View.cover_of_tiled [⟨r1_h, p⟩] S2000x256.size (by rfl) y

/-- And so does the one store into the second output buffer. -/
theorem cover1_4 (p : Vec F S2000x256 .f32) (y : S2000x256.Idx) :
    ∃ pc ∈ ([⟨r1_h, p⟩] : List (View.Piece (Elt F) S2000x256 .f32)), y ∈ pc.1.set :=
  View.cover_of_tiled [⟨r1_h, p⟩] S2000x256.size (by rfl) y

/-! ## The body's triple -/

/-- On five whole buffers — the inputs reading x0 (row block), x1 and x2 (the two matrices), the outputs holding
    anything — the body runs to a state where the inputs are as they were and the outputs hold the two products,
    out1_3 x0 x1 and out1_4 x0 x2. The body reads each output buffer just before overwriting it; the value read
    is never used, and the whole-block store that follows erases it. -/
theorem sound_kernel1 (c : Dev nD) (E : Set ℕ) (i : grid1.Coords)
    (mA : Memref sig .tc .vmem S2000x256 .f32) (hmA : mA.IsWhole) (mB : Memref sig .tc .vmem S256x256 .f32) (hmB : mB.IsWhole)
    (mC : Memref sig .tc .vmem S256x256 .f32) (hmC : mC.IsWhole) (mD : Memref sig .tc .vmem S2000x256 .f32) (hmD : mD.IsWhole)
    (mE : Memref sig .tc .vmem S2000x256 .f32) (hmE : mE.IsWhole)
    (x0 : Vec F S2000x256 .f32) (x1 x2 : Vec F S256x256 .f32) (K : PUnit → sProp 𝕄) :
    iprop(owns (c : Thread nD τ) mA fullShare x0 ∗ owns (c : Thread nD τ) mB fullShare x1 ∗ owns (c : Thread nD τ) mC fullShare x2
        ∗ (∃ d, owns (c : Thread nD τ) mD fullShare d) ∗ (∃ d, owns (c : Thread nD τ) mE fullShare d)
        ∗ (iprop(owns (c : Thread nD τ) mA fullShare x0 ∗ owns (c : Thread nD τ) mB fullShare x1 ∗ owns (c : Thread nD τ) mC fullShare x2
            ∗ owns (c : Thread nD τ) mD fullShare (out1_3 x0 x1) ∗ owns (c : Thread nD τ) mE fullShare (out1_4 x0 x2)) -∗ K ⟨⟩))
      ⊢ wp frame (wpE (defs₀ (F := F)) Variants.none c none) E (cc1__gcn_transform_kernel i mA hmA mB hmB mC hmC mD hmD mE hmE) K := by
  simp only [cc1__gcn_transform_kernel_eq_skeleton]; unfold cc1__gcn_transform_kernel_skel
  unfold owns
  iintro ⟨⟨%fA, %hfA, HA⟩, ⟨%fB, %hfB, HB⟩, ⟨%fC, %hfC, HC⟩, ⟨%dD, %fD, -, HD⟩, ⟨%dE, %fE, -, HE⟩, Hk⟩
  subst hfA; subst hfB; subst hfC
  sl_exec
  sl_step
  iapply Hk
  isplitl [HA]
  · iexists fA; isplitr; · ipureintro; rfl
    iexact HA
  isplitl [HB]
  · iexists fB; isplitr; · ipureintro; rfl
    iexact HB
  isplitl [HC]
  · iexists fC; isplitr; · ipureintro; rfl
    iexact HC
  isplitl [HD]
  · iexists _; isplitr
    swap; · iexact HD
    ipureintro
    exact View.read_writes_eq_canon _ _ _ (cover1_3 _)
  iexists _; isplitr
  swap; · iexact HE
  ipureintro
  exact View.read_writes_eq_canon _ _ _ (cover1_4 _)

/-! ## The inputs at this region's proof data -/

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The obligation at one point -/

/-- What the body is called with at point t: the invariant, what the core owes, and the five windows' current
    buffers, each at whatever the pipeline left there. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- What it hands back: the same invariant and debts, and each buffer at what the proof data says the body leaves. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- At any point the inputs' buffers hold their blocks, so the body's triple applies; the invariant and the debts
    are not touched and pass through. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%dA, HA⟩, ⟨%dB, HB⟩, ⟨%dC, HC⟩, ⟨%dD, HD⟩, ⟨%dE, HE⟩⟩
  iapply (sound_kernel1 c Set.univ _ _ _ _ _ _ _ _ _ _ _ (iblk1 V c 0 t) (iblk1 V c 1 t) (iblk1 V c 2 t) _)
  isplitl [HA]; · iexact HA
  isplitl [HB]; · iexact HB
  isplitl [HC]; · iexact HC
  isplitl [HD]; · iexists _; iexact HD
  isplitl [HE]; · iexists _; iexact HE
  iintro ⟨HA, HB, HC, HD, HE⟩
  isplitl [HΦ]; · iexact HΦ
  isplitl [Ho]; · iexact Ho
  isplitl [HA]; · iexact HA
  isplitl [HB]; · iexact HB
  isplitl [HC]; · iexact HC
  isplitl [HD]; · iexact HD
  iexact HE

/-- The obligation at every point: the five windows written out one by one. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.R2Body.lean ====
/-
  A combining region: the body obligation. At every grid point the body finds one row block of the aggregate and the
  matching row block of the residual branch in its two input buffers, forms max(aggregate, 0) + residual entry by
  entry, and overwrites the whole output buffer with it; the inputs are left as they were. Both input blocks move
  at every point.
-/
import proofs.«430456_j88974542504687_1_alg».proof.Proof.K.R2Defs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/- The TensorCore's buffer contents when the region is entered: every statement below is made at this parameter. -/
variable (V : (c : Dev nD) → (b : Ref sig .tc) → Buf (Elt F) ((c : Thread nD τ).loc b))

/-! ## What the body finds in its input buffers -/

/-- The aggregate's row block: for any proof data over the entry contents whose body leaves that block in place,
    the buffer holds the block of the point, whichever staging contents preceded. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl)
    (fun t => by rw [hafter]; unfold Dat.blockOf iblk2; rw [hA]; try rfl) t d).trans
    (by unfold Dat.fetched Dat.blockOf iblk2; rw [hA]; try rfl)

/-- The residual's row block, likewise. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl)
    (fun t => by rw [hafter]; unfold Dat.blockOf iblk2; rw [hA]; try rfl) t d).trans
    (by unfold Dat.fetched Dat.blockOf iblk2; rw [hA]; try rfl)

theorem before2_0 (c : Dev nD) (t : Fin cfg2.N) (d) : (dat2 V c).before 0 t d = iblk2 V c 0 t :=
  before2_0_of V (dat2 V c) (A_eq2 V c 0) (after2_0 V c) t d

theorem before2_1 (c : Dev nD) (t : Fin cfg2.N) (d) : (dat2 V c).before 1 t d = iblk2 V c 1 t :=
  before2_1_of V (dat2 V c) (A_eq2 V c 1) (after2_1 V c) t d

/-! ## The one store covers the output block -/

/-- The store's rectangle is the whole 2000 × 256 block, so every index of the block lies in it. -/
theorem cover2_2 (p0 : Vec F S2000x256 .f32) (y : S2000x256.Idx) :
    ∃ pc ∈ ([⟨r2_h, p0⟩] : List (View.Piece (Elt F) S2000x256 .f32)), y ∈ pc.1.set :=
  View.cover_of_tiled [⟨r2_h, p0⟩] S2000x256.size (by rfl) y

/-! ## The body's triple -/

set_option maxHeartbeats 1000000 in
/-- The body on three whole buffers — the aggregate's block at read contents `x0`, the residual's at `x1`, the
    output at anything — runs to a continuation that is handed the inputs unchanged and the output at
    `out2_2 x0 x1`. The body reads the output buffer once before overwriting it; that value is never used, and
    the whole-block store makes the result independent of it. -/
theorem sound_kernel2 (c : Dev nD) (E : Set ℕ) (i)
    (bufA : Memref sig .tc .vmem S2000x256 .f32) (wA : bufA.IsWhole)
    (bufB : Memref sig .tc .vmem S2000x256 .f32) (wB : bufB.IsWhole)
    (bufC : Memref sig .tc .vmem S2000x256 .f32) (wC : bufC.IsWhole)
    (x0 x1 : Vec F S2000x256 .f32) (K : PUnit → sProp 𝕄) :
    iprop(owns (c : Thread nD τ) bufA fullShare x0 ∗ owns (c : Thread nD τ) bufB fullShare x1
        ∗ (∃ d, owns (c : Thread nD τ) bufC fullShare d)
        ∗ (iprop(owns (c : Thread nD τ) bufA fullShare x0 ∗ owns (c : Thread nD τ) bufB fullShare x1
            ∗ owns (c : Thread nD τ) bufC fullShare (out2_2 x0 x1)) -∗ K ⟨⟩))
      ⊢ wp frame (wpE (defs₀ (F := F)) Variants.none c none) E (cc2__combine_kernel i bufA wA bufB wB bufC wC) K := by
  simp only [cc2__combine_kernel_eq_skeleton]; unfold cc2__combine_kernel_skel
  unfold owns
  iintro ⟨⟨%fa, %hfa, Ha⟩, ⟨%fb, %hfb, Hb⟩, ⟨%dc, %fc, -, Hc⟩, Hk⟩
  subst hfa; subst hfb
  sl_exec
  sl_step
  iapply Hk
  isplitl [Ha]
  · iexists fa; isplitr; · ipureintro; rfl
    iexact Ha
  isplitl [Hb]
  · iexists fb; isplitr; · ipureintro; rfl
    iexact Hb
  iexists _; isplitr
  swap; · iexact Hc
  ipureintro
  exact View.read_writes_eq_canon _ _ _ (cover2_2 _)

/-! ## The obligation at a grid point -/

/-- What the body is entered with at point `t`: the invariant, the debts, and the three current buffers. -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- What it hands back. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: both inputs hold their blocks, so the triple applies; the invariant and the debts do
    not depend on the point and pass through untouched. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Hdebt, ⟨%da, Ha⟩, ⟨%db, Hb⟩, ⟨%dc, Hc⟩⟩
  iapply (sound_kernel2 c Set.univ _ _ _ _ _ _ _ (iblk2 V c 0 t) (iblk2 V c 1 t) _)
  isplitl [Ha]; · iexact Ha
  isplitl [Hb]; · iexact Hb
  isplitl [Hc]; · iexists _; iexact Hc
  iintro ⟨Ha, Hb, Hc⟩
  isplitl [HΦ]; · iexact HΦ
  isplitl [Hdebt]; · iexact Hdebt
  isplitl [Ha]; · iexact Ha
  isplitl [Hb]; · iexact Hb
  iexact Hc

theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.K.R3Body.lean ====
/-
  Region 3: the body obligation. At every grid point the body finds, in the three input windows' current
  buffers, the row block of h and the two whole weight matrices (the weights arrive at the first point and are
  still there at every later one, their block index never moving); it multiplies the block by each matrix and
  overwrites the two output buffers whole, the second product rectified. So what it leaves is a closed function of
  the three blocks, whatever the output buffers held before.
-/
import proofs.«430456_j88974542504687_1_alg».proof.Proof.K.R3Defs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/- The TensorCore's buffer contents when the region is entered: every statement below is made at this parameter. -/
variable (V : (c : Dev nD) → (b : Ref sig .tc) → Buf (Elt F) ((c : Thread nD τ).loc b))

/-! ## What the body finds in the input windows -/

/-- The row block of h: its window's current buffer holds the block at every point, for any proof data whose
    array is the entry contents and whose body leaves the block where it is. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- The layer's weight matrix: fetched once, at the first point; afterwards the window's block index stands still,
    so the buffer still holds the matrix. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- The residual weight matrix: the same. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-! ## Each output buffer is overwritten whole -/

/-- The one store into the first output buffer is the whole 2000 x 256 block, so it covers every index. -/
theorem cover3_3 (p : Vec F S2000x256 .f32) (y : S2000x256.Idx) :
    ∃ pc ∈ ([⟨r3_h, p⟩] : List (View.Piece (Elt F) S2000x256 .f32)), y ∈ pc.1.set :=
  View.cover_of_tiled [⟨r3_h, p⟩] S2000x256.size (by rfl) y

/-- And so does the one store into the second output buffer. -/
theorem cover3_4 (p : Vec F S2000x256 .f32) (y : S2000x256.Idx) :
    ∃ pc ∈ ([⟨r3_h, p⟩] : List (View.Piece (Elt F) S2000x256 .f32)), y ∈ pc.1.set :=
  View.cover_of_tiled [⟨r3_h, p⟩] S2000x256.size (by rfl) y

/-! ## The body's triple -/

/-- On five whole buffers — the inputs reading x0 (row block), x1 and x2 (the two matrices), the outputs holding
    anything — the body runs to a state where the inputs are as they were and the outputs hold the two products,
    out3_3 x0 x1 and out3_4 x0 x2. The body reads each output buffer just before overwriting it; the value read
    is never used, and the whole-block store that follows erases it. -/
theorem sound_kernel3 (c : Dev nD) (E : Set ℕ) (i : grid3.Coords)
    (mA : Memref sig .tc .vmem S2000x256 .f32) (hmA : mA.IsWhole) (mB : Memref sig .tc .vmem S256x256 .f32) (hmB : mB.IsWhole)
    (mC : Memref sig .tc .vmem S256x256 .f32) (hmC : mC.IsWhole) (mD : Memref sig .tc .vmem S2000x256 .f32) (hmD : mD.IsWhole)
    (mE : Memref sig .tc .vmem S2000x256 .f32) (hmE : mE.IsWhole)
    (x0 : Vec F S2000x256 .f32) (x1 x2 : Vec F S256x256 .f32) (K : PUnit → sProp 𝕄) :
    iprop(owns (c : Thread nD τ) mA fullShare x0 ∗ owns (c : Thread nD τ) mB fullShare x1 ∗ owns (c : Thread nD τ) mC fullShare x2
        ∗ (∃ d, owns (c : Thread nD τ) mD fullShare d) ∗ (∃ d, owns (c : Thread nD τ) mE fullShare d)
        ∗ (iprop(owns (c : Thread nD τ) mA fullShare x0 ∗ owns (c : Thread nD τ) mB fullShare x1 ∗ owns (c : Thread nD τ) mC fullShare x2
            ∗ owns (c : Thread nD τ) mD fullShare (out3_3 x0 x1) ∗ owns (c : Thread nD τ) mE fullShare (out3_4 x0 x2)) -∗ K ⟨⟩))
      ⊢ wp frame (wpE (defs₀ (F := F)) Variants.none c none) E (cc3__gcn_transform_kernel i mA hmA mB hmB mC hmC mD hmD mE hmE) K := by
  simp only [cc3__gcn_transform_kernel_eq_skeleton]; unfold cc3__gcn_transform_kernel_skel
  unfold owns
  iintro ⟨⟨%fA, %hfA, HA⟩, ⟨%fB, %hfB, HB⟩, ⟨%fC, %hfC, HC⟩, ⟨%dD, %fD, -, HD⟩, ⟨%dE, %fE, -, HE⟩, Hk⟩
  subst hfA; subst hfB; subst hfC
  sl_exec
  sl_step
  iapply Hk
  isplitl [HA]
  · iexists fA; isplitr; · ipureintro; rfl
    iexact HA
  isplitl [HB]
  · iexists fB; isplitr; · ipureintro; rfl
    iexact HB
  isplitl [HC]
  · iexists fC; isplitr; · ipureintro; rfl
    iexact HC
  isplitl [HD]
  · iexists _; isplitr
    swap; · iexact HD
    ipureintro
    exact View.read_writes_eq_canon _ _ _ (cover3_3 _)
  iexists _; isplitr
  swap; · iexact HE
  ipureintro
  exact View.read_writes_eq_canon _ _ _ (cover3_4 _)

/-! ## The inputs at this region's proof data -/

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-! ## The obligation at one point -/

/-- What the body is called with at point t: the invariant, what the core owes, and the five windows' current
    buffers, each at whatever the pipeline left there. -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d)))

/-- What it hands back: the same invariant and debts, and each buffer at what the proof data says the body leaves. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t))

/-- At any point the inputs' buffers hold their blocks, so the body's triple applies; the invariant and the debts
    are not touched and pass through. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3, after3_4]
  iintro ⟨HΦ, Ho, ⟨%dA, HA⟩, ⟨%dB, HB⟩, ⟨%dC, HC⟩, ⟨%dD, HD⟩, ⟨%dE, HE⟩⟩
  iapply (sound_kernel3 c Set.univ _ _ _ _ _ _ _ _ _ _ _ (iblk3 V c 0 t) (iblk3 V c 1 t) (iblk3 V c 2 t) _)
  isplitl [HA]; · iexact HA
  isplitl [HB]; · iexact HB
  isplitl [HC]; · iexact HC
  isplitl [HD]; · iexists _; iexact HD
  isplitl [HE]; · iexists _; iexact HE
  iintro ⟨HA, HB, HC, HD, HE⟩
  isplitl [HΦ]; · iexact HΦ
  isplitl [Ho]; · iexact Ho
  isplitl [HA]; · iexact HA
  isplitl [HB]; · iexact HB
  isplitl [HC]; · iexact HC
  isplitl [HD]; · iexact HD
  iexact HE

/-- The obligation at every point: the five windows written out one by one. -/
theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.K.R4Body.lean ====
/-
  A combining region: the body obligation. At every grid point the body finds one row block of the aggregate and the
  matching row block of the residual branch in its two input buffers, forms max(aggregate, 0) + residual entry by
  entry, and overwrites the whole output buffer with it; the inputs are left as they were. Both input blocks move
  at every point.
-/
import proofs.«430456_j88974542504687_1_alg».proof.Proof.K.R4Defs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/- The TensorCore's buffer contents when the region is entered: every statement below is made at this parameter. -/
variable (V : (c : Dev nD) → (b : Ref sig .tc) → Buf (Elt F) ((c : Thread nD τ).loc b))

/-! ## What the body finds in its input buffers -/

/-- The aggregate's row block: for any proof data over the entry contents whose body leaves that block in place,
    the buffer holds the block of the point, whichever staging contents preceded. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl)
    (fun t => by rw [hafter]; unfold Dat.blockOf iblk4; rw [hA]; try rfl) t d).trans
    (by unfold Dat.fetched Dat.blockOf iblk4; rw [hA]; try rfl)

/-- The residual's row block, likewise. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl)
    (fun t => by rw [hafter]; unfold Dat.blockOf iblk4; rw [hA]; try rfl) t d).trans
    (by unfold Dat.fetched Dat.blockOf iblk4; rw [hA]; try rfl)

theorem before4_0 (c : Dev nD) (t : Fin cfg4.N) (d) : (dat4 V c).before 0 t d = iblk4 V c 0 t :=
  before4_0_of V (dat4 V c) (A_eq4 V c 0) (after4_0 V c) t d

theorem before4_1 (c : Dev nD) (t : Fin cfg4.N) (d) : (dat4 V c).before 1 t d = iblk4 V c 1 t :=
  before4_1_of V (dat4 V c) (A_eq4 V c 1) (after4_1 V c) t d

/-! ## The one store covers the output block -/

/-- The store's rectangle is the whole 2000 × 256 block, so every index of the block lies in it. -/
theorem cover4_2 (p0 : Vec F S2000x256 .f32) (y : S2000x256.Idx) :
    ∃ pc ∈ ([⟨r4_h, p0⟩] : List (View.Piece (Elt F) S2000x256 .f32)), y ∈ pc.1.set :=
  View.cover_of_tiled [⟨r4_h, p0⟩] S2000x256.size (by rfl) y

/-! ## The body's triple -/

set_option maxHeartbeats 1000000 in
/-- The body on three whole buffers — the aggregate's block at read contents `x0`, the residual's at `x1`, the
    output at anything — runs to a continuation that is handed the inputs unchanged and the output at
    `out4_2 x0 x1`. The body reads the output buffer once before overwriting it; that value is never used, and
    the whole-block store makes the result independent of it. -/
theorem sound_kernel4 (c : Dev nD) (E : Set ℕ) (i)
    (bufA : Memref sig .tc .vmem S2000x256 .f32) (wA : bufA.IsWhole)
    (bufB : Memref sig .tc .vmem S2000x256 .f32) (wB : bufB.IsWhole)
    (bufC : Memref sig .tc .vmem S2000x256 .f32) (wC : bufC.IsWhole)
    (x0 x1 : Vec F S2000x256 .f32) (K : PUnit → sProp 𝕄) :
    iprop(owns (c : Thread nD τ) bufA fullShare x0 ∗ owns (c : Thread nD τ) bufB fullShare x1
        ∗ (∃ d, owns (c : Thread nD τ) bufC fullShare d)
        ∗ (iprop(owns (c : Thread nD τ) bufA fullShare x0 ∗ owns (c : Thread nD τ) bufB fullShare x1
            ∗ owns (c : Thread nD τ) bufC fullShare (out4_2 x0 x1)) -∗ K ⟨⟩))
      ⊢ wp frame (wpE (defs₀ (F := F)) Variants.none c none) E (cc4__combine_kernel i bufA wA bufB wB bufC wC) K := by
  simp only [cc4__combine_kernel_eq_skeleton]; unfold cc4__combine_kernel_skel
  unfold owns
  iintro ⟨⟨%fa, %hfa, Ha⟩, ⟨%fb, %hfb, Hb⟩, ⟨%dc, %fc, -, Hc⟩, Hk⟩
  subst hfa; subst hfb
  sl_exec
  sl_step
  iapply Hk
  isplitl [Ha]
  · iexists fa; isplitr; · ipureintro; rfl
    iexact Ha
  isplitl [Hb]
  · iexists fb; isplitr; · ipureintro; rfl
    iexact Hb
  iexists _; isplitr
  swap; · iexact Hc
  ipureintro
  exact View.read_writes_eq_canon _ _ _ (cover4_2 _)

/-! ## The obligation at a grid point -/

/-- What the body is entered with at point `t`: the invariant, the debts, and the three current buffers. -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d)))

/-- What it hands back. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t))

/-- The body at any point: both inputs hold their blocks, so the triple applies; the invariant and the debts do
    not depend on the point and pass through untouched. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).Φ t.succ = (dat4 V c).Φ t.castSucc from rfl,
    show (dat4 V c).owesAt () t.succ = (dat4 V c).owesAt () t.castSucc from rfl,
    after4_0, after4_1, after4_2]
  iintro ⟨HΦ, Hdebt, ⟨%da, Ha⟩, ⟨%db, Hb⟩, ⟨%dc, Hc⟩⟩
  iapply (sound_kernel4 c Set.univ _ _ _ _ _ _ _ (iblk4 V c 0 t) (iblk4 V c 1 t) _)
  isplitl [Ha]; · iexact Ha
  isplitl [Hb]; · iexact Hb
  isplitl [Hc]; · iexists _; iexact Hc
  iintro ⟨Ha, Hb, Hc⟩
  isplitl [HΦ]; · iexact HΦ
  isplitl [Hdebt]; · iexact Hdebt
  isplitl [Ha]; · iexact Ha
  isplitl [Hb]; · iexact Hb
  iexact Hc

theorem body_obligation4 (c : Dev nD) : BodyObligation (dat4 (F := F) V c) (defs₀ (F := F)) Variants.none () Set.univ := fun t => by
  rw [bigSep_W4, bigSep_W4]
  exact sound_body4 V c t

end Cert.Kernel.Hand

end
-- ==== Proof.K.R5Body.lean ====
/-
  Region 5 (the per-graph sums): the body obligation and the two ends of its invariant.

  First the body on any whole buffers, in each of the three cases of its two conditionals: the accumulator's buffer
  ends at the body's update of what it held (of zeros at the first point, where the body clears it first); at the
  last point the output buffer ends at that same value; elsewhere the output buffer is not touched. Then the
  obligation: at every point the two input buffers hold the point's blocks; the invariant hands the body the
  accumulator's buffer (at anything before the first point, at what the point before left afterwards); the run of
  the point's case updates it; the output window is idle at every point but the last and is handed back as found.
-/
import proofs.«430456_j88974542504687_1_alg».proof.Proof.K.R5Defs
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first conditional's test: the grid coordinate is zero. -/
abbrev isFirst5 (i : grid5.Coords) : Prop :=
  (Scalar.cmpi .ne (Scalar.extui (Scalar.cmpi .eq (BitVec.ofNat 32 (i 0).val) 0#32)) 0#32) = 1#1
/-- The second conditional's test: the grid coordinate is the last one. -/
abbrev isLast5 (i : grid5.Coords) : Prop := k5_cond2 i = 1#1

/-- Over the 25 points the first test holds at point 0 only, -/
theorem isFirst5_iff : ∀ t : Fin cfg5.N, isFirst5 (grid5.coords t) ↔ t.val = 0 :=
  (by decide +kernel : ∀ t : Fin grid5.N, isFirst5 (grid5.coords t) ↔ t.val = 0)
/-- and the second at point 24 only. -/
theorem isLast5_iff : ∀ t : Fin cfg5.N, isLast5 (grid5.coords t) ↔ t.val = 24 :=
  (by decide +kernel : ∀ t : Fin grid5.N, isLast5 (grid5.coords t) ↔ t.val = 24)

/-- The offsets of every load and store of the body: zero on both axes. -/
theorem offZero : (![0, 0] : Fin 2 → Nat) = fun _ => 0 := funext fun a => by fin_cases a <;> rfl

/-- A store through the whole accumulator rectangle, made last, covers every index. -/
theorem cover_last5 (w : Vec F S128x256 .f32) (L : List (View.Piece (Elt F) S128x256 .f32)) (y : S128x256.Idx) :
    ∃ p ∈ ((⟨r5_a, w⟩ : View.Piece (Elt F) S128x256 .f32) :: L), y ∈ p.1.set :=
  ⟨_, List.mem_cons_self, View.mem_set_unit_zero offZero inb_S128x256_S128x256_0_0 y⟩

/-- So after such a store the buffer reads the stored value, whatever it held and whatever was stored before. -/
theorem read_after_whole5 {κ : Kind} {sp : Space} (v : View sig κ sp S128x256 .f32) (f : v.ty.Contents (Elt F))
    (w : Vec F S128x256 .f32) (L : List (View.Piece (Elt F) S128x256 .f32)) :
    v.read (Elt F) (v.writes (Elt F) f ((⟨r5_a, w⟩ : View.Piece (Elt F) S128x256 .f32) :: L)) = w := by
  rw [View.read_writes_eq_canon _ _ _ (cover_last5 w L), View.canon_cons_unit_zero (S := S128x256) offZero]

/-- THE FIRST POINT. The body clears the accumulator, then adds the point's product to it: whatever the
    accumulator's buffer held, it ends at the update of zeros; the row block, the id block and the output buffer
    are as they were. -/
theorem run5_first (c : Dev nD) (i : grid5.Coords)
    (arg1 : Memref sig .tc .vmem S2000x256 .f32) (harg1 : arg1.IsWhole)
    (arg2 : Memref sig .tc .vmem S2000x1 .i32) (harg2 : arg2.IsWhole)
    (arg3 : Memref sig .tc .vmem S128x256 .f32) (harg3 : arg3.IsWhole)
    (arg4 : Memref sig .tc .vmem S128x256 .f32) (harg4 : arg4.IsWhole)
    (hc0 : isFirst5 i) (hc1 : ¬isLast5 i)
    (x0 : Vec F S2000x256 .f32) (x1 : Vec F S2000x1 .i32) (xo : Vec F S128x256 .f32)
    (E : Set ℕ) (K : PUnit → sProp 𝕄) :
    iprop(owns (c : Thread nD τ) arg1 fullShare x0 ∗ owns (c : Thread nD τ) arg2 fullShare x1
        ∗ owns (c : Thread nD τ) arg3 fullShare xo ∗ (∃ d, owns (c : Thread nD τ) arg4 fullShare d)
        ∗ (iprop(owns (c : Thread nD τ) arg1 fullShare x0 ∗ owns (c : Thread nD τ) arg2 fullShare x1
            ∗ owns (c : Thread nD τ) arg3 fullShare xo
            ∗ owns (c : Thread nD τ) arg4 fullShare (k5_pay2 x0 x1 (k5_pay1 (F := F)))) -∗ K ⟨⟩))
      ⊢ wp frame (wpE (defs₀ (F := F)) Variants.none c none) E (cc5__pool_kernel i arg1 harg1 arg2 harg2 arg3 harg3 arg4 harg4) K := by
  simp only [cc5__pool_kernel_eq_skeleton]; unfold cc5__pool_kernel_skel
  unfold owns
  iintro ⟨⟨%f0, %hf0, H0⟩, ⟨%f1, %hf1, H1⟩, ⟨%fo, %hfo, HO⟩, ⟨%ds, %fs, -, HS⟩, Hk⟩
  obtain rfl := harg1.eq_unread hf0; obtain rfl := harg2.eq_unread hf1; obtain rfl := harg3.eq_unread hfo
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [HO]
  · iexists _; isplitr; · ipureintro; exact harg3.read_unread _
    iexact HO
  iexists _; isplitr
  swap; · iexact HS
  ipureintro
  sl_unfold_words
  rw [read_after_whole5]
  simp only [View.readAt_eq_ld, harg1.read_unread, harg2.read_unread, View.ld_unit_zero (S := S2000x256) offZero,
    View.ld_unit_zero (S := S2000x1) offZero, View.readCov_unit_zero (S := S128x256) _ offZero]

/-- A MIDDLE POINT. Neither conditional is taken: the accumulator, held at `a`, ends at the update of `a`; the
    row block, the id block and the output buffer are as they were. -/
theorem run5_middle (c : Dev nD) (i : grid5.Coords)
    (arg1 : Memref sig .tc .vmem S2000x256 .f32) (harg1 : arg1.IsWhole)
    (arg2 : Memref sig .tc .vmem S2000x1 .i32) (harg2 : arg2.IsWhole)
    (arg3 : Memref sig .tc .vmem S128x256 .f32) (harg3 : arg3.IsWhole)
    (arg4 : Memref sig .tc .vmem S128x256 .f32) (harg4 : arg4.IsWhole)
    (hc0 : ¬isFirst5 i) (hc1 : ¬isLast5 i)
    (x0 : Vec F S2000x256 .f32) (x1 : Vec F S2000x1 .i32) (xo : Vec F S128x256 .f32) (a : Vec F S128x256 .f32)
    (E : Set ℕ) (K : PUnit → sProp 𝕄) :
    iprop(owns (c : Thread nD τ) arg1 fullShare x0 ∗ owns (c : Thread nD τ) arg2 fullShare x1
        ∗ owns (c : Thread nD τ) arg3 fullShare xo ∗ owns (c : Thread nD τ) arg4 fullShare a
        ∗ (iprop(owns (c : Thread nD τ) arg1 fullShare x0 ∗ owns (c : Thread nD τ) arg2 fullShare x1
            ∗ owns (c : Thread nD τ) arg3 fullShare xo
            ∗ owns (c : Thread nD τ) arg4 fullShare (k5_pay2 x0 x1 a)) -∗ K ⟨⟩))
      ⊢ wp frame (wpE (defs₀ (F := F)) Variants.none c none) E (cc5__pool_kernel i arg1 harg1 arg2 harg2 arg3 harg3 arg4 harg4) K := by
  simp only [cc5__pool_kernel_eq_skeleton]; unfold cc5__pool_kernel_skel
  unfold owns
  iintro ⟨⟨%f0, %hf0, H0⟩, ⟨%f1, %hf1, H1⟩, ⟨%fo, %hfo, HO⟩, ⟨%fs, %hfs, HS⟩, Hk⟩
  obtain rfl := harg1.eq_unread hf0; obtain rfl := harg2.eq_unread hf1; obtain rfl := harg3.eq_unread hfo
  obtain rfl := harg4.eq_unread hfs
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [HO]
  · iexists _; isplitr; · ipureintro; exact harg3.read_unread _
    iexact HO
  iexists _; isplitr
  swap; · iexact HS
  ipureintro
  sl_unfold_words
  rw [read_after_whole5]
  simp only [View.readAt_eq_ld, harg1.read_unread, harg2.read_unread, harg4.read_unread,
    View.ld_unit_zero (S := S2000x256) offZero, View.ld_unit_zero (S := S2000x1) offZero,
    View.ld_unit_zero (S := S128x256) offZero]

/-- THE LAST POINT. The first conditional is not taken, the second is: the accumulator, held at `a`, ends at the
    update of `a`, and the output buffer, whatever it held, ends at that same value; the row block and the id block
    are as they were. -/
theorem run5_last (c : Dev nD) (i : grid5.Coords)
    (arg1 : Memref sig .tc .vmem S2000x256 .f32) (harg1 : arg1.IsWhole)
    (arg2 : Memref sig .tc .vmem S2000x1 .i32) (harg2 : arg2.IsWhole)
    (arg3 : Memref sig .tc .vmem S128x256 .f32) (harg3 : arg3.IsWhole)
    (arg4 : Memref sig .tc .vmem S128x256 .f32) (harg4 : arg4.IsWhole)
    (hc0 : ¬isFirst5 i) (hc1 : isLast5 i)
    (x0 : Vec F S2000x256 .f32) (x1 : Vec F S2000x1 .i32) (a : Vec F S128x256 .f32)
    (E : Set ℕ) (K : PUnit → sProp 𝕄) :
    iprop(owns (c : Thread nD τ) arg1 fullShare x0 ∗ owns (c : Thread nD τ) arg2 fullShare x1
        ∗ (∃ d, owns (c : Thread nD τ) arg3 fullShare d) ∗ owns (c : Thread nD τ) arg4 fullShare a
        ∗ (iprop(owns (c : Thread nD τ) arg1 fullShare x0 ∗ owns (c : Thread nD τ) arg2 fullShare x1
            ∗ owns (c : Thread nD τ) arg3 fullShare (k5_pay2 x0 x1 a)
            ∗ owns (c : Thread nD τ) arg4 fullShare (k5_pay2 x0 x1 a)) -∗ K ⟨⟩))
      ⊢ wp frame (wpE (defs₀ (F := F)) Variants.none c none) E (cc5__pool_kernel i arg1 harg1 arg2 harg2 arg3 harg3 arg4 harg4) K := by
  simp only [cc5__pool_kernel_eq_skeleton]; unfold cc5__pool_kernel_skel
  unfold owns
  iintro ⟨⟨%f0, %hf0, H0⟩, ⟨%f1, %hf1, H1⟩, ⟨%dO, %fo, -, HO⟩, ⟨%fs, %hfs, HS⟩, Hk⟩
  obtain rfl := harg1.eq_unread hf0; obtain rfl := harg2.eq_unread hf1
  obtain rfl := harg4.eq_unread hfs
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [HO]
  · iexists _; isplitr
    swap; · iexact HO
    ipureintro
    sl_unfold_words
    rw [read_after_whole5]
    simp only [View.readAt_eq_ld, harg1.read_unread, harg2.read_unread, harg4.read_unread,
      View.ld_unit_zero (S := S2000x256) offZero, View.ld_unit_zero (S := S2000x1) offZero,
      View.ld_unit_zero (S := S128x256) offZero, View.readCov_unit_zero (S := S128x256) _ offZero]
  iexists _; isplitr
  swap; · iexact HS
  ipureintro
  sl_unfold_words
  rw [read_after_whole5]
  simp only [View.readAt_eq_ld, harg1.read_unread, harg2.read_unread, harg4.read_unread,
    View.ld_unit_zero (S := S2000x256) offZero, View.ld_unit_zero (S := S2000x1) offZero,
    View.ld_unit_zero (S := S128x256) offZero]

/- The TensorCore's buffer contents when the region is entered: every statement below is made at this parameter. -/
variable (V : (c : Dev nD) → (b : Ref sig .tc) → Buf (Elt F) ((c : Thread nD τ).loc b))

/-! ## What the body finds in its input buffers -/

/-- The row block's buffer holds the point's block of rows at every point. -/
theorem before5_0 (c : Dev nD) (t : Fin cfg5.N) (d) : (dat5 V c).before 0 t d = iblk5 V c 0 t :=
  ((dat5 V c).before_in_eq_fetched 0 rfl (fun _ => rfl) (fun _ _ _ => rfl)
    (fun t => by rw [after5_0]; unfold Dat.blockOf iblk5; rw [A_eq5]; try rfl) t d).trans
    (by unfold Dat.fetched Dat.blockOf iblk5; rw [A_eq5]; try rfl)

/-- The id block's buffer holds the point's block of graph ids at every point. -/
theorem before5_1 (c : Dev nD) (t : Fin cfg5.N) (d) : (dat5 V c).before 1 t d = iblk5 V c 1 t :=
  ((dat5 V c).before_in_eq_fetched 1 rfl (fun _ => rfl) (fun _ _ _ => rfl)
    (fun t => by rw [after5_1]; unfold Dat.blockOf iblk5; rw [A_eq5]; try rfl) t d).trans
    (by unfold Dat.fetched Dat.blockOf iblk5; rw [A_eq5]; try rfl)

/-! ## Where the windows are idle -/

/-- The inputs are never idle. -/
theorem live5_0 : ∀ t : Fin cfg5.N, cfg5.idle 0 (grid5.coords t) = false := fun _ => rfl
theorem live5_1 : ∀ t : Fin cfg5.N, cfg5.idle 1 (grid5.coords t) = false := fun _ => rfl
/-- The output window is idle wherever the second conditional is not taken, and there it is not written back; -/
theorem idle5_2 : ∀ t : Fin cfg5.N, ¬isLast5 (grid5.coords t) → cfg5.idle 2 (grid5.coords t) = true := by decide +kernel
theorem noFlush5_2 : ∀ t : Fin cfg5.N, ¬isLast5 (grid5.coords t) → (cfg5.win 2).flush t = false := by decide +kernel
/-- where it is taken the window is live. -/
theorem live5_2 : ∀ t : Fin cfg5.N, isLast5 (grid5.coords t) → cfg5.idle 2 (grid5.coords t) = false := by decide +kernel

/-! ## The accumulator at a point, by the point's case -/

theorem accAt5_first (c : Dev nD) (t : Fin cfg5.N) (hz : t.val = 0) :
    accAt5 V c t.val t.isLt = k5_pay2 (iblk5 V c 0 t) (iblk5 V c 1 t) (k5_pay1 (F := F)) := by
  obtain ⟨n, hn⟩ := t
  cases n with
  | zero => rfl
  | succ n => exact absurd hz (Nat.succ_ne_zero n)

theorem accAt5_later (c : Dev nD) (t : Fin cfg5.N) (hz : t.val ≠ 0) :
    accAt5 V c t.val t.isLt
      = k5_pay2 (iblk5 V c 0 t) (iblk5 V c 1 t) (accAt5 V c (t.val - 1) (Nat.lt_of_le_of_lt (Nat.sub_le _ _) t.isLt)) := by
  obtain ⟨n, hn⟩ := t
  cases n with
  | zero => exact absurd rfl hz
  | succ n => rfl

/-! ## The class's invariant, opened at the accumulator's buffer -/

/-- Every scoped buffer that is no staging buffer at some contents: the accumulator's buffer at some contents, and
    the others. -/
theorem PhiA5_eq (c : Dev nD) :
    (Pipeline.ΦA spec5 c : sProp 𝕄)
      = iprop(iprop(iprop(∃ d, owns (c : Thread nD τ) scM5 fullShare d)
          ∗ Pipeline.scopedRestBut (Ix := Unit) (Name := ℕ) (U := UR sig nD τ) (Lvl := ℕ) (Val := Elt F) spec5 c [cc5_scratch0])
          ∗ (∃ r, prngReg c r)) := by
  unfold Pipeline.ΦA; rw [scopedRest5_split]; simp only [scM5, owns_whole]; try rfl

/-! ## The body at a point -/

/-- Each window's current staging buffer at point `t`, as the pipeline passes it to the body, and its wholeness. -/
abbrev ms5_0 (t : Fin cfg5.N) : Memref sig .tc .vmem S2000x256 .f32 := win5_0.stage (cfg5.slots t 0)
abbrev hs5_0 (t : Fin cfg5.N) : (ms5_0 t).IsWhole := hstage5_0 ((cfg5.slots t 0).cast nbuf5_0)
abbrev ms5_1 (t : Fin cfg5.N) : Memref sig .tc .vmem S2000x1 .i32 := win5_1.stage (cfg5.slots t 1)
abbrev hs5_1 (t : Fin cfg5.N) : (ms5_1 t).IsWhole := hstage5_1 ((cfg5.slots t 1).cast nbuf5_1)
abbrev ms5_2 (t : Fin cfg5.N) : Memref sig .tc .vmem S128x256 .f32 := win5_2.stage (cfg5.slots t 2)
abbrev hs5_2 (t : Fin cfg5.N) : (ms5_2 t).IsWhole := hstage5_2 ((cfg5.slots t 2).cast nbuf5_2)

/-- What the body is called with at point `t`: the invariant, what the core owes, and the three current buffers, -/
def bodyPre5 (c : Dev nD) (t : Fin cfg5.N) : sProp 𝕄 :=
  iprop((dat5 V c).Φ t.castSucc ∗ (dat5 V c).owesAt () t.castSucc
    ∗ (∃ d, owns (c : Thread nD τ) (ms5_0 t) fullShare ((dat5 V c).before 0 t d))
    ∗ (∃ d, owns (c : Thread nD τ) (ms5_1 t) fullShare ((dat5 V c).before 1 t d))
    ∗ (∃ d, owns (c : Thread nD τ) (ms5_2 t) fullShare ((dat5 V c).before 2 t d)))

/-- and what it returns. -/
def bodyPost5 (c : Dev nD) (t : Fin cfg5.N) : sProp 𝕄 :=
  iprop((dat5 V c).Φ t.succ ∗ (dat5 V c).owesAt () t.succ
    ∗ (dat5 V c).leavesExact 0 t
    ∗ (dat5 V c).leavesExact 1 t
    ∗ (dat5 V c).leavesExact 2 t)

set_option maxHeartbeats 1600000 in
/-- The body at any point, by the point's case: point 0 (the invariant is the class's: the accumulator's buffer at
    anything), the points strictly between (the accumulator's buffer at what the point before left) and point 24
    (the same, and the output window live). In every case the accumulator is handed back at `accAt5` of the point. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1]
  rw [show (dat5 V c).owesAt () t.succ = (dat5 V c).owesAt () t.castSucc from rfl]
  rw [show (dat5 V c).Φ t.succ = PhiS5 V c (t.val + 1) t.isLt from rfl, PhiS5_succ]
  rw [show (dat5 V c).leavesExact 0 t = owns (c : Thread nD τ) (ms5_0 t) fullShare ((dat5 V c).after 0 t) from by
    unfold Dat.leavesExact; rw [live5_0 t], after5_0]
  rw [show (dat5 V c).leavesExact 1 t = owns (c : Thread nD τ) (ms5_1 t) fullShare ((dat5 V c).after 1 t) from by
    unfold Dat.leavesExact; rw [live5_1 t], after5_1]
  have hN : t.val < 25 := lt_of_lt_of_eq t.isLt (show cfg5.N = 25 from N_5)
  by_cases hl : t.val = 24
  · -- the last point
    have hz : t.val ≠ 0 := by omega
    have hF : ¬isFirst5 (grid5.coords t) := fun h => hz ((isFirst5_iff t).mp h)
    have hL : isLast5 (grid5.coords t) := (isLast5_iff t).mpr hl
    rw [show (dat5 V c).leavesExact 2 t = owns (c : Thread nD τ) (ms5_2 t) fullShare ((dat5 V c).after 2 t) from by
      unfold Dat.leavesExact; rw [live5_2 t hL], after5_2]
    rw [PhiS5_castSucc V c t, PhiS5_pos V c _ _ hz, accAt5_later V c t hz]
    iintro ⟨⟨HS, Hr, Hg⟩, Ho, ⟨%d0, H0⟩, ⟨%d1, H1⟩, ⟨%d2, H2⟩⟩
    iapply (run5_last c (grid5.coords t) (ms5_0 t) (hs5_0 t) (ms5_1 t) (hs5_1 t) (ms5_2 t) (hs5_2 t) scM5
      (Memref.isWhole_whole _) hF hL (iblk5 V c 0 t) (iblk5 V c 1 t) (accAt5 V c (t.val - 1) _) Set.univ _)
    isplitl [H0]; · iexact H0
    isplitl [H1]; · iexact H1
    isplitl [H2]; · iexists _; iexact H2
    isplitl [HS]; · iexact HS
    iintro ⟨H0, H1, H2, HS⟩
    isplitl [HS Hr Hg]
    · isplitl [HS]; · iexact HS
      isplitl [Hr]; · iexact Hr
      iexact Hg
    isplitl [Ho]; · iexact Ho
    isplitl [H0]; · iexact H0
    isplitl [H1]; · iexact H1
    iexact H2
  · have hL : ¬isLast5 (grid5.coords t) := fun h => hl ((isLast5_iff t).mp h)
    rw [Dat.leavesExact_idle (dat5 V c) 2 t (idle5_2 t hL) (noFlush5_2 t hL)]
    by_cases hz : t.val = 0
    · -- the first point
      have hF : isFirst5 (grid5.coords t) := (isFirst5_iff t).mpr hz
      rw [PhiS5_castSucc V c t, PhiS5_zero V c _ _ hz, PhiA5_eq, accAt5_first V c t hz]
      iintro ⟨⟨⟨HS, Hr⟩, Hg⟩, Ho, ⟨%d0, H0⟩, ⟨%d1, H1⟩, ⟨%d2, H2⟩⟩
      iapply (run5_first c (grid5.coords t) (ms5_0 t) (hs5_0 t) (ms5_1 t) (hs5_1 t) (ms5_2 t) (hs5_2 t) scM5
        (Memref.isWhole_whole _) hF hL (iblk5 V c 0 t) (iblk5 V c 1 t) ((dat5 V c).before 2 t d2) Set.univ _)
      isplitl [H0]; · iexact H0
      isplitl [H1]; · iexact H1
      isplitl [H2]; · iexact H2
      isplitl [HS]; · iexact HS
      iintro ⟨H0, H1, H2, HS⟩
      isplitl [HS Hr Hg]
      · isplitl [HS]; · iexact HS
        isplitl [Hr]; · iexact Hr
        iexact Hg
      isplitl [Ho]; · iexact Ho
      isplitl [H0]; · iexact H0
      isplitl [H1]; · iexact H1
      iexists _; iexact H2
    · -- a point strictly between
      have hF : ¬isFirst5 (grid5.coords t) := fun h => hz ((isFirst5_iff t).mp h)
      rw [PhiS5_castSucc V c t, PhiS5_pos V c _ _ hz, accAt5_later V c t hz]
      iintro ⟨⟨HS, Hr, Hg⟩, Ho, ⟨%d0, H0⟩, ⟨%d1, H1⟩, ⟨%d2, H2⟩⟩
      iapply (run5_middle c (grid5.coords t) (ms5_0 t) (hs5_0 t) (ms5_1 t) (hs5_1 t) (ms5_2 t) (hs5_2 t) scM5
        (Memref.isWhole_whole _) hF hL (iblk5 V c 0 t) (iblk5 V c 1 t) ((dat5 V c).before 2 t d2)
        (accAt5 V c (t.val - 1) _) Set.univ _)
      isplitl [H0]; · iexact H0
      isplitl [H1]; · iexact H1
      isplitl [H2]; · iexact H2
      isplitl [HS]; · iexact HS
      iintro ⟨H0, H1, H2, HS⟩
      isplitl [HS Hr Hg]
      · isplitl [HS]; · iexact HS
        isplitl [Hr]; · iexact Hr
        iexact Hg
      isplitl [Ho]; · iexact Ho
      isplitl [H0]; · iexact H0
      isplitl [H1]; · iexact H1
      iexists _; iexact H2

/-! ## The obligation and the invariant's two ends -/

theorem body_obligation5 (c : Dev nD) : BodyObligation (dat5 (F := F) V c) (defs₀ (F := F)) Variants.none () Set.univ := fun t => by
  rw [bigSep_W5, bigSep_W5]
  exact sound_body5 V c t

/-- What the launch hands the region is the invariant before the first point. -/
theorem hin5 (c : Dev nD) : Pipeline.ΦA spec5 c ⊢ (dat5 V c).Φ 0 := by
  rw [show (dat5 V c).Φ 0 = PhiS5 V c 0 (Nat.zero_le _) from rfl, PhiS5_zero V c 0 _ rfl]

/-- After the last point the invariant gives the class's invariant back: the accumulator's named contents are forgotten. -/
theorem hout5 (c : Dev nD) : (dat5 V c).Φ (Fin.last cfg5.N) ⊢ Pipeline.ΦA spec5 c := by
  have hne : (Fin.last cfg5.N).val ≠ 0 := by rw [Fin.val_last]; have : cfg5.N = 25 := N_5; omega
  rw [show (dat5 V c).Φ (Fin.last cfg5.N) = PhiS5 V c (Fin.last cfg5.N).val (Nat.le_of_lt_succ (Fin.last cfg5.N).isLt) from rfl,
    PhiS5_pos V c _ _ hne, PhiA5_eq]
  iintro ⟨HS, Hr, Hg⟩
  isplitl [HS Hr]
  · isplitl [HS]; · iexists _; iexact HS
    iexact Hr
  iexact Hg

end Cert.Kernel.Hand

end
-- ==== Proof.K.Run.lean ====
/-
  The run of @main over the boundary contents of the fold: each kernel region as a segment over the thread state "every
  unscoped buffer at the boundary's contents, the generator register at some state, nothing owed", each stretch of host
  operations as a segment between two boundaries, the nine segments in @main's order, and the launch over them: every
  weakly fair execution terminates, and every final memory holds the last boundary's contents in every unscoped buffer.
-/
import proofs.«430456_j88974542504687_1_alg».proof.Proof.K.Run1
import proofs.«430456_j88974542504687_1_alg».proof.Proof.K.R0Body
import proofs.«430456_j88974542504687_1_alg».proof.Proof.K.R1Body
import proofs.«430456_j88974542504687_1_alg».proof.Proof.K.R2Body
import proofs.«430456_j88974542504687_1_alg».proof.Proof.K.R3Body
import proofs.«430456_j88974542504687_1_alg».proof.Proof.K.R4Body
import proofs.«430456_j88974542504687_1_alg».proof.Proof.K.R5Body
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The proof data family and the thread state -/

/-- The prefetched tables' admissible contents: no pipeline has a table. -/
abbrev adm : (p : Fin 6) → (pcfgs (F := F) p).Adm := fun p => (cfgs p).toPCfg_adm
/-- Every pipeline's proof data, each at its own region's entry contents. A literal match, so that the pinned
    configuration at a numeral reduces to the printed one. -/
def pdats : (p : Fin 6) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V1 m ρ) c
  | ⟨2, _⟩ => fun c => dat2 (V3 m ρ) c
  | ⟨3, _⟩ => fun c => dat3 (V4 m ρ) c
  | ⟨4, _⟩ => fun c => dat4 (V6 m ρ) c
  | ⟨5, _⟩ => fun c => dat5 (V8 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (a region's
    invariant takes it in and gives it back) and what the core owes, which is nothing. -/
abbrev R (c : Dev nD) : sProp 𝕄 := iprop((∃ r, prngReg c r) ∗ ∃ W, owes (c : Thread nD τ) (0 : CellTallies nD τ sig Unit) W)
/-- A stretch of host operations as a segment: over the unscoped references from the contents W, with R riding along;
    it is left with those references at what the operations make of W. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No operation of the first aggregation allocates a buffer. -/
theorem hostOps2_fresh : (hostOps2 : List (HloOp τ sig (Elt F))).Forall fun op => op.fresh = ∅ := by
  simp only [List.Forall]; repeat' constructor
/-- No operation of the second aggregation allocates a buffer. -/
theorem hostOps4_fresh : (hostOps4 : List (HloOp τ sig (Elt F))).Forall fun op => op.fresh = ∅ := by
  simp only [List.Forall]; repeat' constructor
/-- The reshape allocates no buffer. -/
theorem hostOps5_fresh : (hostOps5 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what the core owes: every unscoped buffer at the last boundary's contents, the
    generator register at some state. -/
abbrev Tₙ (c : Dev nD) : sProp 𝕄 := iprop(StableHlo.held (c : Thread nD τ) (Pipeline.ucRefs τ sig) (W9 m ρ c) ∗ ∃ r, prngReg c r)

/-! # The regions as segments

Each region is entered from every unscoped buffer at its entry contents beside R. At the entry its windows' arrays are
split out of the unscoped buffers and the rest bypasses the region; the generator register goes into the region's
invariant and comes back out of it; at the exit the arrays are put back, now at what the write-backs left, which with
the bypassing rest is every unscoped buffer at the exit contents. Nothing is owed, and no kernel has a semaphore of its
own. -/

set_option backward.isDefEq.respectTransparency.types false in
/-- Region 0 (the projection): entered from every unscoped buffer at W0, left at W1. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 (the first layer's two products): entered from every unscoped buffer at W1, left at W2. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V1 m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec1 c (V1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V1 m ρ c) (V2 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 (the first layer's rectified aggregate plus residual): entered from every unscoped buffer at W3, left at W4. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V3 m ρ) c).loose
  hwaits := Pipeline.hwaits_of_owed_zero _ _ _ _ L lv 2 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec2 c (V3 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V3 m ρ c) (V4 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 (the second layer's two products): entered from every unscoped buffer at W4, left at W5. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V4 m ρ) c).loose
  hwaits := Pipeline.hwaits_of_owed_zero _ _ _ _ L lv 3 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec3 c (V4 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V4 m ρ c) (V5 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 (the second layer's rectified aggregate plus residual): entered from every unscoped buffer at W6, left at W7. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V6 m ρ) c).loose
  hwaits := Pipeline.hwaits_of_owed_zero _ _ _ _ L lv 4 fun _ _ => rfl
  pre c := iprop(StableHlo.held (c : Thread nD τ) (Pipeline.ucRefs τ sig) (W6 m ρ c) ∗ R c)
  post c := iprop(StableHlo.held (c : Thread nD τ) (Pipeline.ucRefs τ sig) (W7 m ρ c) ∗ R c)
  X c := iprop(∃ r, prngReg c r)
  Y c := iprop(∃ r, prngReg c r)
  Z c := Pipeline.unscopedRest (Ix := Unit) (Name := ℕ) (U := UR sig nD τ) (Lvl := ℕ) spec4 c (V6 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V6 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V6 m ρ c) (V7 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5 (the per-graph sums): entered from every unscoped buffer at W8, left at W9, which is what @main returns
    from. Its invariant is its own: it carries the running sums in the scratch buffer from one grid point to the next. What
    the launch hands the region makes the class's invariant, which is the region's before the first point; after the
    last point the region's invariant gives the class's back, the scratch buffer's contents forgotten. -/
def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (V8 m ρ) c).loose
  hwaits := Pipeline.hwaits_of_owed_zero _ _ _ _ L lv 5 fun _ _ => rfl
  pre c := iprop(StableHlo.held (c : Thread nD τ) (Pipeline.ucRefs τ sig) (W8 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec5 c (V8 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (V8 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (show Pipeline.ΦA spec5 c ⊢ (pdats m ρ 5 c).Φ 0 from hin5 (V8 m ρ) c)
    unfold Pipeline.ΦA
    iintro ⟨Hp, -, Hr⟩
    isplitl [Hr]; · iexact Hr
    iexact Hp
  hout c := by
    rw [Pipeline.ownSems0_none]
    refine BIBase.Entails.trans (show (pdats m ρ 5 c).Φ (Fin.last _) ⊢ Pipeline.ΦA spec5 c from hout5 (V8 m ρ) c) ?_
    unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (V8 m ρ c) (V9 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! # @main as segments, and the launch -/

/-- @main's nine segments in order: a region per kernel call, a host segment per stretch from its boundary's contents. -/
abbrev segs : List (Pipeline.Seg (pcfgs (F := F)) adm (pdats m ρ) () defs₀ 𝒱₀ L lv) :=
  [ .region (reg0 m ρ),
    .region (reg1 m ρ),
    .host (hseg hostOps2 hostOps2_sub hostOps2_fresh (W2 m ρ)),
    .region (reg2 m ρ),
    .region (reg3 m ρ),
    .host (hseg hostOps4 hostOps4_sub hostOps4_fresh (W5 m ρ)),
    .region (reg4 m ρ),
    .host (hseg hostOps5 hostOps5_sub hostOps5_fresh (W7 m ρ)),
    .region (reg5 m ρ) ]
/-- @main is the run of the segments: it is the chain of its nine items, and the segments' run is the same chain. -/
theorem main_run (c : Dev nD) : main (F := F) c = Pipeline.Seg.run (segs m ρ) := (main_chain c).trans (by chain_rfl)

set_option backward.isDefEq.respectTransparency.types false in
/-- THE RUN: at the compiled mesh, from any memory with zero counters, every weakly fair execution of @main on the
    TensorCores terminates, nothing faulting, and every final memory holds, in every unscoped buffer of every core, the
    last boundary's contents W9. The launch over the nine segments; the thread states chain because each segment is
    entered from exactly what the one before it left; the last thread state is read against the final state buffer by
    buffer. -/
theorem run_all : θ_run defs (onTc (τ := τ) (main (F := F))) ⟨m, fun _ => 0, ρ⟩ (fun r => ∀ c : Dev nD,
      ∀ b ∈ Pipeline.ucRefs τ sig, r.2.mem ((c : Thread nD τ).1, b) = W9 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c b hb => h c b hb)

end Cert.Kernel.Hand

end
-- ==== Proof.RefSide.lean ====
/-
  The reference program's result, stage by stage. The reference computes
      h0 = x · W_map,
      h1 = max(agg(h0 · W1), 0) + max(h0 · Wres1, 0),    h2 = max(agg(h1 · W2), 0) + max(h1 · Wres2, 0),
      result = the per-graph sums of h2's rows,
  where agg gathers rows by the (wrapped) source index and adds them up at the destination index. Each stage is named
  here as a function of whole arrays, built from exactly the host operations the reference's run composes, so that
  the run's result term is their composition by unfolding (`res_eq`).
-/
import proofs.«430456_j88974542504687_1_alg».proof.Proof.Gen.ReferenceIdeal.Run
import proofs.«430456_j88974542504687_1_alg».proof.Proof.Gen.ReferenceIdeal.Read

noncomputable section

namespace Cert.ReferenceIdeal.RefSide

open Cert.ReferenceIdeal Cert.ReferenceIdeal.Gen Cert.ReferenceIdeal.Value Idealize.ShloMosaic Idealize.ShloMosaic.TcCoe Idealize.SL.Sem Idealize.ShloMosaic.StableHlo

variable {F : FTy → Type} [FloatOps F]

/-- x · W_map. -/
def lin0 (x : (⟨S50000x64, .f32⟩ : BufTy).Contents (Elt F)) (w : (⟨S64x256, .f32⟩ : BufTy).Contents (Elt F)) :
    (⟨S50000x256, .f32⟩ : BufTy).Contents (Elt F) :=
  Host.dotGeneral dot_S50000x64_S64x256_S50000x256_1_0_0_1_n_n none x w

/-- h · W for a 256 × 256 weight matrix. -/
def lin (h : (⟨S50000x256, .f32⟩ : BufTy).Contents (Elt F)) (w : (⟨S256x256, .f32⟩ : BufTy).Contents (Elt F)) :
    (⟨S50000x256, .f32⟩ : BufTy).Contents (Elt F) :=
  Host.dotGeneral dot_S50000x256_S256x256_S50000x256_1_0_0_1_n_n none h w

/-- max(a, 0), entry by entry. -/
def relu (a : (⟨S50000x256, .f32⟩ : BufTy).Contents (Elt F)) : (⟨S50000x256, .f32⟩ : BufTy).Contents (Elt F) :=
  maximumf a (broadcastInDim S50000x256 ![] bcast_S_S50000x256 (constant S_ .f32 0x00000000#32))

/-- The source indices as the gather takes them: a negative index wrapped by the number of nodes, as a column. -/
def srcIdx (src : (⟨S800000, .i32⟩ : BufTy).Contents (Elt F)) : (⟨S800000x1, .i32⟩ : BufTy).Contents (Elt F) :=
  broadcastInDim S800000x1 ![0] bcast_S800000_S800000x1_0
    (select (cmpi .slt src (broadcastInDim S800000 ![] bcast_S_S800000 (constantI S_ 32 0#32)))
      (addi src (broadcastInDim S800000 ![] bcast_S_S800000 (constantI S_ 32 50000#32))) src)

/-- The edge aggregation: rows gathered at the source indices, added up at the destination indices over zeros. -/
def agg (src dst : (⟨S800000, .i32⟩ : BufTy).Contents (Elt F)) (hw : (⟨S50000x256, .f32⟩ : BufTy).Contents (Elt F)) :
    (⟨S50000x256, .f32⟩ : BufTy).Contents (Elt F) :=
  Host.scatterAdd scatter_S50000x256_S800000x1_S800000x256_1_0_0_1
    (broadcastInDim S50000x256 ![] bcast_S_S50000x256 (constant S_ .f32 0x00000000#32))
    (broadcastInDim S800000x1 ![0] bcast_S800000_S800000x1_0 dst)
    (Host.gather gather_S50000x256_S800000x1_S800000x256_1_0_n_n_0_1_1256 hw (srcIdx src))

/-- One layer: max(agg(h · W), 0) + max(h · Wres, 0). -/
def layer (h : (⟨S50000x256, .f32⟩ : BufTy).Contents (Elt F)) (w wres : (⟨S256x256, .f32⟩ : BufTy).Contents (Elt F))
    (src dst : (⟨S800000, .i32⟩ : BufTy).Contents (Elt F)) : (⟨S50000x256, .f32⟩ : BufTy).Contents (Elt F) :=
  addf (relu (agg src dst (lin h w))) (relu (lin h wres))

/-- The per-graph sums, from the graph ids as a column: row i of h added into row gid2 (i, 0) over zeros. -/
def pool2 (gid2 : (⟨S50000x1, .i32⟩ : BufTy).Contents (Elt F)) (h : (⟨S50000x256, .f32⟩ : BufTy).Contents (Elt F)) :
    (⟨S128x256, .f32⟩ : BufTy).Contents (Elt F) :=
  Host.scatterAdd scatter_S128x256_S50000x1_S50000x256_1_0_0_1
    (broadcastInDim S128x256 ![] bcast_S_S128x256 (constant S_ .f32 0x00000000#32)) gid2 h

/-- The graph ids as a column. -/
def gidCol (gid : (⟨S50000, .i32⟩ : BufTy).Contents (Elt F)) : (⟨S50000x1, .i32⟩ : BufTy).Contents (Elt F) :=
  broadcastInDim S50000x1 ![0] bcast_S50000_S50000x1_0 gid

/-- The whole reference, as a function of the nine argument arrays. -/
def spec (x : (⟨S50000x64, .f32⟩ : BufTy).Contents (Elt F)) (wmap : (⟨S64x256, .f32⟩ : BufTy).Contents (Elt F))
    (w1 wres1 w2 wres2 : (⟨S256x256, .f32⟩ : BufTy).Contents (Elt F))
    (src dst : (⟨S800000, .i32⟩ : BufTy).Contents (Elt F)) (gid : (⟨S50000, .i32⟩ : BufTy).Contents (Elt F)) :
    (⟨S128x256, .f32⟩ : BufTy).Contents (Elt F) :=
  pool2 (gidCol gid) (layer (layer (lin0 x wmap) w1 wres1 src dst) w2 wres2 src dst)

set_option maxRecDepth 8192 in
/-- The reference run's result term is `spec` of the argument arrays. -/
theorem res_eq (m : (ℓ : Loc nD τ sig) → Buf (Elt F) ℓ) (c : Dev nD) :
    res_main_v33 m c = spec (m ((c.tc : Thread nD τ).loc main_arg0)) (m ((c.tc : Thread nD τ).loc main_arg1))
      (m ((c.tc : Thread nD τ).loc main_arg2)) (m ((c.tc : Thread nD τ).loc main_arg3))
      (m ((c.tc : Thread nD τ).loc main_arg4)) (m ((c.tc : Thread nD τ).loc main_arg5))
      (m ((c.tc : Thread nD τ).loc main_arg6)) (m ((c.tc : Thread nD τ).loc main_arg7))
      (m ((c.tc : Thread nD τ).loc main_arg8)) := by
  unfold res_main_v33 spec pool2 gidCol layer relu agg srcIdx lin lin0
  rfl

end Cert.ReferenceIdeal.RefSide

end
-- ==== Proof.ValMatmul.lean ====
/-
  Matrix products read at an index, at the exact-arithmetic values (floats are extended reals, a format change is the
  identity, a product accumulated into zeros and the reference's dot_general are both the plain sum of products).

  The reference multiplies whole arrays: (x · W)(i, j) = Σ_k x(i, k) · W(k, j) for a 50000 × 64 array times 64 × 256
  weights and for a 50000 × 256 array times 256 × 256 weights. A kernel body multiplies one block of 2000 rows by the
  whole weight matrix: for rows r of the block, (X · W)(r, j) = Σ_k X(r, k) · W(k, j); the rectified product is
  max(·, 0) of that, on both sides against the same zero constant.
-/
import proofs.«430456_j88974542504687_1_alg».proof.Proof.Gen.KernelIdeal
import proofs.«430456_j88974542504687_1_alg».proof.Proof.RefSide
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem

/-- The whole-block rectangles' offsets, both zero. -/
theorem offsets_zero : (![0, 0] : Fin 2 → Nat) = fun _ => 0 := funext fun a => by fin_cases a <;> rfl

/-! ## The reference's products at an index -/

/-- (x · W_map)(i, j) = Σ_k x(i, k) · W_map(k, j). -/
theorem lin0_apply (x : (⟨Cert.ReferenceIdeal.S50000x64, .f32⟩ : BufTy).Contents (Elt Ideal))
    (w : (⟨Cert.ReferenceIdeal.S64x256, .f32⟩ : BufTy).Contents (Elt Ideal)) (p : Fin 50000) (q : Fin 256) :
    Cert.ReferenceIdeal.RefSide.lin0 (F := Ideal) x w (ix2 p q) = ∑ k : Fin 64, x (ix2 p k) * w (ix2 k q) := by
  refine (Cert.ReferenceIdeal.Read.val_main_v0_apply x w (ix2 p q)).trans ?_
  refine Finset.sum_congr rfl fun k _ => ?_
  have el : Cert.ReferenceIdeal.Read.lidx_main_v0 (ix2 p q) k = ix2 p k :=
    funext fun a => by match a with | ⟨0, _⟩ => rfl | ⟨1, _⟩ => rfl
  have er : Cert.ReferenceIdeal.Read.ridx_main_v0 (ix2 p q) k = ix2 k q :=
    funext fun a => by match a with | ⟨0, _⟩ => rfl | ⟨1, _⟩ => rfl
  rw [el, er]

/-- (h · W)(i, j) = Σ_k h(i, k) · W(k, j), for any 50000 × 256 array h and 256 × 256 weights W. -/
theorem lin_apply (h : (⟨Cert.ReferenceIdeal.S50000x256, .f32⟩ : BufTy).Contents (Elt Ideal))
    (w : (⟨Cert.ReferenceIdeal.S256x256, .f32⟩ : BufTy).Contents (Elt Ideal)) (p : Fin 50000) (q : Fin 256) :
    Cert.ReferenceIdeal.RefSide.lin (F := Ideal) h w (ix2 p q) = ∑ k : Fin 256, h (ix2 p k) * w (ix2 k q) := by
  unfold Cert.ReferenceIdeal.RefSide.lin
  simp only [Host.dotGeneral]
  rw [Ideal.dotGeneral_apply, ← Equiv.sum_comp (contrEquiv1 Cert.ReferenceIdeal.dot_S50000x256_S256x256_S50000x256_1_0_0_1_n_n 256 rfl rfl).symm]
  refine Finset.sum_congr rfl fun k _ => ?_
  have hk := contrEquiv1_symm_val Cert.ReferenceIdeal.dot_S50000x256_S256x256_S50000x256_1_0_0_1_n_n 256 rfl rfl k
  have el : Cert.ReferenceIdeal.dot_S50000x256_S256x256_S50000x256_1_0_0_1_n_n.lhsIdx (ix2 p q) ((contrEquiv1 Cert.ReferenceIdeal.dot_S50000x256_S256x256_S50000x256_1_0_0_1_n_n 256 rfl rfl).symm k) = ix2 p k := funext fun a => Fin.ext (by
    match a with
    | ⟨0, _⟩ => exact Cert.ReferenceIdeal.Read.lhs_main_v1_0 _ _
    | ⟨1, _⟩ => exact (Cert.ReferenceIdeal.Read.lhs_main_v1_1 _ _).trans hk)
  have er : Cert.ReferenceIdeal.dot_S50000x256_S256x256_S50000x256_1_0_0_1_n_n.rhsIdx (ix2 p q) ((contrEquiv1 Cert.ReferenceIdeal.dot_S50000x256_S256x256_S50000x256_1_0_0_1_n_n 256 rfl rfl).symm k) = ix2 k q := funext fun a => Fin.ext (by
    match a with
    | ⟨0, _⟩ => exact (Cert.ReferenceIdeal.Read.rhs_main_v1_0 _ _).trans hk
    | ⟨1, _⟩ => exact Cert.ReferenceIdeal.Read.rhs_main_v1_1 _ _)
  rw [el, er]

/-- max(a, 0) at an index: the entry against the zero constant's value. -/
theorem relu_apply (a : (⟨Cert.ReferenceIdeal.S50000x256, .f32⟩ : BufTy).Contents (Elt Ideal)) (i : Cert.ReferenceIdeal.S50000x256.Idx) :
    Cert.ReferenceIdeal.RefSide.relu (F := Ideal) a i = max (a i) (Ideal.ofBits .f32 0x00000000#32) := rfl

/-! ## A block of 2000 rows times the 64 × 256 weights -/

theorem rows64_lhs_0 (i : S2000x256.Idx) (q : dot_S2000x64_S64x256_S2000x256_1_0_0_1_n_n.contr.Idx) :
    (dot_S2000x64_S64x256_S2000x256_1_0_0_1_n_n.lhsIdx i q 0).val = (i 0).val := by
  unfold DotDims.lhsIdx
  rw [dif_neg (show ¬(0 : Fin S2000x64.rank) ∈ dot_S2000x64_S64x256_S2000x256_1_0_0_1_n_n.lhsBatch by decide), dif_pos (show (0 : Fin S2000x64.rank) ∈ dot_S2000x64_S64x256_S2000x256_1_0_0_1_n_n.lhsNonContracting by decide)]
  rfl
theorem rows64_lhs_1 (i : S2000x256.Idx) (q : dot_S2000x64_S64x256_S2000x256_1_0_0_1_n_n.contr.Idx) :
    (dot_S2000x64_S64x256_S2000x256_1_0_0_1_n_n.lhsIdx i q 1).val = (q ⟨0, by decide⟩).val :=
  dot_S2000x64_S64x256_S2000x256_1_0_0_1_n_n.lhsIdx_val_of_single rfl i q
theorem rows64_rhs_0 (i : S2000x256.Idx) (q : dot_S2000x64_S64x256_S2000x256_1_0_0_1_n_n.contr.Idx) :
    (dot_S2000x64_S64x256_S2000x256_1_0_0_1_n_n.rhsIdx i q 0).val = (q ⟨0, by decide⟩).val :=
  dot_S2000x64_S64x256_S2000x256_1_0_0_1_n_n.rhsIdx_val_of_single rfl i q
theorem rows64_rhs_1 (i : S2000x256.Idx) (q : dot_S2000x64_S64x256_S2000x256_1_0_0_1_n_n.contr.Idx) :
    (dot_S2000x64_S64x256_S2000x256_1_0_0_1_n_n.rhsIdx i q 1).val = (i 1).val := by
  unfold DotDims.rhsIdx
  rw [dif_neg (show ¬(1 : Fin S64x256.rank) ∈ dot_S2000x64_S64x256_S2000x256_1_0_0_1_n_n.rhsBatch by decide), dif_pos (show (1 : Fin S64x256.rank) ∈ dot_S2000x64_S64x256_S2000x256_1_0_0_1_n_n.rhsNonContracting by decide)]
  rfl

/-- The block product into zeros, its operands narrowed first (the identity here): entry (r, j) is Σ_k X(r, k) · W(k, j). -/
theorem rows64_times_apply (x0 : Vec Ideal S2000x64 .f32) (x1 : Vec Ideal S64x256 .f32) (p : Fin 2000) (q : Fin 256) :
    matmul dot_S2000x64_S64x256_S2000x256_1_0_0_1_n_n none (truncf .bf16 x0 bitsLt_bf16_f32 : FVec Ideal S2000x64 .bf16)
      (truncf .bf16 x1 bitsLt_bf16_f32 : FVec Ideal S64x256 .bf16) (constant S2000x256 .f32 0x00000000#32) (ix2 p q)
      = ∑ k : Fin 64, x0 (ix2 p k) * x1 (ix2 k q) := by
  simp only [matmul]
  rw [Ideal.matmul_constant_zero_apply, ← Equiv.sum_comp (contrEquiv1 dot_S2000x64_S64x256_S2000x256_1_0_0_1_n_n 64 rfl rfl).symm]
  refine Finset.sum_congr rfl fun k _ => ?_
  have hk := contrEquiv1_symm_val dot_S2000x64_S64x256_S2000x256_1_0_0_1_n_n 64 rfl rfl k
  have el : dot_S2000x64_S64x256_S2000x256_1_0_0_1_n_n.lhsIdx (ix2 p q) ((contrEquiv1 dot_S2000x64_S64x256_S2000x256_1_0_0_1_n_n 64 rfl rfl).symm k) = ix2 p k := funext fun a => Fin.ext (by
    match a with
    | ⟨0, _⟩ => exact rows64_lhs_0 _ _
    | ⟨1, _⟩ => exact (rows64_lhs_1 _ _).trans hk)
  have er : dot_S2000x64_S64x256_S2000x256_1_0_0_1_n_n.rhsIdx (ix2 p q) ((contrEquiv1 dot_S2000x64_S64x256_S2000x256_1_0_0_1_n_n 64 rfl rfl).symm k) = ix2 k q := funext fun a => Fin.ext (by
    match a with
    | ⟨0, _⟩ => exact (rows64_rhs_0 _ _).trans hk
    | ⟨1, _⟩ => exact rows64_rhs_1 _ _)
  rw [el, er]
  rfl

/-! ## A block of 2000 rows times 256 × 256 weights, plain and rectified -/

theorem rows256_lhs_0 (i : S2000x256.Idx) (q : dot_S2000x256_S256x256_S2000x256_1_0_0_1_n_n.contr.Idx) :
    (dot_S2000x256_S256x256_S2000x256_1_0_0_1_n_n.lhsIdx i q 0).val = (i 0).val := by
  unfold DotDims.lhsIdx
  rw [dif_neg (show ¬(0 : Fin S2000x256.rank) ∈ dot_S2000x256_S256x256_S2000x256_1_0_0_1_n_n.lhsBatch by decide), dif_pos (show (0 : Fin S2000x256.rank) ∈ dot_S2000x256_S256x256_S2000x256_1_0_0_1_n_n.lhsNonContracting by decide)]
  rfl
theorem rows256_lhs_1 (i : S2000x256.Idx) (q : dot_S2000x256_S256x256_S2000x256_1_0_0_1_n_n.contr.Idx) :
    (dot_S2000x256_S256x256_S2000x256_1_0_0_1_n_n.lhsIdx i q 1).val = (q ⟨0, by decide⟩).val :=
  dot_S2000x256_S256x256_S2000x256_1_0_0_1_n_n.lhsIdx_val_of_single rfl i q
theorem rows256_rhs_0 (i : S2000x256.Idx) (q : dot_S2000x256_S256x256_S2000x256_1_0_0_1_n_n.contr.Idx) :
    (dot_S2000x256_S256x256_S2000x256_1_0_0_1_n_n.rhsIdx i q 0).val = (q ⟨0, by decide⟩).val :=
  dot_S2000x256_S256x256_S2000x256_1_0_0_1_n_n.rhsIdx_val_of_single rfl i q
theorem rows256_rhs_1 (i : S2000x256.Idx) (q : dot_S2000x256_S256x256_S2000x256_1_0_0_1_n_n.contr.Idx) :
    (dot_S2000x256_S256x256_S2000x256_1_0_0_1_n_n.rhsIdx i q 1).val = (i 1).val := by
  unfold DotDims.rhsIdx
  rw [dif_neg (show ¬(1 : Fin S256x256.rank) ∈ dot_S2000x256_S256x256_S2000x256_1_0_0_1_n_n.rhsBatch by decide), dif_pos (show (1 : Fin S256x256.rank) ∈ dot_S2000x256_S256x256_S2000x256_1_0_0_1_n_n.rhsNonContracting by decide)]
  rfl

variable {F : FTy → Type} [FloatOps F]

/-- What a layer's kernel body computes for its first output from a loaded row block X and loaded weights W: the
    block recast to its own shape and narrowed, the weights narrowed, their product accumulated into zeros. -/
def rowsTimes (x0 : Vec F S2000x256 .f32) (x1 : Vec F S256x256 .f32) : FVec F S2000x256 .f32 :=
  matmul dot_S2000x256_S256x256_S2000x256_1_0_0_1_n_n none
    (truncf .bf16 (shapeCast S2000x256 x0 shapeCasts_S2000x256_S2000x256 : FVec F S2000x256 .f32) bitsLt_bf16_f32 : FVec F S2000x256 .bf16)
    (truncf .bf16 x1 bitsLt_bf16_f32 : FVec F S256x256 .bf16) (constant S2000x256 .f32 0x00000000#32)

/-- And for its second output: the same product with the residual weights, then the maximum with a zero splat. -/
def rowsTimesRect (x0 : Vec F S2000x256 .f32) (x1 : Vec F S256x256 .f32) : FVec F S2000x256 .f32 :=
  maximumf (rowsTimes x0 x1) (broadcast S2000x256 (Scalar.ofBits .f32 0x00000000#32 : F .f32))

/-- Entry (r, j) of the block product is Σ_k X(r, k) · W(k, j). -/
theorem rowsTimes_apply (x0 : Vec Ideal S2000x256 .f32) (x1 : Vec Ideal S256x256 .f32) (p : Fin 2000) (q : Fin 256) :
    rowsTimes (F := Ideal) x0 x1 (ix2 p q) = ∑ k : Fin 256, x0 (ix2 p k) * x1 (ix2 k q) := by
  unfold rowsTimes
  simp only [matmul]
  rw [Ideal.matmul_constant_zero_apply, ← Equiv.sum_comp (contrEquiv1 dot_S2000x256_S256x256_S2000x256_1_0_0_1_n_n 256 rfl rfl).symm]
  refine Finset.sum_congr rfl fun k _ => ?_
  have hk := contrEquiv1_symm_val dot_S2000x256_S256x256_S2000x256_1_0_0_1_n_n 256 rfl rfl k
  have el : dot_S2000x256_S256x256_S2000x256_1_0_0_1_n_n.lhsIdx (ix2 p q) ((contrEquiv1 dot_S2000x256_S256x256_S2000x256_1_0_0_1_n_n 256 rfl rfl).symm k) = ix2 p k := funext fun a => Fin.ext (by
    match a with
    | ⟨0, _⟩ => exact rows256_lhs_0 _ _
    | ⟨1, _⟩ => exact (rows256_lhs_1 _ _).trans hk)
  have er : dot_S2000x256_S256x256_S2000x256_1_0_0_1_n_n.rhsIdx (ix2 p q) ((contrEquiv1 dot_S2000x256_S256x256_S2000x256_1_0_0_1_n_n 256 rfl rfl).symm k) = ix2 k q := funext fun a => Fin.ext (by
    match a with
    | ⟨0, _⟩ => exact (rows256_rhs_0 _ _).trans hk
    | ⟨1, _⟩ => exact rows256_rhs_1 _ _)
  rw [el, er]
  rw [truncf_apply, truncf_apply, shapeCast_self]

/-- Entry (r, j) of the rectified block product is max(Σ_k X(r, k) · W(k, j), 0), the zero being the constant's value. -/
theorem rowsTimesRect_apply (x0 : Vec Ideal S2000x256 .f32) (x1 : Vec Ideal S256x256 .f32) (p : Fin 2000) (q : Fin 256) :
    rowsTimesRect (F := Ideal) x0 x1 (ix2 p q) = max (∑ k : Fin 256, x0 (ix2 p k) * x1 (ix2 k q)) (Ideal.ofBits .f32 0x00000000#32) := by
  unfold rowsTimesRect
  rw [maximumf_apply, rowsTimes_apply]
  rfl

end Cert.KernelIdeal.Hand

end
-- ==== Proof.Val0.lean ====
/-
  Region 0's output array as a whole-array function of what the region was entered with, at the exact-arithmetic
  values: it is x · W_map, x the 50000 × 64 array the region reads in row blocks of 2000 and W_map the 64 × 256 weights.

  Point t of the 25 writes back rows 2000·t … 2000·t + 1999. Entry (r, j) of what it writes is Σ_k X(r, k) · W_map(k, j)
  over the row block X it was handed, and X(r, k) = x(2000·t + r, k): that is entry (2000·t + r, j) of x · W_map. Row i
  of the output lies in the block of point i / 2000, so the 25 blocks fill the array.
-/
import proofs.«430456_j88974542504687_1_alg».proof.Proof.R0Defs
import proofs.«430456_j88974542504687_1_alg».proof.Proof.RefSide
import proofs.«430456_j88974542504687_1_alg».proof.Proof.ValMatmul
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/- The TensorCore's buffer contents when the region is entered, at the exact-arithmetic values. -/
variable (V : (c : Dev nD) → (b : Ref sig .tc) → Buf (Elt Ideal) ((c : Thread nD τ).loc b))

/-- The printed index maps over the 25 grid points: the input's and the output's row-block windows sit at block row t,
    block column 0; the weight window is the one block (0, 0) at every point. -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Entry (r, k) of the input's row block at point t is the array's entry (2000·t + r, k). -/
theorem blk0_0_emb (t : Fin cfg0.N) (p : Fin 2000) (k : Fin 64) (hp : t.val * 2000 + p.val < 50000) :
    ((cfg0.win 0).blk t).view.emb (ix2 p k) = ix2 ⟨t.val * 2000 + p.val, hp⟩ k := by
  obtain ⟨ea, eb, -⟩ := idx_facts0 t
  funext a; apply Fin.ext
  match a with
  | ⟨0, _⟩ => show win0_0.index t (0 : Fin 2) * 2000 + 1 * p.val = t.val * 2000 + p.val; omega
  | ⟨1, _⟩ => show win0_0.index t (1 : Fin 2) * 64 + 1 * k.val = k.val; omega

/-- The weight window's block is the whole matrix: its entry (k, j) is the array's entry (k, j). -/
theorem blk0_1_emb (t : Fin cfg0.N) (k : Fin 64) (q : Fin 256) :
    ((cfg0.win 1).blk t).view.emb (ix2 k q) = ix2 k q := by
  obtain ⟨-, -, ea, eb, -⟩ := idx_facts0 t
  funext a; apply Fin.ext
  match a with
  | ⟨0, _⟩ => show win0_1.index t (0 : Fin 2) * 64 + 1 * k.val = k.val; omega
  | ⟨1, _⟩ => show win0_1.index t (1 : Fin 2) * 256 + 1 * q.val = q.val; omega

/-- Entry (r, j) of the output's row block at point t is the array's entry (2000·t + r, j). -/
theorem blk0_2_emb (t : Fin cfg0.N) (p : Fin 2000) (q : Fin 256) (hp : t.val * 2000 + p.val < 50000) :
    ((cfg0.win 2).blk t).view.emb (ix2 p q) = ix2 ⟨t.val * 2000 + p.val, hp⟩ q := by
  obtain ⟨-, -, -, -, ea, eb⟩ := idx_facts0 t
  funext a; apply Fin.ext
  match a with
  | ⟨0, _⟩ => show win0_2.index t (0 : Fin 2) * 2000 + 1 * p.val = t.val * 2000 + p.val; omega
  | ⟨1, _⟩ => show win0_2.index t (1 : Fin 2) * 256 + 1 * q.val = q.val; omega

/-- A row of a block lies inside the array. -/
theorem row_lt0 (t : Fin cfg0.N) (p : Fin 2000) : t.val * 2000 + p.val < 50000 := by
  have ht : t.val < 25 := t.isLt
  have := p.isLt
  omega

/-- The input's row block at point t, read at (r, k), is the array x at (2000·t + r, k). -/
theorem iblk0_0_apply (c : Dev nD) (t : Fin cfg0.N) (p : Fin 2000) (k : Fin 64) :
    iblk0 V c 0 t (ix2 p k) = V c main_arg0 (ix2 ⟨t.val * 2000 + p.val, row_lt0 t p⟩ k) := by
  show V c main_arg0 (((cfg0.win 0).blk t).view.emb (ix2 p k)) = _
  rw [blk0_0_emb t p k (row_lt0 t p)]

/-- The weight block at any point, read at (k, j), is the weight array at (k, j). -/
theorem iblk0_1_apply (c : Dev nD) (t : Fin cfg0.N) (k : Fin 64) (q : Fin 256) :
    iblk0 V c 1 t (ix2 k q) = V c main_arg1 (ix2 k q) := by
  show V c main_arg1 (((cfg0.win 1).blk t).view.emb (ix2 k q)) = _
  rw [blk0_1_emb t k q]

/-- The body's stored value at entry (r, j): Σ_k X(r, k) · W(k, j) of the blocks it loaded. -/
theorem pay0_apply (x0 : Vec Ideal S2000x64 .f32) (x1 : Vec Ideal S64x256 .f32) (p : Fin 2000) (q : Fin 256) :
    k0_pay1 (F := Ideal) x0 x1 (ix2 p q) = ∑ k : Fin 64, x0 (ix2 p k) * x1 (ix2 k q) :=
  rows64_times_apply x0 x1 p q

/-- What point t writes back is block t of x · W_map. -/
theorem flushed0_2_eq (c : Dev nD) (t : Fin cfg0.N) :
    (dat0 (F := Ideal) V c).flushed 2 t = ((cfg0.win 2).blk t).view.read (Elt Ideal) (Cert.ReferenceIdeal.RefSide.lin0 (V c main_arg0) (V c main_arg1)) := by
  show (cfg0.win 2).cut (grid0.coords t) ((dat0 V c).after 2 t) = _
  rw [after0_2]
  unfold out0_2
  rw [View.canon_unit_zero offsets_zero]
  simp only [View.ld_unit_zero (S := S2000x64) offsets_zero, View.ld_unit_zero (S := S64x256) offsets_zero]
  refine funext fun (j : S2000x256.Idx) => ?_
  obtain ⟨p, q, rfl⟩ : ∃ (p : Fin 2000) (q : Fin 256), j = ix2 p q := ⟨j 0, j 1, eq_ix2 j⟩
  show k0_pay1 (iblk0 V c 0 t) (iblk0 V c 1 t) (ix2 p q) = Cert.ReferenceIdeal.RefSide.lin0 (V c main_arg0) (V c main_arg1) (((cfg0.win 2).blk t).view.emb (ix2 p q))
  rw [pay0_apply, blk0_2_emb t p q (row_lt0 t p), lin0_apply]
  refine Finset.sum_congr rfl fun k _ => ?_
  rw [iblk0_0_apply, iblk0_1_apply]

/-- Every entry of the output lies in the block of the point its row falls to, and every point writes back. -/
theorem valcover0_2 (i : S50000x256.Idx) : ∃ t : Fin cfg0.N, (cfg0.win 2).flush t = true ∧ i ∈ ((cfg0.win 2).blk t).view.set := by
  obtain ⟨r, q, rfl⟩ : ∃ (r : Fin 50000) (q : Fin 256), i = ix2 r q := ⟨i 0, i 1, eq_ix2 i⟩
  have hr := r.isLt
  have ht : r.val / 2000 < cfg0.N := by show r.val / 2000 < 25; omega
  have hrow : (⟨r.val / 2000, ht⟩ : Fin cfg0.N).val * 2000 + (⟨r.val % 2000, Nat.mod_lt _ (by omega)⟩ : Fin 2000).val < 50000 := by
    show r.val / 2000 * 2000 + r.val % 2000 < 50000; omega
  refine ⟨⟨r.val / 2000, ht⟩, flush0_2 _, ?_⟩
  have hmem := ((cfg0.win 2).blk ⟨r.val / 2000, ht⟩).view.emb_mem_set (ix2 (⟨r.val % 2000, Nat.mod_lt _ (by omega)⟩ : Fin 2000) q)
  rw [blk0_2_emb _ _ _ hrow] at hmem
  have e : (⟨r.val / 2000 * 2000 + r.val % 2000, hrow⟩ : Fin 50000) = r := Fin.ext (by show r.val / 2000 * 2000 + r.val % 2000 = r.val; omega)
  rw [e] at hmem
  exact hmem

/-- After region 0 the output array is x · W_map of the arrays the region was entered with. -/
theorem arr0_out (c : Dev nD) : (dat0 (F := Ideal) V c).arrAt 2 cfg0.N = Cert.ReferenceIdeal.RefSide.lin0 (V c main_arg0) (V c main_arg1) :=
  (dat0 (F := Ideal) V c).arrAt_eq_of_cover 2 (Cert.ReferenceIdeal.RefSide.lin0 (V c main_arg0) (V c main_arg1))
    (fun t _ => flushed0_2_eq V c t) valcover0_2

end Cert.KernelIdeal.Hand

end
-- ==== Proof.Val1.lean ====
/-
  A layer's transform region: its two output arrays as whole-array functions of what the region was entered with, at the exact-arithmetic
  values: the first is h · W, the second max(h · W_res, 0), h the 50000 × 256 array the region reads in row blocks of
  2000 and W, W_res its two 256 × 256 weight matrices.

  Point t of the 25 writes back rows 2000·t … 2000·t + 1999 of each output. Entry (r, j) of what it writes is
  Σ_k X(r, k) · W(k, j) over the row block X it was handed, and X(r, k) = h(2000·t + r, k): that is entry
  (2000·t + r, j) of h · W. Row i of an output lies in the block of point i / 2000, so the 25 blocks fill the array.
-/
import proofs.«430456_j88974542504687_1_alg».proof.Proof.R1Defs
import proofs.«430456_j88974542504687_1_alg».proof.Proof.RefSide
import proofs.«430456_j88974542504687_1_alg».proof.Proof.ValMatmul
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/- The TensorCore's buffer contents when the region is entered, at the exact-arithmetic values. -/
variable (V : (c : Dev nD) → (b : Ref sig .tc) → Buf (Elt Ideal) ((c : Thread nD τ).loc b))

/-- The printed index maps over the 25 grid points: a row-block window (the input h, both outputs) sits at block row t,
    block column 0; each weight window is the one block (0, 0) at every point. -/
theorem idx_facts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0
    ∧ win1_4.index t (0 : Fin 2) = t.val ∧ win1_4.index t (1 : Fin 2) = 0 :=
  (by decide +kernel : ∀ t : Fin grid1.N, _)

/-- Entry (r, k) of the input's row block at point t is the array's entry (2000·t + r, k). -/
theorem blk1_0_emb (t : Fin cfg1.N) (p : Fin 2000) (k : Fin 256) (hp : t.val * 2000 + p.val < 50000) :
    ((cfg1.win 0).blk t).view.emb (ix2 p k) = ix2 ⟨t.val * 2000 + p.val, hp⟩ k := by
  obtain ⟨ea, eb, -⟩ := idx_facts1 t
  funext a; apply Fin.ext
  match a with
  | ⟨0, _⟩ => show win1_0.index t (0 : Fin 2) * 2000 + 1 * p.val = t.val * 2000 + p.val; omega
  | ⟨1, _⟩ => show win1_0.index t (1 : Fin 2) * 256 + 1 * k.val = k.val; omega

/-- The first weight window's block is the whole matrix: its entry (k, j) is the array's entry (k, j). -/
theorem blk1_1_emb (t : Fin cfg1.N) (k : Fin 256) (q : Fin 256) :
    ((cfg1.win 1).blk t).view.emb (ix2 k q) = ix2 k q := by
  obtain ⟨-, -, ea, eb, -⟩ := idx_facts1 t
  funext a; apply Fin.ext
  match a with
  | ⟨0, _⟩ => show win1_1.index t (0 : Fin 2) * 256 + 1 * k.val = k.val; omega
  | ⟨1, _⟩ => show win1_1.index t (1 : Fin 2) * 256 + 1 * q.val = q.val; omega

/-- So is the second weight window's. -/
theorem blk1_2_emb (t : Fin cfg1.N) (k : Fin 256) (q : Fin 256) :
    ((cfg1.win 2).blk t).view.emb (ix2 k q) = ix2 k q := by
  obtain ⟨-, -, -, -, ea, eb, -⟩ := idx_facts1 t
  funext a; apply Fin.ext
  match a with
  | ⟨0, _⟩ => show win1_2.index t (0 : Fin 2) * 256 + 1 * k.val = k.val; omega
  | ⟨1, _⟩ => show win1_2.index t (1 : Fin 2) * 256 + 1 * q.val = q.val; omega

/-- Entry (r, j) of the first output's row block at point t is the array's entry (2000·t + r, j). -/
theorem blk1_3_emb (t : Fin cfg1.N) (p : Fin 2000) (q : Fin 256) (hp : t.val * 2000 + p.val < 50000) :
    ((cfg1.win 3).blk t).view.emb (ix2 p q) = ix2 ⟨t.val * 2000 + p.val, hp⟩ q := by
  obtain ⟨-, -, -, -, -, -, ea, eb, -⟩ := idx_facts1 t
  funext a; apply Fin.ext
  match a with
  | ⟨0, _⟩ => show win1_3.index t (0 : Fin 2) * 2000 + 1 * p.val = t.val * 2000 + p.val; omega
  | ⟨1, _⟩ => show win1_3.index t (1 : Fin 2) * 256 + 1 * q.val = q.val; omega

/-- And of the second output's. -/
theorem blk1_4_emb (t : Fin cfg1.N) (p : Fin 2000) (q : Fin 256) (hp : t.val * 2000 + p.val < 50000) :
    ((cfg1.win 4).blk t).view.emb (ix2 p q) = ix2 ⟨t.val * 2000 + p.val, hp⟩ q := by
  obtain ⟨-, -, -, -, -, -, -, -, ea, eb⟩ := idx_facts1 t
  funext a; apply Fin.ext
  match a with
  | ⟨0, _⟩ => show win1_4.index t (0 : Fin 2) * 2000 + 1 * p.val = t.val * 2000 + p.val; omega
  | ⟨1, _⟩ => show win1_4.index t (1 : Fin 2) * 256 + 1 * q.val = q.val; omega

/-- A row of a block lies inside the array. -/
theorem row_lt1 (t : Fin cfg1.N) (p : Fin 2000) : t.val * 2000 + p.val < 50000 := by
  have ht : t.val < 25 := t.isLt
  have := p.isLt
  omega

/-- The input's row block at point t, read at (r, k), is the array h at (2000·t + r, k). -/
theorem iblk1_0_apply (c : Dev nD) (t : Fin cfg1.N) (p : Fin 2000) (k : Fin 256) :
    iblk1 V c 0 t (ix2 p k) = V c main_v0 (ix2 ⟨t.val * 2000 + p.val, row_lt1 t p⟩ k) := by
  show V c main_v0 (((cfg1.win 0).blk t).view.emb (ix2 p k)) = _
  rw [blk1_0_emb t p k (row_lt1 t p)]

/-- The first weight block at any point, read at (k, j), is the weight array at (k, j). -/
theorem iblk1_1_apply (c : Dev nD) (t : Fin cfg1.N) (k : Fin 256) (q : Fin 256) :
    iblk1 V c 1 t (ix2 k q) = V c main_arg2 (ix2 k q) := by
  show V c main_arg2 (((cfg1.win 1).blk t).view.emb (ix2 k q)) = _
  rw [blk1_1_emb t k q]

/-- And the second weight block likewise. -/
theorem iblk1_2_apply (c : Dev nD) (t : Fin cfg1.N) (k : Fin 256) (q : Fin 256) :
    iblk1 V c 2 t (ix2 k q) = V c main_arg3 (ix2 k q) := by
  show V c main_arg3 (((cfg1.win 2).blk t).view.emb (ix2 k q)) = _
  rw [blk1_2_emb t k q]

/-- What point t writes back to the first output is block t of h · W. -/
theorem flushed1_3_eq (c : Dev nD) (t : Fin cfg1.N) :
    (dat1 (F := Ideal) V c).flushed 3 t = ((cfg1.win 3).blk t).view.read (Elt Ideal) (Cert.ReferenceIdeal.RefSide.lin (V c main_v0) (V c main_arg2)) := by
  show (cfg1.win 3).cut (grid1.coords t) ((dat1 V c).after 3 t) = _
  rw [after1_3]
  unfold out1_3
  rw [View.canon_unit_zero offsets_zero]
  simp only [View.ld_unit_zero (S := S2000x256) offsets_zero, View.ld_unit_zero (S := S256x256) offsets_zero]
  refine funext fun (j : S2000x256.Idx) => ?_
  obtain ⟨p, q, rfl⟩ : ∃ (p : Fin 2000) (q : Fin 256), j = ix2 p q := ⟨j 0, j 1, eq_ix2 j⟩
  show rowsTimes (iblk1 V c 0 t) (iblk1 V c 1 t) (ix2 p q) = Cert.ReferenceIdeal.RefSide.lin (V c main_v0) (V c main_arg2) (((cfg1.win 3).blk t).view.emb (ix2 p q))
  rw [rowsTimes_apply, blk1_3_emb t p q (row_lt1 t p), lin_apply]
  refine Finset.sum_congr rfl fun k _ => ?_
  rw [iblk1_0_apply, iblk1_1_apply]

/-- What point t writes back to the second output is block t of max(h · W_res, 0). -/
theorem flushed1_4_eq (c : Dev nD) (t : Fin cfg1.N) :
    (dat1 (F := Ideal) V c).flushed 4 t = ((cfg1.win 4).blk t).view.read (Elt Ideal) (Cert.ReferenceIdeal.RefSide.relu (Cert.ReferenceIdeal.RefSide.lin (V c main_v0) (V c main_arg3))) := by
  show (cfg1.win 4).cut (grid1.coords t) ((dat1 V c).after 4 t) = _
  rw [after1_4]
  unfold out1_4
  rw [View.canon_unit_zero offsets_zero]
  simp only [View.ld_unit_zero (S := S2000x256) offsets_zero, View.ld_unit_zero (S := S256x256) offsets_zero]
  refine funext fun (j : S2000x256.Idx) => ?_
  obtain ⟨p, q, rfl⟩ : ∃ (p : Fin 2000) (q : Fin 256), j = ix2 p q := ⟨j 0, j 1, eq_ix2 j⟩
  show rowsTimesRect (iblk1 V c 0 t) (iblk1 V c 2 t) (ix2 p q) = Cert.ReferenceIdeal.RefSide.relu (Cert.ReferenceIdeal.RefSide.lin (V c main_v0) (V c main_arg3)) (((cfg1.win 4).blk t).view.emb (ix2 p q))
  rw [rowsTimesRect_apply, blk1_4_emb t p q (row_lt1 t p), relu_apply, lin_apply]
  refine congrArg (fun z => max z (Ideal.ofBits .f32 0x00000000#32)) (Finset.sum_congr rfl fun k _ => ?_)
  rw [iblk1_0_apply, iblk1_2_apply]

/-- Every entry of the first output lies in the block of the point its row falls to, and every point writes back. -/
theorem valcover1_3 (i : S50000x256.Idx) : ∃ t : Fin cfg1.N, (cfg1.win 3).flush t = true ∧ i ∈ ((cfg1.win 3).blk t).view.set := by
  obtain ⟨r, q, rfl⟩ : ∃ (r : Fin 50000) (q : Fin 256), i = ix2 r q := ⟨i 0, i 1, eq_ix2 i⟩
  have hr := r.isLt
  have ht : r.val / 2000 < cfg1.N := by show r.val / 2000 < 25; omega
  have hrow : (⟨r.val / 2000, ht⟩ : Fin cfg1.N).val * 2000 + (⟨r.val % 2000, Nat.mod_lt _ (by omega)⟩ : Fin 2000).val < 50000 := by
    show r.val / 2000 * 2000 + r.val % 2000 < 50000; omega
  refine ⟨⟨r.val / 2000, ht⟩, flush1_3 _, ?_⟩
  have hmem := ((cfg1.win 3).blk ⟨r.val / 2000, ht⟩).view.emb_mem_set (ix2 (⟨r.val % 2000, Nat.mod_lt _ (by omega)⟩ : Fin 2000) q)
  rw [blk1_3_emb _ _ _ hrow] at hmem
  have e : (⟨r.val / 2000 * 2000 + r.val % 2000, hrow⟩ : Fin 50000) = r := Fin.ext (by show r.val / 2000 * 2000 + r.val % 2000 = r.val; omega)
  rw [e] at hmem
  exact hmem

/-- The same for the second output. -/
theorem valcover1_4 (i : S50000x256.Idx) : ∃ t : Fin cfg1.N, (cfg1.win 4).flush t = true ∧ i ∈ ((cfg1.win 4).blk t).view.set := by
  obtain ⟨r, q, rfl⟩ : ∃ (r : Fin 50000) (q : Fin 256), i = ix2 r q := ⟨i 0, i 1, eq_ix2 i⟩
  have hr := r.isLt
  have ht : r.val / 2000 < cfg1.N := by show r.val / 2000 < 25; omega
  have hrow : (⟨r.val / 2000, ht⟩ : Fin cfg1.N).val * 2000 + (⟨r.val % 2000, Nat.mod_lt _ (by omega)⟩ : Fin 2000).val < 50000 := by
    show r.val / 2000 * 2000 + r.val % 2000 < 50000; omega
  refine ⟨⟨r.val / 2000, ht⟩, flush1_4 _, ?_⟩
  have hmem := ((cfg1.win 4).blk ⟨r.val / 2000, ht⟩).view.emb_mem_set (ix2 (⟨r.val % 2000, Nat.mod_lt _ (by omega)⟩ : Fin 2000) q)
  rw [blk1_4_emb _ _ _ hrow] at hmem
  have e : (⟨r.val / 2000 * 2000 + r.val % 2000, hrow⟩ : Fin 50000) = r := Fin.ext (by show r.val / 2000 * 2000 + r.val % 2000 = r.val; omega)
  rw [e] at hmem
  exact hmem

/-- After the region the first output array is h · W of the arrays the region was entered with. -/
theorem arr1_hw (c : Dev nD) : (dat1 (F := Ideal) V c).arrAt 3 cfg1.N = Cert.ReferenceIdeal.RefSide.lin (V c main_v0) (V c main_arg2) :=
  (dat1 (F := Ideal) V c).arrAt_eq_of_cover 3 (Cert.ReferenceIdeal.RefSide.lin (V c main_v0) (V c main_arg2))
    (fun t _ => flushed1_3_eq V c t) valcover1_3

/-- And the second is max(h · W_res, 0). -/
theorem arr1_hres (c : Dev nD) : (dat1 (F := Ideal) V c).arrAt 4 cfg1.N = Cert.ReferenceIdeal.RefSide.relu (Cert.ReferenceIdeal.RefSide.lin (V c main_v0) (V c main_arg3)) :=
  (dat1 (F := Ideal) V c).arrAt_eq_of_cover 4 (Cert.ReferenceIdeal.RefSide.relu (Cert.ReferenceIdeal.RefSide.lin (V c main_v0) (V c main_arg3)))
    (fun t _ => flushed1_4_eq V c t) valcover1_4

end Cert.KernelIdeal.Hand

end
-- ==== Proof.Val2.lean ====
/-
  Region 2's output array as one function of its two input arrays: every entry is max(a, 0) + b of the entries, at
  the same position, of the aggregate a and of the residual branch b. The body computes this on one block of 2000
  rows; the three windows sit on the same rows at every grid point, and the 25 blocks tile the 50000 rows.
-/
import proofs.«430456_j88974542504687_1_alg».proof.Proof.R2Defs
import proofs.«430456_j88974542504687_1_alg».proof.Proof.RefSide
import Idealize.ShloMosaic.Lib.Pipeline.Value
import Idealize.ShloMosaic.Lib.ValueIdx
import Idealize.ShloMosaic.Lib.KernelVsHost
import Idealize.ShloMosaic.Lib.Decide

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/- The TensorCore's buffer contents when the region is entered, over the extended reals. -/
variable (V : (c : Dev nD) → (b : Ref sig .tc) → Buf (Elt Ideal) ((c : Thread nD τ).loc b))

/-- The offsets of the whole-block rectangle are all zero. -/
theorem blk2_zero : (![0, 0] : Fin 2 → Nat) = fun _ => 0 := funext fun a => by fin_cases a <;> rfl

/-- The body's payload on two loaded blocks: the casts to the same shape drop, leaving max(x, 0) + y as whole
    vectors. -/
theorem pay2_eq (x y : Vec Ideal S2000x256 .f32) :
    k2_pay1 x y = addf (maximumf x (broadcast S2000x256 (Scalar.ofBits .f32 0x00000000#32))) y := by
  unfold k2_pay1
  simp only [shapeCast_self]

/-- Entry by entry: if block entries x j, y j are the array entries a p, b q, and p, q are both the position r, then
    max(x, 0) + y at j is max(a, 0) + b at r, the zero being the same constant on both sides. -/
theorem pay2_at (a b : Vec Ideal S50000x256 .f32) (x y : Vec Ideal S2000x256 .f32) (j : S2000x256.Idx)
    (p q r : S50000x256.Idx) (hx : x j = a p) (hy : y j = b q) (hp : p = r) (hq : q = r) :
    addf (maximumf x (broadcast S2000x256 (Scalar.ofBits .f32 0x00000000#32))) y j
      = addf (Cert.ReferenceIdeal.RefSide.relu a) b r := by
  show FloatOps.addf (F := Ideal) (φ := .f32) (FloatOps.maximumf (F := Ideal) (φ := .f32) (x j) (Scalar.ofBits .f32 0x00000000#32)) (y j)
    = FloatOps.addf (F := Ideal) (φ := .f32) (FloatOps.maximumf (F := Ideal) (φ := .f32) (a r) (Scalar.ofBits .f32 0x00000000#32)) (b r)
  rw [hx, hy, hp, hq]

/-- At every grid point the two input windows sit on the output window's block, and that block is number t along
    the rows and number 0 along the columns (decided over the 25 points). -/
theorem idx_facts2_pts : ∀ t : Fin cfg2.N, win2_0.index t (0 : Fin 2) = win2_2.index t (0 : Fin 2)
    ∧ win2_0.index t (1 : Fin 2) = win2_2.index t (1 : Fin 2)
    ∧ win2_1.index t (0 : Fin 2) = win2_2.index t (0 : Fin 2)
    ∧ win2_1.index t (1 : Fin 2) = win2_2.index t (1 : Fin 2)
    ∧ win2_2.index t (0 : Fin 2) = t.val
    ∧ win2_2.index t (1 : Fin 2) = 0 :=
  (by decide +kernel : ∀ t : Fin grid2.N, _)

/-- What point t writes back is block t of max(a, 0) + b of the two input arrays as the region finds them. -/
theorem flushed2_eq (c : Dev nD) (t : Fin cfg2.N) :
    (dat2 V c).flushed 2 t = ((cfg2.win 2).blk t).view.read (Elt Ideal)
      (addf (Cert.ReferenceIdeal.RefSide.relu (V c main_v11)) (V c main_v1_1)) := by
  show (cfg2.win 2).cut (grid2.coords t) ((dat2 V c).after 2 t) = _
  rw [after2_2]
  unfold out2_2
  rw [View.canon_unit_zero blk2_zero]
  simp only [View.ld_unit_zero (S := S2000x256) blk2_zero]
  rw [pay2_eq]
  obtain ⟨ea, eb, ec, ed, -, -⟩ := idx_facts2_pts t
  funext j
  have h0 : ((cfg2.win 0).blk t).view.emb j = ((cfg2.win 2).blk t).view.emb j := by
    funext a; apply Fin.ext
    match a with
    | ⟨0, _⟩ => show win2_0.index t (0 : Fin 2) * 2000 + 1 * (j 0).val = win2_2.index t (0 : Fin 2) * 2000 + 1 * (j 0).val; rw [ea]
    | ⟨1, _⟩ => show win2_0.index t (1 : Fin 2) * 256 + 1 * (j 1).val = win2_2.index t (1 : Fin 2) * 256 + 1 * (j 1).val; rw [eb]
  have h1 : ((cfg2.win 1).blk t).view.emb j = ((cfg2.win 2).blk t).view.emb j := by
    funext a; apply Fin.ext
    match a with
    | ⟨0, _⟩ => show win2_1.index t (0 : Fin 2) * 2000 + 1 * (j 0).val = win2_2.index t (0 : Fin 2) * 2000 + 1 * (j 0).val; rw [ec]
    | ⟨1, _⟩ => show win2_1.index t (1 : Fin 2) * 256 + 1 * (j 1).val = win2_2.index t (1 : Fin 2) * 256 + 1 * (j 1).val; rw [ed]
  exact pay2_at (V c main_v11) (V c main_v1_1) (iblk2 V c 0 t) (iblk2 V c 1 t) j
    (((cfg2.win 0).blk t).view.emb j) (((cfg2.win 1).blk t).view.emb j) (((cfg2.win 2).blk t).view.emb j) rfl rfl h0 h1

/-- An index of the array is in point t's block iff each coordinate is in the block's range on its axis. -/
theorem mem_blk2_iff (t : Fin cfg2.N) (i : S50000x256.Idx) :
    i ∈ ((cfg2.win 2).blk t).view.set ↔ ∀ a : Fin 2, win2_2.index t a * S2000x256.size a ≤ (i a).val
      ∧ (i a).val < win2_2.index t a * S2000x256.size a + S2000x256.size a := by
  show i ∈ ((View.whole main_v12).slice (win2_2.rect t)).set ↔ _
  rw [View.set_slice_whole, Rect.mem_set_unit]
  exact Iff.rfl

/-- The 25 blocks tile the array: row i is in the block of point i / 2000, and every point writes back. -/
theorem covered2_all (i : S50000x256.Idx) :
    ∃ t : Fin cfg2.N, (cfg2.win 2).flush t = true ∧ i ∈ ((cfg2.win 2).blk t).view.set := by
  have hi0 : (i 0).val < 50000 := (i 0).isLt
  have hi1 : (i 1).val < 256 := (i 1).isLt
  have hN : (i 0).val / 2000 < cfg2.N := by show (i 0).val / 2000 < 25; omega
  obtain ⟨-, -, -, -, er, ek⟩ := idx_facts2_pts ⟨(i 0).val / 2000, hN⟩
  refine ⟨⟨(i 0).val / 2000, hN⟩, flush2_2 _, ?_⟩
  rw [mem_blk2_iff]
  intro a
  match a with
  | ⟨0, _⟩ =>
    show win2_2.index ⟨(i 0).val / 2000, hN⟩ (0 : Fin 2) * 2000 ≤ (i 0).val
      ∧ (i 0).val < win2_2.index ⟨(i 0).val / 2000, hN⟩ (0 : Fin 2) * 2000 + 2000
    rw [er]; show (i 0).val / 2000 * 2000 ≤ (i 0).val ∧ (i 0).val < (i 0).val / 2000 * 2000 + 2000; omega
  | ⟨1, _⟩ =>
    show win2_2.index ⟨(i 0).val / 2000, hN⟩ (1 : Fin 2) * 256 ≤ (i 1).val
      ∧ (i 1).val < win2_2.index ⟨(i 0).val / 2000, hN⟩ (1 : Fin 2) * 256 + 256
    rw [ek]; omega

/-- Region 2's output array after the region: max(a, 0) + b of the aggregate a and the residual branch b. -/
theorem arr2_out (c : Dev nD) :
    (dat2 (F := Ideal) V c).arrAt 2 cfg2.N = addf (Cert.ReferenceIdeal.RefSide.relu (V c main_v11)) (V c main_v1_1) :=
  (dat2 V c).arrAt_eq_of_cover 2 _ (fun t _ => flushed2_eq V c t) covered2_all

end Cert.KernelIdeal.Hand

end
-- ==== Proof.Val3.lean ====
/-
  A layer's transform region: its two output arrays as whole-array functions of what the region was entered with, at the exact-arithmetic
  values: the first is h · W, the second max(h · W_res, 0), h the 50000 × 256 array the region reads in row blocks of
  2000 and W, W_res its two 256 × 256 weight matrices.

  Point t of the 25 writes back rows 2000·t … 2000·t + 1999 of each output. Entry (r, j) of what it writes is
  Σ_k X(r, k) · W(k, j) over the row block X it was handed, and X(r, k) = h(2000·t + r, k): that is entry
  (2000·t + r, j) of h · W. Row i of an output lies in the block of point i / 2000, so the 25 blocks fill the array.
-/
import proofs.«430456_j88974542504687_1_alg».proof.Proof.R3Defs
import proofs.«430456_j88974542504687_1_alg».proof.Proof.RefSide
import proofs.«430456_j88974542504687_1_alg».proof.Proof.ValMatmul
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/- The TensorCore's buffer contents when the region is entered, at the exact-arithmetic values. -/
variable (V : (c : Dev nD) → (b : Ref sig .tc) → Buf (Elt Ideal) ((c : Thread nD τ).loc b))

/-- The printed index maps over the 25 grid points: a row-block window (the input h, both outputs) sits at block row t,
    block column 0; each weight window is the one block (0, 0) at every point. -/
theorem idx_facts3 : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0
    ∧ win3_4.index t (0 : Fin 2) = t.val ∧ win3_4.index t (1 : Fin 2) = 0 :=
  (by decide +kernel : ∀ t : Fin grid3.N, _)

/-- Entry (r, k) of the input's row block at point t is the array's entry (2000·t + r, k). -/
theorem blk3_0_emb (t : Fin cfg3.N) (p : Fin 2000) (k : Fin 256) (hp : t.val * 2000 + p.val < 50000) :
    ((cfg3.win 0).blk t).view.emb (ix2 p k) = ix2 ⟨t.val * 2000 + p.val, hp⟩ k := by
  obtain ⟨ea, eb, -⟩ := idx_facts3 t
  funext a; apply Fin.ext
  match a with
  | ⟨0, _⟩ => show win3_0.index t (0 : Fin 2) * 2000 + 1 * p.val = t.val * 2000 + p.val; omega
  | ⟨1, _⟩ => show win3_0.index t (1 : Fin 2) * 256 + 1 * k.val = k.val; omega

/-- The first weight window's block is the whole matrix: its entry (k, j) is the array's entry (k, j). -/
theorem blk3_1_emb (t : Fin cfg3.N) (k : Fin 256) (q : Fin 256) :
    ((cfg3.win 1).blk t).view.emb (ix2 k q) = ix2 k q := by
  obtain ⟨-, -, ea, eb, -⟩ := idx_facts3 t
  funext a; apply Fin.ext
  match a with
  | ⟨0, _⟩ => show win3_1.index t (0 : Fin 2) * 256 + 1 * k.val = k.val; omega
  | ⟨1, _⟩ => show win3_1.index t (1 : Fin 2) * 256 + 1 * q.val = q.val; omega

/-- So is the second weight window's. -/
theorem blk3_2_emb (t : Fin cfg3.N) (k : Fin 256) (q : Fin 256) :
    ((cfg3.win 2).blk t).view.emb (ix2 k q) = ix2 k q := by
  obtain ⟨-, -, -, -, ea, eb, -⟩ := idx_facts3 t
  funext a; apply Fin.ext
  match a with
  | ⟨0, _⟩ => show win3_2.index t (0 : Fin 2) * 256 + 1 * k.val = k.val; omega
  | ⟨1, _⟩ => show win3_2.index t (1 : Fin 2) * 256 + 1 * q.val = q.val; omega

/-- Entry (r, j) of the first output's row block at point t is the array's entry (2000·t + r, j). -/
theorem blk3_3_emb (t : Fin cfg3.N) (p : Fin 2000) (q : Fin 256) (hp : t.val * 2000 + p.val < 50000) :
    ((cfg3.win 3).blk t).view.emb (ix2 p q) = ix2 ⟨t.val * 2000 + p.val, hp⟩ q := by
  obtain ⟨-, -, -, -, -, -, ea, eb, -⟩ := idx_facts3 t
  funext a; apply Fin.ext
  match a with
  | ⟨0, _⟩ => show win3_3.index t (0 : Fin 2) * 2000 + 1 * p.val = t.val * 2000 + p.val; omega
  | ⟨1, _⟩ => show win3_3.index t (1 : Fin 2) * 256 + 1 * q.val = q.val; omega

/-- And of the second output's. -/
theorem blk3_4_emb (t : Fin cfg3.N) (p : Fin 2000) (q : Fin 256) (hp : t.val * 2000 + p.val < 50000) :
    ((cfg3.win 4).blk t).view.emb (ix2 p q) = ix2 ⟨t.val * 2000 + p.val, hp⟩ q := by
  obtain ⟨-, -, -, -, -, -, -, -, ea, eb⟩ := idx_facts3 t
  funext a; apply Fin.ext
  match a with
  | ⟨0, _⟩ => show win3_4.index t (0 : Fin 2) * 2000 + 1 * p.val = t.val * 2000 + p.val; omega
  | ⟨1, _⟩ => show win3_4.index t (1 : Fin 2) * 256 + 1 * q.val = q.val; omega

/-- A row of a block lies inside the array. -/
theorem row_lt3 (t : Fin cfg3.N) (p : Fin 2000) : t.val * 2000 + p.val < 50000 := by
  have ht : t.val < 25 := t.isLt
  have := p.isLt
  omega

/-- The input's row block at point t, read at (r, k), is the array h at (2000·t + r, k). -/
theorem iblk3_0_apply (c : Dev nD) (t : Fin cfg3.N) (p : Fin 2000) (k : Fin 256) :
    iblk3 V c 0 t (ix2 p k) = V c main_v12 (ix2 ⟨t.val * 2000 + p.val, row_lt3 t p⟩ k) := by
  show V c main_v12 (((cfg3.win 0).blk t).view.emb (ix2 p k)) = _
  rw [blk3_0_emb t p k (row_lt3 t p)]

/-- The first weight block at any point, read at (k, j), is the weight array at (k, j). -/
theorem iblk3_1_apply (c : Dev nD) (t : Fin cfg3.N) (k : Fin 256) (q : Fin 256) :
    iblk3 V c 1 t (ix2 k q) = V c main_arg4 (ix2 k q) := by
  show V c main_arg4 (((cfg3.win 1).blk t).view.emb (ix2 k q)) = _
  rw [blk3_1_emb t k q]

/-- And the second weight block likewise. -/
theorem iblk3_2_apply (c : Dev nD) (t : Fin cfg3.N) (k : Fin 256) (q : Fin 256) :
    iblk3 V c 2 t (ix2 k q) = V c main_arg5 (ix2 k q) := by
  show V c main_arg5 (((cfg3.win 2).blk t).view.emb (ix2 k q)) = _
  rw [blk3_2_emb t k q]

/-- What point t writes back to the first output is block t of h · W. -/
theorem flushed3_3_eq (c : Dev nD) (t : Fin cfg3.N) :
    (dat3 (F := Ideal) V c).flushed 3 t = ((cfg3.win 3).blk t).view.read (Elt Ideal) (Cert.ReferenceIdeal.RefSide.lin (V c main_v12) (V c main_arg4)) := by
  show (cfg3.win 3).cut (grid3.coords t) ((dat3 V c).after 3 t) = _
  rw [after3_3]
  unfold out3_3
  rw [View.canon_unit_zero offsets_zero]
  simp only [View.ld_unit_zero (S := S2000x256) offsets_zero, View.ld_unit_zero (S := S256x256) offsets_zero]
  refine funext fun (j : S2000x256.Idx) => ?_
  obtain ⟨p, q, rfl⟩ : ∃ (p : Fin 2000) (q : Fin 256), j = ix2 p q := ⟨j 0, j 1, eq_ix2 j⟩
  show rowsTimes (iblk3 V c 0 t) (iblk3 V c 1 t) (ix2 p q) = Cert.ReferenceIdeal.RefSide.lin (V c main_v12) (V c main_arg4) (((cfg3.win 3).blk t).view.emb (ix2 p q))
  rw [rowsTimes_apply, blk3_3_emb t p q (row_lt3 t p), lin_apply]
  refine Finset.sum_congr rfl fun k _ => ?_
  rw [iblk3_0_apply, iblk3_1_apply]

/-- What point t writes back to the second output is block t of max(h · W_res, 0). -/
theorem flushed3_4_eq (c : Dev nD) (t : Fin cfg3.N) :
    (dat3 (F := Ideal) V c).flushed 4 t = ((cfg3.win 4).blk t).view.read (Elt Ideal) (Cert.ReferenceIdeal.RefSide.relu (Cert.ReferenceIdeal.RefSide.lin (V c main_v12) (V c main_arg5))) := by
  show (cfg3.win 4).cut (grid3.coords t) ((dat3 V c).after 4 t) = _
  rw [after3_4]
  unfold out3_4
  rw [View.canon_unit_zero offsets_zero]
  simp only [View.ld_unit_zero (S := S2000x256) offsets_zero, View.ld_unit_zero (S := S256x256) offsets_zero]
  refine funext fun (j : S2000x256.Idx) => ?_
  obtain ⟨p, q, rfl⟩ : ∃ (p : Fin 2000) (q : Fin 256), j = ix2 p q := ⟨j 0, j 1, eq_ix2 j⟩
  show rowsTimesRect (iblk3 V c 0 t) (iblk3 V c 2 t) (ix2 p q) = Cert.ReferenceIdeal.RefSide.relu (Cert.ReferenceIdeal.RefSide.lin (V c main_v12) (V c main_arg5)) (((cfg3.win 4).blk t).view.emb (ix2 p q))
  rw [rowsTimesRect_apply, blk3_4_emb t p q (row_lt3 t p), relu_apply, lin_apply]
  refine congrArg (fun z => max z (Ideal.ofBits .f32 0x00000000#32)) (Finset.sum_congr rfl fun k _ => ?_)
  rw [iblk3_0_apply, iblk3_2_apply]

/-- Every entry of the first output lies in the block of the point its row falls to, and every point writes back. -/
theorem valcover3_3 (i : S50000x256.Idx) : ∃ t : Fin cfg3.N, (cfg3.win 3).flush t = true ∧ i ∈ ((cfg3.win 3).blk t).view.set := by
  obtain ⟨r, q, rfl⟩ : ∃ (r : Fin 50000) (q : Fin 256), i = ix2 r q := ⟨i 0, i 1, eq_ix2 i⟩
  have hr := r.isLt
  have ht : r.val / 2000 < cfg3.N := by show r.val / 2000 < 25; omega
  have hrow : (⟨r.val / 2000, ht⟩ : Fin cfg3.N).val * 2000 + (⟨r.val % 2000, Nat.mod_lt _ (by omega)⟩ : Fin 2000).val < 50000 := by
    show r.val / 2000 * 2000 + r.val % 2000 < 50000; omega
  refine ⟨⟨r.val / 2000, ht⟩, flush3_3 _, ?_⟩
  have hmem := ((cfg3.win 3).blk ⟨r.val / 2000, ht⟩).view.emb_mem_set (ix2 (⟨r.val % 2000, Nat.mod_lt _ (by omega)⟩ : Fin 2000) q)
  rw [blk3_3_emb _ _ _ hrow] at hmem
  have e : (⟨r.val / 2000 * 2000 + r.val % 2000, hrow⟩ : Fin 50000) = r := Fin.ext (by show r.val / 2000 * 2000 + r.val % 2000 = r.val; omega)
  rw [e] at hmem
  exact hmem

/-- The same for the second output. -/
theorem valcover3_4 (i : S50000x256.Idx) : ∃ t : Fin cfg3.N, (cfg3.win 4).flush t = true ∧ i ∈ ((cfg3.win 4).blk t).view.set := by
  obtain ⟨r, q, rfl⟩ : ∃ (r : Fin 50000) (q : Fin 256), i = ix2 r q := ⟨i 0, i 1, eq_ix2 i⟩
  have hr := r.isLt
  have ht : r.val / 2000 < cfg3.N := by show r.val / 2000 < 25; omega
  have hrow : (⟨r.val / 2000, ht⟩ : Fin cfg3.N).val * 2000 + (⟨r.val % 2000, Nat.mod_lt _ (by omega)⟩ : Fin 2000).val < 50000 := by
    show r.val / 2000 * 2000 + r.val % 2000 < 50000; omega
  refine ⟨⟨r.val / 2000, ht⟩, flush3_4 _, ?_⟩
  have hmem := ((cfg3.win 4).blk ⟨r.val / 2000, ht⟩).view.emb_mem_set (ix2 (⟨r.val % 2000, Nat.mod_lt _ (by omega)⟩ : Fin 2000) q)
  rw [blk3_4_emb _ _ _ hrow] at hmem
  have e : (⟨r.val / 2000 * 2000 + r.val % 2000, hrow⟩ : Fin 50000) = r := Fin.ext (by show r.val / 2000 * 2000 + r.val % 2000 = r.val; omega)
  rw [e] at hmem
  exact hmem

/-- After the region the first output array is h · W of the arrays the region was entered with. -/
theorem arr3_hw (c : Dev nD) : (dat3 (F := Ideal) V c).arrAt 3 cfg3.N = Cert.ReferenceIdeal.RefSide.lin (V c main_v12) (V c main_arg4) :=
  (dat3 (F := Ideal) V c).arrAt_eq_of_cover 3 (Cert.ReferenceIdeal.RefSide.lin (V c main_v12) (V c main_arg4))
    (fun t _ => flushed3_3_eq V c t) valcover3_3

/-- And the second is max(h · W_res, 0). -/
theorem arr3_hres (c : Dev nD) : (dat3 (F := Ideal) V c).arrAt 4 cfg3.N = Cert.ReferenceIdeal.RefSide.relu (Cert.ReferenceIdeal.RefSide.lin (V c main_v12) (V c main_arg5)) :=
  (dat3 (F := Ideal) V c).arrAt_eq_of_cover 4 (Cert.ReferenceIdeal.RefSide.relu (Cert.ReferenceIdeal.RefSide.lin (V c main_v12) (V c main_arg5)))
    (fun t _ => flushed3_4_eq V c t) valcover3_4

end Cert.KernelIdeal.Hand

end
-- ==== Proof.Val4.lean ====
/-
  Region 4's output array as one function of its two input arrays: every entry is max(a, 0) + b of the entries, at
  the same position, of the aggregate a and of the residual branch b. The body computes this on one block of 2000
  rows; the three windows sit on the same rows at every grid point, and the 25 blocks tile the 50000 rows.
-/
import proofs.«430456_j88974542504687_1_alg».proof.Proof.R4Defs
import proofs.«430456_j88974542504687_1_alg».proof.Proof.RefSide
import Idealize.ShloMosaic.Lib.Pipeline.Value
import Idealize.ShloMosaic.Lib.ValueIdx
import Idealize.ShloMosaic.Lib.KernelVsHost
import Idealize.ShloMosaic.Lib.Decide

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/- The TensorCore's buffer contents when the region is entered, over the extended reals. -/
variable (V : (c : Dev nD) → (b : Ref sig .tc) → Buf (Elt Ideal) ((c : Thread nD τ).loc b))

/-- The offsets of the whole-block rectangle are all zero. -/
theorem blk4_zero : (![0, 0] : Fin 2 → Nat) = fun _ => 0 := funext fun a => by fin_cases a <;> rfl

/-- The body's payload on two loaded blocks: the casts to the same shape drop, leaving max(x, 0) + y as whole
    vectors. -/
theorem pay4_eq (x y : Vec Ideal S2000x256 .f32) :
    k4_pay1 x y = addf (maximumf x (broadcast S2000x256 (Scalar.ofBits .f32 0x00000000#32))) y := by
  unfold k4_pay1
  simp only [shapeCast_self]

/-- Entry by entry: if block entries x j, y j are the array entries a p, b q, and p, q are both the position r, then
    max(x, 0) + y at j is max(a, 0) + b at r, the zero being the same constant on both sides. -/
theorem pay4_at (a b : Vec Ideal S50000x256 .f32) (x y : Vec Ideal S2000x256 .f32) (j : S2000x256.Idx)
    (p q r : S50000x256.Idx) (hx : x j = a p) (hy : y j = b q) (hp : p = r) (hq : q = r) :
    addf (maximumf x (broadcast S2000x256 (Scalar.ofBits .f32 0x00000000#32))) y j
      = addf (Cert.ReferenceIdeal.RefSide.relu a) b r := by
  show FloatOps.addf (F := Ideal) (φ := .f32) (FloatOps.maximumf (F := Ideal) (φ := .f32) (x j) (Scalar.ofBits .f32 0x00000000#32)) (y j)
    = FloatOps.addf (F := Ideal) (φ := .f32) (FloatOps.maximumf (F := Ideal) (φ := .f32) (a r) (Scalar.ofBits .f32 0x00000000#32)) (b r)
  rw [hx, hy, hp, hq]

/-- At every grid point the two input windows sit on the output window's block, and that block is number t along
    the rows and number 0 along the columns (decided over the 25 points). -/
theorem idx_facts4_pts : ∀ t : Fin cfg4.N, win4_0.index t (0 : Fin 2) = win4_2.index t (0 : Fin 2)
    ∧ win4_0.index t (1 : Fin 2) = win4_2.index t (1 : Fin 2)
    ∧ win4_1.index t (0 : Fin 2) = win4_2.index t (0 : Fin 2)
    ∧ win4_1.index t (1 : Fin 2) = win4_2.index t (1 : Fin 2)
    ∧ win4_2.index t (0 : Fin 2) = t.val
    ∧ win4_2.index t (1 : Fin 2) = 0 :=
  (by decide +kernel : ∀ t : Fin grid4.N, _)

/-- What point t writes back is block t of max(a, 0) + b of the two input arrays as the region finds them. -/
theorem flushed4_eq (c : Dev nD) (t : Fin cfg4.N) :
    (dat4 V c).flushed 2 t = ((cfg4.win 2).blk t).view.read (Elt Ideal)
      (addf (Cert.ReferenceIdeal.RefSide.relu (V c main_v23)) (V c main_v13_1)) := by
  show (cfg4.win 2).cut (grid4.coords t) ((dat4 V c).after 2 t) = _
  rw [after4_2]
  unfold out4_2
  rw [View.canon_unit_zero blk4_zero]
  simp only [View.ld_unit_zero (S := S2000x256) blk4_zero]
  rw [pay4_eq]
  obtain ⟨ea, eb, ec, ed, -, -⟩ := idx_facts4_pts t
  funext j
  have h0 : ((cfg4.win 0).blk t).view.emb j = ((cfg4.win 2).blk t).view.emb j := by
    funext a; apply Fin.ext
    match a with
    | ⟨0, _⟩ => show win4_0.index t (0 : Fin 2) * 2000 + 1 * (j 0).val = win4_2.index t (0 : Fin 2) * 2000 + 1 * (j 0).val; rw [ea]
    | ⟨1, _⟩ => show win4_0.index t (1 : Fin 2) * 256 + 1 * (j 1).val = win4_2.index t (1 : Fin 2) * 256 + 1 * (j 1).val; rw [eb]
  have h1 : ((cfg4.win 1).blk t).view.emb j = ((cfg4.win 2).blk t).view.emb j := by
    funext a; apply Fin.ext
    match a with
    | ⟨0, _⟩ => show win4_1.index t (0 : Fin 2) * 2000 + 1 * (j 0).val = win4_2.index t (0 : Fin 2) * 2000 + 1 * (j 0).val; rw [ec]
    | ⟨1, _⟩ => show win4_1.index t (1 : Fin 2) * 256 + 1 * (j 1).val = win4_2.index t (1 : Fin 2) * 256 + 1 * (j 1).val; rw [ed]
  exact pay4_at (V c main_v23) (V c main_v13_1) (iblk4 V c 0 t) (iblk4 V c 1 t) j
    (((cfg4.win 0).blk t).view.emb j) (((cfg4.win 1).blk t).view.emb j) (((cfg4.win 2).blk t).view.emb j) rfl rfl h0 h1

/-- An index of the array is in point t's block iff each coordinate is in the block's range on its axis. -/
theorem mem_blk4_iff (t : Fin cfg4.N) (i : S50000x256.Idx) :
    i ∈ ((cfg4.win 2).blk t).view.set ↔ ∀ a : Fin 2, win4_2.index t a * S2000x256.size a ≤ (i a).val
      ∧ (i a).val < win4_2.index t a * S2000x256.size a + S2000x256.size a := by
  show i ∈ ((View.whole main_v24).slice (win4_2.rect t)).set ↔ _
  rw [View.set_slice_whole, Rect.mem_set_unit]
  exact Iff.rfl

/-- The 25 blocks tile the array: row i is in the block of point i / 2000, and every point writes back. -/
theorem covered4_all (i : S50000x256.Idx) :
    ∃ t : Fin cfg4.N, (cfg4.win 2).flush t = true ∧ i ∈ ((cfg4.win 2).blk t).view.set := by
  have hi0 : (i 0).val < 50000 := (i 0).isLt
  have hi1 : (i 1).val < 256 := (i 1).isLt
  have hN : (i 0).val / 2000 < cfg4.N := by show (i 0).val / 2000 < 25; omega
  obtain ⟨-, -, -, -, er, ek⟩ := idx_facts4_pts ⟨(i 0).val / 2000, hN⟩
  refine ⟨⟨(i 0).val / 2000, hN⟩, flush4_2 _, ?_⟩
  rw [mem_blk4_iff]
  intro a
  match a with
  | ⟨0, _⟩ =>
    show win4_2.index ⟨(i 0).val / 2000, hN⟩ (0 : Fin 2) * 2000 ≤ (i 0).val
      ∧ (i 0).val < win4_2.index ⟨(i 0).val / 2000, hN⟩ (0 : Fin 2) * 2000 + 2000
    rw [er]; show (i 0).val / 2000 * 2000 ≤ (i 0).val ∧ (i 0).val < (i 0).val / 2000 * 2000 + 2000; omega
  | ⟨1, _⟩ =>
    show win4_2.index ⟨(i 0).val / 2000, hN⟩ (1 : Fin 2) * 256 ≤ (i 1).val
      ∧ (i 1).val < win4_2.index ⟨(i 0).val / 2000, hN⟩ (1 : Fin 2) * 256 + 256
    rw [ek]; omega

/-- Region 4's output array after the region: max(a, 0) + b of the aggregate a and the residual branch b. -/
theorem arr4_out (c : Dev nD) :
    (dat4 (F := Ideal) V c).arrAt 2 cfg4.N = addf (Cert.ReferenceIdeal.RefSide.relu (V c main_v23)) (V c main_v13_1) :=
  (dat4 V c).arrAt_eq_of_cover 2 _ (fun t _ => flushed4_eq V c t) covered4_all

end Cert.KernelIdeal.Hand

end
-- ==== Proof.LibIndexing.lean ====
/-
  READING A GATHER AND A SCATTER-ADD AT AN INDEX, at any extents.

  A row gather `x[idx]` of a table `[N, D]` and a vector gather of `[N]`, both at a column of start indices `[E, 1]`:
  the result's element is the operand's at the start index read as a signed integer and clamped into `[0, N − 1]`
  (`gather_rows_apply`, `gather_vec_apply`). A row scatter-add into `[N, D]` and a vector scatter-add into `[N]`, at a
  column of scatter indices `[E, 1]`, over the extended reals: the result's element is the operand's plus the sum of
  the updates whose scatter index, read signed and not clamped, is that element's row
  (`scatterAdd_rows_apply`, `scatterAdd_vec_apply`); an update whose index is outside `[0, N)` lands nowhere.
-/
import Idealize.ShloMosaic.Lib.ValueIdx
import Idealize.ShloMosaic.Lib.ValueIdxRank1

noncomputable section

open scoped BigOperators

namespace Cert.LibIndexing

open Idealize.ShloMosaic Idealize.ShloMosaic.ValueIdx

/-! ## A row gather: `x[idx]` of a table `x : [N, D]` at a column of start indices `idx : [E, 1]`

Result element `(e, j)` is the table's row at the start index `idx[e, 0]`, read as a signed integer and clamped into
`[0, N − 1]`, at column `j`. -/

section Gather
variable {α : Type}

/-- The dimension numbers of a row gather: operand `[N, D]`, start indices `[E, 1]`, result `[E, D]`; the result's
    axis 1 is the offset axis, the operand's axis 0 is collapsed and is the one the start index names, whole rows
    `[1, D]` are sliced. -/
abbrev rowGatherDims (N D E : Nat)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- THE ROW GATHER READ AT `(e, j)`: the table at row `idx[e, 0]` (signed, clamped into `[0, N − 1]`) and column `j`. -/
theorem gather_rows_apply {N D E w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (j : Fin D) :
    Host.gather (rowGatherDims N D E wf) x idx (ix2 e j)
      = x (ix2 ⟨min (idx (ix2 e 0)).toInt.toNat (N - 1), by omega⟩ j) := by
  unfold Host.gather
  congr 1
  funext a
  refine Fin.ext ?_
  match a with
  | ⟨0, _⟩ =>
    show (rowGatherDims N D E wf).start (ix2 e j) idx 0 + (rowGatherDims N D E wf).batchCoord (ix2 e j) 0
        + (rowGatherDims N D E wf).offCoord (ix2 e j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N D E wf).startIndexMap from List.mem_singleton.mpr rfl)]
    have hsi : (rowGatherDims N D E wf).siIdx (ix2 e j) ⟨List.idxOf (0 : Fin 2) (rowGatherDims N D E wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowGatherDims N D E wf).start (ix2 e j) idx 1 + (rowGatherDims N D E wf).batchCoord (ix2 e j) 1
        + (rowGatherDims N D E wf).offCoord (ix2 e j) 1 = _
    rw [GatherDims.batchCoord_eq_zero _ _ _ List.not_mem_nil]
    unfold GatherDims.start
    rw [dif_neg (show (1 : Fin 2) ∉ (rowGatherDims N D E wf).startIndexMap from
      fun h => absurd (congrArg Fin.val (List.mem_singleton.mp h)) Nat.one_ne_zero)]
    simp only [Nat.add_zero, Nat.zero_add]
    rfl

/-! ## A vector gather: `x[idx]` of a vector `x : [N]` at a column of start indices `idx : [E, 1]` -/

/-- The dimension numbers of a vector gather: operand `[N]`, start indices `[E, 1]`, result `[E]`; no offset axis, the
    operand's one axis is collapsed and is the one the start index names, single elements `[1]` are sliced. -/
abbrev vecGatherDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- THE VECTOR GATHER READ AT `e`: the vector at `idx[e, 0]` (signed, clamped into `[0, N − 1]`). -/
theorem gather_vec_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecGatherDims N E wf) x idx (ix1 e)
      = x (ix1 ⟨min (idx (ix2 e 0)).toInt.toNat (N - 1), by omega⟩) := by
  unfold Host.gather
  congr 1
  funext a
  obtain rfl : a = 0 := Subsingleton.elim _ _
  refine Fin.ext ?_
  show (vecGatherDims N E wf).start (ix1 e) idx 0 + (vecGatherDims N E wf).batchCoord (ix1 e) 0
      + (vecGatherDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims N E wf).startIndexMap from List.mem_singleton.mpr rfl)]
  have hsi : (vecGatherDims N E wf).siIdx (ix1 e) ⟨List.idxOf (0 : Fin 1) (vecGatherDims N E wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

end Gather

/-! ## A row scatter-add: `x.at[idx].add(upd)` of a table `x : [N, D]`, a column of scatter indices `idx : [E, 1]` and
update rows `upd : [E, D]`, at the exact instance

Update element `(e, j)` lands at row `idx[e, 0]` (read signed, not clamped) and column `j`, and is dropped when that row is
outside `[0, N)`. So element `(n, j)` of the result is `x (n, j)` plus the sum of `upd (e, j)` over the `e` whose index is `n`. -/

section ScatterRows
variable {N D E w : Nat}

/-- The dimension numbers of a row scatter: operand `[N, D]`, scatter indices `[E, 1]`, updates `[E, D]`; the updates'
    axis 1 is the window axis, the operand's axis 0 is inserted and is the one the scatter index names. -/
abbrev rowScatterDims (N D E : Nat)
    (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

variable (wf : ScatterDims.WF ⟨2, ![N, D]⟩ ⟨2, ![E, 1]⟩ ⟨2, ![E, D]⟩ [1] [0] [0] 1) (idx : IVec ⟨2, ![E, 1]⟩ w)

/-- On the operand's row axis the window starts at the scatter index, read signed. -/
theorem rowScatter_start0 (e : Fin E) (j : Fin D) :
    (rowScatterDims N D E wf).start (ix2 e j) idx 0 = (idx (ix2 e 0)).toInt := by
  unfold ScatterDims.start
  rw [dif_pos (show (0 : Fin 2) ∈ (rowScatterDims N D E wf).scatterDimsToOperandDims from List.mem_singleton.mpr rfl)]
  have hsi : (rowScatterDims N D E wf).siIdx (ix2 e j)
      ⟨List.idxOf (0 : Fin 2) (rowScatterDims N D E wf).scatterDimsToOperandDims,
        List.idxOf_lt_length_iff.2 (List.mem_singleton.mpr rfl)⟩ = ix2 e 0 := by
    funext b; refine Fin.ext ?_
    match b with
    | ⟨0, _⟩ => rfl
    | ⟨1, _⟩ => rfl
  rw [hsi]

/-- On the operand's column axis the window starts at `0`. -/
theorem rowScatter_start1 (e : Fin E) (j : Fin D) : (rowScatterDims N D E wf).start (ix2 e j) idx 1 = 0 := by
  unfold ScatterDims.start
  rw [dif_neg (show (1 : Fin 2) ∉ (rowScatterDims N D E wf).scatterDimsToOperandDims from
    fun h => absurd (congrArg Fin.val (List.mem_singleton.mp h)) Nat.one_ne_zero)]

/-- The operand's axes that are not inserted: the column axis alone. -/
theorem rowScatter_sKept : (rowScatterDims N D E wf).sKept = [1] := rfl

/-- The row axis is inserted: no window coordinate there. -/
theorem rowScatter_window0 (e : Fin E) (j : Fin D) : (rowScatterDims N D E wf).window (ix2 e j) 0 = 0 := by
  unfold ScatterDims.window
  rw [dif_neg (show (0 : Fin 2) ∉ (rowScatterDims N D E wf).sKept from by
    rw [rowScatter_sKept]; exact fun h => absurd (congrArg Fin.val (List.mem_singleton.mp h)) Nat.zero_ne_one)]

/-- On the column axis the window coordinate is the update's column. -/
theorem rowScatter_window1 (e : Fin E) (j : Fin D) : (rowScatterDims N D E wf).window (ix2 e j) 1 = j.val := by
  unfold ScatterDims.window
  rw [dif_pos (show (1 : Fin 2) ∈ (rowScatterDims N D E wf).sKept from by
    rw [rowScatter_sKept]; exact List.mem_singleton.mpr rfl)]
  rfl

/-- WHERE AN UPDATE LANDS: update element `(e, j')` lands on operand element `(n, j)` exactly when the scatter index
    `idx[e, 0]`, read signed, is `n` and the columns agree. -/
theorem rowScatter_resultIdx?_eq_some (e : Fin E) (j' : Fin D) (n : Fin N) (j : Fin D) :
    (rowScatterDims N D E wf).resultIdx? (ix2 e j') idx = some (ix2 n j)
      ↔ (idx (ix2 e 0)).toInt = (n.val : Int) ∧ j' = j := by
  have hs0 := rowScatter_start0 wf idx e j'
  have hs1 := rowScatter_start1 wf idx e j'
  have hw0 := rowScatter_window0 wf e j'
  have hw1 := rowScatter_window1 wf e j'
  unfold ScatterDims.resultIdx?
  split
  · rename_i h
    rw [Option.some.injEq]
    constructor
    · intro heq
      have h0 : ((rowScatterDims N D E wf).start (ix2 e j') idx 0 + ((rowScatterDims N D E wf).window (ix2 e j') 0 : Nat)).toNat
          = n.val := congrArg (fun i : (⟨2, ![N, D]⟩ : Shape).Idx => (i 0).val) heq
      have h1 : ((rowScatterDims N D E wf).start (ix2 e j') idx 1 + ((rowScatterDims N D E wf).window (ix2 e j') 1 : Nat)).toNat
          = j.val := congrArg (fun i : (⟨2, ![N, D]⟩ : Shape).Idx => (i 1).val) heq
      have hh := (h 0).1
      rw [hs0, hw0] at h0 hh
      rw [hs1, hw1] at h1
      refine ⟨by omega, Fin.ext (by omega)⟩
    · rintro ⟨ht, rfl⟩
      funext a; refine Fin.ext ?_
      match a with
      | ⟨0, _⟩ =>
        show ((rowScatterDims N D E wf).start (ix2 e j') idx 0 + ((rowScatterDims N D E wf).window (ix2 e j') 0 : Nat)).toNat = n.val
        rw [hs0, hw0]; omega
      | ⟨1, _⟩ =>
        show ((rowScatterDims N D E wf).start (ix2 e j') idx 1 + ((rowScatterDims N D E wf).window (ix2 e j') 1 : Nat)).toNat = j'.val
        rw [hs1, hw1]; omega
  · rename_i h
    refine iff_of_false (fun hc => Option.some_ne_none _ hc.symm) ?_
    rintro ⟨ht, rfl⟩
    refine h fun a => ?_
    match a with
    | ⟨0, _⟩ =>
      show 0 ≤ (rowScatterDims N D E wf).start (ix2 e j') idx 0 + ((rowScatterDims N D E wf).window (ix2 e j') 0 : Nat)
        ∧ (rowScatterDims N D E wf).start (ix2 e j') idx 0 + ((rowScatterDims N D E wf).window (ix2 e j') 0 : Nat) < (N : Int)
      rw [hs0, hw0]; have := n.isLt; omega
    | ⟨1, _⟩ =>
      show 0 ≤ (rowScatterDims N D E wf).start (ix2 e j') idx 1 + ((rowScatterDims N D E wf).window (ix2 e j') 1 : Nat)
        ∧ (rowScatterDims N D E wf).start (ix2 e j') idx 1 + ((rowScatterDims N D E wf).window (ix2 e j') 1 : Nat) < (D : Int)
      rw [hs1, hw1]; have := j'.isLt; omega

/-- THE ROW SCATTER-ADD READ AT `(n, j)`: the operand's element plus the sum of the updates `upd (e, j)` over the `e`
    whose scatter index `idx[e, 0]`, read signed, is `n`. -/
theorem scatterAdd_rows_apply {φ : FTy} (x : FVec Ideal ⟨2, ![N, D]⟩ φ) (upd : FVec Ideal ⟨2, ![E, D]⟩ φ)
    (n : Fin N) (j : Fin D) :
    Host.scatterAdd (rowScatterDims N D E wf) x idx upd (ix2 n j)
      = x (ix2 n j) + ∑ e ∈ Finset.univ.filter (fun e : Fin E => (idx (ix2 e 0)).toInt = (n.val : Int)), upd (ix2 e j) := by
  show x (ix2 n j) + ∑ i ∈ Finset.univ.filter
      (fun i => (rowScatterDims N D E wf).resultIdx? i idx = some (ix2 n j)), upd i = _
  congr 1
  rw [Finset.sum_filter, sum_idx2, Finset.sum_filter]
  refine Finset.sum_congr rfl fun e _ => ?_
  simp only [rowScatter_resultIdx?_eq_some]
  by_cases ht : (idx (ix2 e 0)).toInt = (n.val : Int)
  · simp only [ht, true_and, if_true]
    rw [Finset.sum_ite_eq' Finset.univ j (fun b => upd (ix2 e b))]
    simp
  · simp only [ht, false_and, if_false, Finset.sum_const_zero]

end ScatterRows

/-! ## A vector scatter-add: `x.at[idx].add(upd)` of a vector `x : [N]`, a column of scatter indices `idx : [E, 1]` and
updates `upd : [E]`, at the exact instance -/

section ScatterVec
variable {N E w : Nat}

/-- A sum over a rank-1 shape's indices is the sum over the coordinate. -/
theorem sum_idx1 {M : Type*} [AddCommMonoid M] {n : Nat} (f : (⟨1, ![n]⟩ : Shape).Idx → M) :
    ∑ i, f i = ∑ a : Fin n, f (ix1 a) :=
  (Equiv.sum_comp (idxEquiv1 (n := n)).symm f).symm

/-- The dimension numbers of a vector scatter: operand `[N]`, scatter indices `[E, 1]`, updates `[E]`; no window axis,
    the operand's one axis is inserted and is the one the scatter index names. -/
abbrev vecScatterDims (N E : Nat)
    (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

variable (wf : ScatterDims.WF ⟨1, ![N]⟩ ⟨2, ![E, 1]⟩ ⟨1, ![E]⟩ [] [0] [0] 1) (idx : IVec ⟨2, ![E, 1]⟩ w)

/-- On the operand's one axis the window starts at the scatter index, read signed. -/
theorem vecScatter_start0 (e : Fin E) :
    (vecScatterDims N E wf).start (ix1 e) idx 0 = (idx (ix2 e 0)).toInt := by
  unfold ScatterDims.start
  rw [dif_pos (show (0 : Fin 1) ∈ (vecScatterDims N E wf).scatterDimsToOperandDims from List.mem_singleton.mpr rfl)]
  have hsi : (vecScatterDims N E wf).siIdx (ix1 e)
      ⟨List.idxOf (0 : Fin 1) (vecScatterDims N E wf).scatterDimsToOperandDims,
        List.idxOf_lt_length_iff.2 (List.mem_singleton.mpr rfl)⟩ = ix2 e 0 := by
    funext b; refine Fin.ext ?_
    match b with
    | ⟨0, _⟩ => rfl
    | ⟨1, _⟩ => rfl
  rw [hsi]

/-- The operand's one axis is inserted: none is kept. -/
theorem vecScatter_sKept : (vecScatterDims N E wf).sKept = [] := rfl

/-- No window coordinate on the inserted axis. -/
theorem vecScatter_window0 (e : Fin E) : (vecScatterDims N E wf).window (ix1 e) 0 = 0 := by
  unfold ScatterDims.window
  rw [dif_neg (show (0 : Fin 1) ∉ (vecScatterDims N E wf).sKept from by
    rw [vecScatter_sKept]; exact List.not_mem_nil)]

/-- WHERE AN UPDATE LANDS: update element `e` lands on operand element `n` exactly when the scatter index `idx[e, 0]`,
    read signed, is `n`. -/
theorem vecScatter_resultIdx?_eq_some (e : Fin E) (n : Fin N) :
    (vecScatterDims N E wf).resultIdx? (ix1 e) idx = some (ix1 n) ↔ (idx (ix2 e 0)).toInt = (n.val : Int) := by
  have hs0 := vecScatter_start0 wf idx e
  have hw0 := vecScatter_window0 wf e
  unfold ScatterDims.resultIdx?
  split
  · rename_i h
    rw [Option.some.injEq]
    constructor
    · intro heq
      have h0 : ((vecScatterDims N E wf).start (ix1 e) idx 0 + ((vecScatterDims N E wf).window (ix1 e) 0 : Nat)).toNat
          = n.val := congrArg (fun i : (⟨1, ![N]⟩ : Shape).Idx => (i 0).val) heq
      have hh := (h 0).1
      rw [hs0, hw0] at h0 hh
      omega
    · intro ht
      funext a; refine Fin.ext ?_
      match a with
      | ⟨0, _⟩ =>
        show ((vecScatterDims N E wf).start (ix1 e) idx 0 + ((vecScatterDims N E wf).window (ix1 e) 0 : Nat)).toNat = n.val
        rw [hs0, hw0]; omega
  · rename_i h
    refine iff_of_false (fun hc => Option.some_ne_none _ hc.symm) ?_
    intro ht
    refine h fun a => ?_
    match a with
    | ⟨0, _⟩ =>
      show 0 ≤ (vecScatterDims N E wf).start (ix1 e) idx 0 + ((vecScatterDims N E wf).window (ix1 e) 0 : Nat)
        ∧ (vecScatterDims N E wf).start (ix1 e) idx 0 + ((vecScatterDims N E wf).window (ix1 e) 0 : Nat) < (N : Int)
      rw [hs0, hw0]; have := n.isLt; omega

/-- THE VECTOR SCATTER-ADD READ AT `n`: the operand's element plus the sum of the updates `upd e` over the `e` whose
    scatter index `idx[e, 0]`, read signed, is `n`. -/
theorem scatterAdd_vec_apply {φ : FTy} (x : FVec Ideal ⟨1, ![N]⟩ φ) (upd : FVec Ideal ⟨1, ![E]⟩ φ) (n : Fin N) :
    Host.scatterAdd (vecScatterDims N E wf) x idx upd (ix1 n)
      = x (ix1 n) + ∑ e ∈ Finset.univ.filter (fun e : Fin E => (idx (ix2 e 0)).toInt = (n.val : Int)), upd (ix1 e) := by
  show x (ix1 n) + ∑ i ∈ Finset.univ.filter
      (fun i => (vecScatterDims N E wf).resultIdx? i idx = some (ix1 n)), upd i = _
  congr 1
  rw [Finset.sum_filter, sum_idx1, Finset.sum_filter]
  refine Finset.sum_congr rfl fun e _ => ?_
  simp only [vecScatter_resultIdx?_eq_some]

end ScatterVec

end Cert.LibIndexing

end
-- ==== Proof.Val5Math.lean ====
/-
  The arithmetic under the per-graph sums. The rows of an array of 50000 rows are read in 25 blocks of 2000; a row
  belongs to graph g when its id word is the 32-bit word g, which for g < 128 is the same as its signed reading being
  g. Here: that equivalence of the two tests, the entry of the one-hot matrix as an extended real, the sum of one
  block's rows of a graph (`blockSum`), and the regrouping of a sum over all 50000 rows into the 25 block sums.
-/
import Idealize.ShloMosaic.Lib.ValueIdx
import Idealize.ShloMosaic.PureOps.Ideal.Laws
import Mathlib.Algebra.BigOperators.Fin
import Mathlib.Logic.Equiv.Fin.Basic
import Mathlib.Data.EReal.Basic

noncomputable section

open scoped BigOperators

namespace Cert.KernelIdeal.Hand.Pool

open Idealize.ShloMosaic Idealize.ShloMosaic.ValueIdx

/-- For a graph number below 128, an id word IS that number's 32-bit word exactly when it reads, signed, as that number. -/
theorem word_eq_iff_toInt (v : BitVec 32) (g : ℕ) (hg : g < 128) : v = BitVec.ofNat 32 g ↔ v.toInt = (g : ℤ) := by
  have hv := v.isLt
  rw [BitVec.toInt_eq_toNat_cond]
  constructor
  · rintro rfl
    simp only [BitVec.toNat_ofNat]
    split <;> omega
  · intro h
    apply BitVec.eq_of_toNat_eq
    rw [BitVec.toNat_ofNat]
    split at h <;> omega

/-- The one-hot entry: the equality bit of two words, widened to 32 bits and read as a signed integer, is the extended
    real 1 when the words agree and 0 when they do not. -/
theorem onehot_entry (a b : BitVec 32) :
    (FloatOps.sitofp (F := Ideal) .f32 ((IntOp.cmpi .eq a b).setWidth 32) : EReal) = if a = b then 1 else 0 := by
  show ((((((IntOp.cmpi .eq a b).setWidth 32).toInt : ℤ) : ℝ) : EReal)) = _
  unfold IntOp.cmpi
  by_cases h : a = b
  · have hb : (a == b) = true := by simp [h]
    rw [if_pos h]
    simp only [hb]
    have : ((BitVec.ofBool true).setWidth 32).toInt = 1 := by decide
    rw [this]
    simp
  · have hb : (a == b) = false := by simp [h]
    rw [if_neg h]
    simp only [hb]
    have : ((BitVec.ofBool false).setWidth 32).toInt = 0 := by decide
    rw [this]
    simp

/-- A one-hot entry times x is x or 0, whatever extended real x is. -/
theorem onehot_mul (a b : BitVec 32) (x : EReal) :
    (FloatOps.sitofp (F := Ideal) .f32 ((IntOp.cmpi .eq a b).setWidth 32) : EReal) * x = if a = b then x else 0 := by
  rw [onehot_entry]
  by_cases h : a = b
  · rw [if_pos h, if_pos h, one_mul]
  · rw [if_neg h, if_neg h, zero_mul]

/-- The rows of block t (rows 2000·t … 2000·t + 1999) whose id word is the word g, summed at column d. -/
def blockSum (gid : (⟨2, ![50000, 1]⟩ : Shape).Idx → BitVec 32) (h : (⟨2, ![50000, 256]⟩ : Shape).Idx → EReal)
    (t : ℕ) (ht : t < 25) (g : Fin 128) (d : Fin 256) : EReal :=
  ∑ r : Fin 2000, if gid (ix2 (⟨2000 * t + r.val, by omega⟩ : Fin 50000) (0 : Fin 1)) = BitVec.ofNat 32 g.val
    then h (ix2 (⟨2000 * t + r.val, by omega⟩ : Fin 50000) d) else 0

/-- 50000 rows are 25 blocks of 2000 rows: row 2000·t + r is row r of block t. -/
def rowsEquiv : Fin 25 × Fin 2000 ≃ Fin 50000 :=
  (finProdFinEquiv (m := 25) (n := 2000)).trans (finCongr (by norm_num))

theorem rowsEquiv_val (t : Fin 25) (r : Fin 2000) : (rowsEquiv (t, r)).val = 2000 * t.val + r.val := by
  simp [rowsEquiv, finProdFinEquiv, Nat.add_comm]

/-- A sum over the 50000 rows is the sum over the 25 blocks of the sums over each block's 2000 rows. -/
theorem sum_rows_blocks {M : Type*} [AddCommMonoid M] (f : Fin 50000 → M) :
    ∑ e : Fin 50000, f e = ∑ t : Fin 25, ∑ r : Fin 2000, f ⟨2000 * t.val + r.val, by omega⟩ := by
  rw [← Equiv.sum_comp rowsEquiv f, Fintype.sum_prod_type]
  refine Finset.sum_congr rfl fun t _ => Finset.sum_congr rfl fun r _ => ?_
  exact congrArg f (Fin.ext (rowsEquiv_val t r))

/-- THE 25 BLOCK SUMS ADD UP to the sum, over all the rows whose id reads signed as g, of the row's entry at column d. -/
theorem sum_blockSum (gid : (⟨2, ![50000, 1]⟩ : Shape).Idx → BitVec 32) (h : (⟨2, ![50000, 256]⟩ : Shape).Idx → EReal)
    (g : Fin 128) (d : Fin 256) :
    ∑ t : Fin 25, blockSum gid h t.val t.isLt g d
      = ∑ e ∈ Finset.univ.filter (fun e : Fin 50000 => (gid (ix2 e (0 : Fin 1))).toInt = (g.val : ℤ)), h (ix2 e d) := by
  rw [Finset.sum_filter, sum_rows_blocks]
  refine Finset.sum_congr rfl fun t _ => ?_
  unfold blockSum
  refine Finset.sum_congr rfl fun r _ => ?_
  exact if_congr (word_eq_iff_toInt _ g.val g.isLt) rfl rfl

end Cert.KernelIdeal.Hand.Pool

end
-- ==== Proof.Val5.lean ====
/-
  THE VALUE OF REGION 5's OUTPUT: the per-graph sums. At each of the 25 points the body adds to an accumulator the
  product of the transposed one-hot matrix of the point's 2000 graph ids with the point's 2000 rows: entry (g, d) grows
  by the sum of the entries at column d of the block's rows whose id is g. Over the 25 points that is the sum over all
  50000 rows whose id is g, which is what the reference's scatter-add over zeros holds at (g, d). The output block is
  the whole 128 × 256 array and is written back at the last point only, so the array ends holding the accumulator as
  the last point leaves it.
-/
import proofs.«430456_j88974542504687_1_alg».proof.Proof.R5Defs
import proofs.«430456_j88974542504687_1_alg».proof.Proof.RefSide
import proofs.«430456_j88974542504687_1_alg».proof.Proof.LibIndexing
import proofs.«430456_j88974542504687_1_alg».proof.Proof.Val5Math
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open scoped BigOperators

variable (V : (c : Dev nD) → (b : Ref sig .tc) → Buf (Elt Ideal) ((c : Thread nD τ).loc b))

/-! ## The one-hot product of one point, read at an entry -/

/-- On the one-hot matrix's row axis (the contracted one) the product reads the contraction position. -/
theorem lhs_pool_0 (i : S128x256.Idx) (q : dot_S2000x128_S2000x256_S128x256_0_0_1_1_n_n.contr.Idx) :
    (dot_S2000x128_S2000x256_S128x256_0_0_1_1_n_n.lhsIdx i q 0).val = (q ⟨0, by decide⟩).val :=
  dot_S2000x128_S2000x256_S128x256_0_0_1_1_n_n.lhsIdx_val_of_single rfl i q
/-- On the one-hot matrix's graph axis it reads the result's row. -/
theorem lhs_pool_1 (i : S128x256.Idx) (q : dot_S2000x128_S2000x256_S128x256_0_0_1_1_n_n.contr.Idx) :
    (dot_S2000x128_S2000x256_S128x256_0_0_1_1_n_n.lhsIdx i q 1).val = (i 0).val := by
  unfold DotDims.lhsIdx
  rw [dif_neg (show ¬(1 : Fin S2000x128.rank) ∈ dot_S2000x128_S2000x256_S128x256_0_0_1_1_n_n.lhsBatch by decide), dif_pos (show (1 : Fin S2000x128.rank) ∈ dot_S2000x128_S2000x256_S128x256_0_0_1_1_n_n.lhsNonContracting by decide)]
  rfl
/-- On the row block's row axis (the contracted one) the product reads the contraction position. -/
theorem rhs_pool_0 (i : S128x256.Idx) (q : dot_S2000x128_S2000x256_S128x256_0_0_1_1_n_n.contr.Idx) :
    (dot_S2000x128_S2000x256_S128x256_0_0_1_1_n_n.rhsIdx i q 0).val = (q ⟨0, by decide⟩).val :=
  dot_S2000x128_S2000x256_S128x256_0_0_1_1_n_n.rhsIdx_val_of_single rfl i q
/-- On the row block's column axis it reads the result's column. -/
theorem rhs_pool_1 (i : S128x256.Idx) (q : dot_S2000x128_S2000x256_S128x256_0_0_1_1_n_n.contr.Idx) :
    (dot_S2000x128_S2000x256_S128x256_0_0_1_1_n_n.rhsIdx i q 1).val = (i 1).val := by
  unfold DotDims.rhsIdx
  rw [dif_neg (show ¬(1 : Fin S2000x256.rank) ∈ dot_S2000x128_S2000x256_S128x256_0_0_1_1_n_n.rhsBatch by decide), dif_pos (show (1 : Fin S2000x256.rank) ∈ dot_S2000x128_S2000x256_S128x256_0_0_1_1_n_n.rhsNonContracting by decide)]
  rfl

/-- The accumulator's first value is zero everywhere. -/
theorem pay1_apply (g : Fin 128) (d : Fin 256) : k5_pay1 (F := Ideal) (ix2 g d) = 0 := by
  unfold k5_pay1
  simp only [shapeCast_self]
  show Ideal.ofBits .f32 0x00000000#32 = 0
  exact Ideal.ofBits_zero_f32

/-- ONE POINT'S UPDATE AT AN ENTRY: entry (g, d) of the new accumulator is the old one plus the sum, over the block's
    2000 rows, of the row's entry at column d when the row's id word is the word g, and of nothing otherwise. -/
theorem pay2_apply (v3 : Vec Ideal S2000x256 .f32) (v6 : Vec Ideal S2000x1 .i32) (v15 : Vec Ideal S128x256 .f32)
    (g : Fin 128) (d : Fin 256) :
    k5_pay2 (F := Ideal) v3 v6 v15 (ix2 g d)
      = v15 (ix2 g d) + ∑ r : Fin 2000, if v6 (ix2 r (0 : Fin 1)) = BitVec.ofNat 32 g.val then v3 (ix2 r d) else 0 := by
  unfold k5_pay2
  simp only [shapeCast_self]
  rw [addf_apply]
  congr 1
  simp only [matmul]
  rw [Ideal.matmul_constant_zero_apply, ← Equiv.sum_comp (contrEquiv1 dot_S2000x128_S2000x256_S128x256_0_0_1_1_n_n 2000 rfl rfl).symm]
  refine Finset.sum_congr rfl fun k _ => ?_
  have hk := contrEquiv1_symm_val dot_S2000x128_S2000x256_S128x256_0_0_1_1_n_n 2000 rfl rfl k
  have el : dot_S2000x128_S2000x256_S128x256_0_0_1_1_n_n.lhsIdx (ix2 g d) ((contrEquiv1 dot_S2000x128_S2000x256_S128x256_0_0_1_1_n_n 2000 rfl rfl).symm k) = ix2 k g := funext fun a => Fin.ext (by
    match a with
    | ⟨0, _⟩ => exact (lhs_pool_0 _ _).trans hk
    | ⟨1, _⟩ => exact lhs_pool_1 _ _)
  have er : dot_S2000x128_S2000x256_S128x256_0_0_1_1_n_n.rhsIdx (ix2 g d) ((contrEquiv1 dot_S2000x128_S2000x256_S128x256_0_0_1_1_n_n 2000 rfl rfl).symm k) = ix2 k d := funext fun a => Fin.ext (by
    match a with
    | ⟨0, _⟩ => exact (rhs_pool_0 _ _).trans hk
    | ⟨1, _⟩ => exact rhs_pool_1 _ _)
  rw [el, er, truncf_apply, truncf_apply, sitofp_apply, extui_apply]
  show FloatOps.sitofp (F := Ideal) .f32 ((IntOp.cmpi .eq (broadcastTo S2000x128 v6 broadcasts_S2000x1_S2000x128 (ix2 k g))
      (iota .tc S2000x128 32 [1] iota_S2000x128_d1_w32 (ix2 k g))).setWidth 32) * v3 (ix2 k d) = _
  rw [broadcastTo_apply v6 broadcasts_S2000x1_S2000x128 (ix2 k g) (ix2 k (0 : Fin 1)) (fun a => by
      match a with
      | ⟨0, _⟩ => rfl
      | ⟨1, _⟩ => rfl),
    iota_single_apply]
  exact Pool.onehot_mul _ _ _

/-! ## The blocks of a point are rows of the two arrays -/

/-- The block index of each window at point t: the row block and the id block are block t of their arrays, the output
    block is the one block of its array. -/
theorem idx_facts5 : ∀ t : Fin cfg5.N, win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0 :=
  (by decide +kernel : ∀ t : Fin grid5.N, _)

/-- There are 25 points. -/
theorem pt_lt (t : Fin cfg5.N) : t.val < 25 := by
  have h := t.isLt; have h25 : cfg5.N = 25 := N_5; omega

/-- Row r of block t is one of the 50000 rows. -/
theorem rows_lt (t : Fin cfg5.N) (r : Fin 2000) : 2000 * t.val + r.val < 50000 := by
  have := pt_lt t; omega

/-- Row r of point t's row block is row 2000·t + r of the array of rows. -/
theorem iblk5_h_apply (c : Dev nD) (t : Fin cfg5.N) (r : Fin 2000) (d : Fin 256) :
    iblk5 V c 0 t (ix2 r d) = V c main_v24 (ix2 (⟨2000 * t.val + r.val, rows_lt t r⟩ : Fin 50000) d) := by
  obtain ⟨e0, e1, -⟩ := idx_facts5 t
  show V c main_v24 (((cfg5.win 0).blk t).view.emb (ix2 r d)) = _
  refine congrArg (V c main_v24) (funext fun a => Fin.ext ?_)
  match a with
  | ⟨0, _⟩ => show win5_0.index t (0 : Fin 2) * 2000 + 1 * r.val = 2000 * t.val + r.val; omega
  | ⟨1, _⟩ => show win5_0.index t (1 : Fin 2) * 256 + 1 * d.val = d.val; omega

/-- Row r of point t's id block is row 2000·t + r of the id column. -/
theorem iblk5_g_apply (c : Dev nD) (t : Fin cfg5.N) (r : Fin 2000) :
    iblk5 V c 1 t (ix2 r (0 : Fin 1)) = V c main_v25 (ix2 (⟨2000 * t.val + r.val, rows_lt t r⟩ : Fin 50000) (0 : Fin 1)) := by
  obtain ⟨-, -, e0, e1, -⟩ := idx_facts5 t
  show V c main_v25 (((cfg5.win 1).blk t).view.emb (ix2 r (0 : Fin 1))) = _
  refine congrArg (V c main_v25) (funext fun a => Fin.ext ?_)
  match a with
  | ⟨0, _⟩ => show win5_1.index t (0 : Fin 2) * 2000 + 1 * r.val = 2000 * t.val + r.val; omega
  | ⟨1, _⟩ => show win5_1.index t (1 : Fin 2) * 1 + 1 * 0 = 0; omega

/-- One point's update of any accumulator, at an entry: the accumulator plus that point's block sum. -/
theorem step_apply (c : Dev nD) (t : Fin cfg5.N) (acc : Vec Ideal S128x256 .f32) (g : Fin 128) (d : Fin 256) :
    k5_pay2 (F := Ideal) (iblk5 V c 0 t) (iblk5 V c 1 t) acc (ix2 g d)
      = acc (ix2 g d) + Pool.blockSum (V c main_v25) (V c main_v24) t.val (pt_lt t) g d := by
  rw [pay2_apply]
  congr 1
  unfold Pool.blockSum
  refine Finset.sum_congr rfl fun r _ => ?_
  rw [iblk5_h_apply, iblk5_g_apply]

/-! ## The accumulator after each point, and after the last -/

/-- THE ACCUMULATOR AFTER POINT n, at an entry: the block sums of the points 0 … n. -/
theorem accAt5_apply (c : Dev nD) : ∀ (n : ℕ) (hn : n < cfg5.N) (g : Fin 128) (d : Fin 256),
    accAt5 V c n hn (ix2 g d)
      = ∑ t : Fin (n + 1), Pool.blockSum (V c main_v25) (V c main_v24) t.val
          (by have := t.isLt; have : n < 25 := pt_lt ⟨n, hn⟩; omega) g d
  | 0, hn, g, d => by
    rw [accAt5_zero, step_apply, pay1_apply, zero_add, Fin.sum_univ_one]
    rfl
  | n + 1, hn, g, d => by
    rw [Fin.sum_univ_castSucc, accAt5_succ, step_apply, accAt5_apply c n _ g d]
    rfl

/-- The accumulator after a point depends on the point's number only. -/
theorem accAt5_congr (c : Dev nD) {n m : ℕ} (h : n = m) (hn : n < cfg5.N) (hm : m < cfg5.N) :
    accAt5 V c n hn = accAt5 V c m hm := by
  subst h; rfl

/-- Point 24 is the last of the 25. -/
theorem last_lt : 24 < cfg5.N := by have h25 : cfg5.N = 25 := N_5; omega

/-- THE REFERENCE'S PER-GRAPH SUMS AT AN ENTRY: a scatter-add of the rows over zeros at the id column holds, at (g, d), the
    sum of the entries at column d of the rows whose id reads signed as g. -/
theorem pool2_apply (gid : (⟨2, ![50000, 1]⟩ : Shape).Idx → BitVec 32) (h : (⟨2, ![50000, 256]⟩ : Shape).Idx → EReal)
    (g : Fin 128) (d : Fin 256) :
    Cert.ReferenceIdeal.RefSide.pool2 (F := Ideal) gid h (ix2 g d)
      = ∑ e ∈ Finset.univ.filter (fun e : Fin 50000 => (gid (ix2 e (0 : Fin 1))).toInt = (g.val : ℤ)), h (ix2 e d) :=
  (Cert.LibIndexing.scatterAdd_rows_apply (N := 128) (D := 256) (E := 50000) (φ := .f32)
    Cert.ReferenceIdeal.Gen.scatter_S128x256_S50000x1_S50000x256_1_0_0_1_wf gid _ h g d).trans (by
      show Ideal.ofBits .f32 0x00000000#32 + _ = _
      rw [Ideal.ofBits_zero_f32, zero_add])

/-- AFTER THE LAST POINT the accumulator is the reference's per-graph sums. -/
theorem acc_last_eq (c : Dev nD) :
    accAt5 V c 24 last_lt = Cert.ReferenceIdeal.RefSide.pool2 (F := Ideal) (V c main_v25) (V c main_v24) := by
  funext i
  obtain ⟨g, d, rfl⟩ : ∃ (g : Fin 128) (d : Fin 256), i = ix2 g d := ⟨i 0, i 1, eq_ix2 i⟩
  rw [pool2_apply, accAt5_apply, Pool.sum_blockSum]

/-! ## The output array after the run -/

/-- THE VALUE OF THE OUTPUT ARRAY: the output block is the whole array and only the last point writes it back, with the
    accumulator as that point leaves it. -/
theorem arr5_out (c : Dev nD) :
    (dat5 (F := Ideal) V c).arrAt 2 cfg5.N = Cert.ReferenceIdeal.RefSide.pool2 (V c main_v25) (V c main_v24) := by
  rw [← acc_last_eq V c]
  refine (dat5 (F := Ideal) V c).arrAt_eq_of_cover 2 (accAt5 V c 24 last_lt) ?_ ?_
  · intro t hf
    have h24 : t.val = 24 := by have := (flush5_2 t).mp hf; have := pt_lt t; omega
    obtain ⟨-, -, -, -, e0, e1⟩ := idx_facts5 t
    show (cfg5.win 2).cut (cfg5.grid.coords t) ((dat5 (F := Ideal) V c).after 2 t) = _
    rw [after5_2, accAt5_congr V c h24 t.isLt last_lt]
    funext j
    show accAt5 V c 24 last_lt ((cfg5.win 2).xinj (cfg5.grid.coords t) j) = accAt5 V c 24 last_lt (((cfg5.win 2).blk t).view.emb j)
    refine congrArg (accAt5 V c 24 last_lt) (funext fun a => Fin.ext ?_)
    match a with
    | ⟨0, _⟩ => show (j 0).val = win5_2.index t (0 : Fin 2) * 128 + 1 * (j 0).val; omega
    | ⟨1, _⟩ => show (j 1).val = win5_2.index t (1 : Fin 2) * 256 + 1 * (j 1).val; omega
  · intro i
    obtain ⟨-, -, -, -, e0, e1⟩ := idx_facts5 ⟨24, last_lt⟩
    refine ⟨⟨24, last_lt⟩, (flush5_2 _).mpr rfl, ?_⟩
    show i ∈ ((View.whole main_v26).slice (win5_2.rect ⟨24, last_lt⟩)).set
    rw [View.set_slice_whole, Rect.mem_set_unit]
    intro a
    match a with
    | ⟨0, _⟩ =>
      show win5_2.index ⟨24, last_lt⟩ (0 : Fin 2) * 128 ≤ (i 0).val ∧ (i 0).val < win5_2.index ⟨24, last_lt⟩ (0 : Fin 2) * 128 + 128
      have : (i 0).val < 128 := (i 0).isLt; omega
    | ⟨1, _⟩ =>
      show win5_2.index ⟨24, last_lt⟩ (1 : Fin 2) * 256 ≤ (i 1).val ∧ (i 1).val < win5_2.index ⟨24, last_lt⟩ (1 : Fin 2) * 256 + 256
      have : (i 1).val < 256 := (i 1).isLt; omega

end Cert.KernelIdeal.Hand

end
-- ==== Proof.Chain.lean ====
/-
  The result buffer read back through the run. Each region's inputs are what the boundary before it holds; each host
  stretch's result is the reference's own aggregation (or its column of graph ids) of what the stretch reads; so the
  last region's output is the reference's composition of the nine argument arrays.
-/
import proofs.«430456_j88974542504687_1_alg».proof.Proof.Run1
import proofs.«430456_j88974542504687_1_alg».proof.Proof.Val0
import proofs.«430456_j88974542504687_1_alg».proof.Proof.Val1
import proofs.«430456_j88974542504687_1_alg».proof.Proof.Val2
import proofs.«430456_j88974542504687_1_alg».proof.Proof.Val3
import proofs.«430456_j88974542504687_1_alg».proof.Proof.Val4
import proofs.«430456_j88974542504687_1_alg».proof.Proof.Val5
import proofs.«430456_j88974542504687_1_alg».proof.Proof.RefSide
import Idealize.ShloMosaic.Lib.StableHlo.Run
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal.RefSide (lin0 lin relu agg layer pool2 gidCol)

/-! ## The host stretches, over any contents W of the buffers before the stretch -/

/-- The first aggregation stretch leaves in its result buffer the reference's aggregation of the edge sources, the
    edge destinations and the array of transformed rows it reads: the same operations, in the same order. -/
theorem chain_agg_first (W : Valuation τ sig (Elt Ideal)) :
    StableHlo.after hostOps2 W (Proc.devRef .tc main_v11)
      = Cert.ReferenceIdeal.RefSide.agg (W (Proc.devRef .tc main_arg6)) (W (Proc.devRef .tc main_arg7))
          (W (Proc.devRef .tc main_v1_0)) := by
  after_results
  rfl

/-- The second aggregation stretch, likewise, of the second layer's transformed rows. -/
theorem chain_agg_second (W : Valuation τ sig (Elt Ideal)) :
    StableHlo.after hostOps4 W (Proc.devRef .tc main_v23)
      = Cert.ReferenceIdeal.RefSide.agg (W (Proc.devRef .tc main_arg6)) (W (Proc.devRef .tc main_arg7))
          (W (Proc.devRef .tc main_v13_0)) := by
  after_results
  rfl

/-- A vector of 50000 entries cast to a column and the same vector broadcast along a new trailing unit axis agree: entry
    (i, 0) of either is entry i of the vector. -/
theorem chain_col_eq {α : Type} (g : S50000.Idx → α) (hc : S50000.ShapeCasts S50000x1)
    (hb : S50000.BroadcastsInDim S50000x1 ![0]) :
    shapeCast S50000x1 g hc = broadcastInDim S50000x1 ![0] hb g := by
  funext j
  have hr : (j 0).val < 50000 := (j 0).isLt
  have hu : (j 1).val < 1 := (j 1).isLt
  have hk : ∀ a : Fin 1, (j 0).val < S50000.size a := fun a => by fin_cases a; exact hr
  rw [shapeCast_apply g hc j (fun a => ⟨(j 0).val, hk a⟩)
    (by rw [Shape.rowMajor_val_one, Shape.rowMajor_val_two]; show (j 0).val = (j 0).val * 1 + (j 1).val; omega)]
  exact (broadcastInDim_apply ![0] hb g j (fun a => ⟨(j 0).val, hk a⟩) (fun a => by fin_cases a; rfl)).symm

/-- The last stretch reshapes the graph ids to a column, which is the reference's column of them. -/
theorem chain_gid_col (W : Valuation τ sig (Elt Ideal)) :
    StableHlo.after hostOps5 W (Proc.devRef .tc main_v25)
      = Cert.ReferenceIdeal.RefSide.gidCol (W (Proc.devRef .tc main_arg8)) := by
  after_results
  exact chain_col_eq (W (Proc.devRef .tc main_arg8)) shapeCasts_S50000_S50000x1 _

/-! ## The run, from the launch memory m -/

variable (m : (ℓ : Loc nD τ sig) → Buf (Elt Ideal) ℓ) (ρ : Dev nD → PrngReg)

/-! ### A buffer no item has touched yet holds what was launched

Each lemma adds one item of @main: a region none of whose windows is on the buffer, or a host stretch that does not write
it. -/

theorem chain_back1 (c : Dev nD) (b : Ref sig .tc) (h0 : ∀ w, Pipeline.arrRef spec0 w ≠ b) :
    W1 m ρ c (Proc.devRef .tc b) = m ((c : Thread nD τ).loc b) :=
  (W1_of_ne m ρ c b h0).trans rfl
theorem chain_back2 (c : Dev nD) (b : Ref sig .tc) (h0 : ∀ w, Pipeline.arrRef spec0 w ≠ b)
    (h1 : ∀ w, Pipeline.arrRef spec1 w ≠ b) : W2 m ρ c (Proc.devRef .tc b) = m ((c : Thread nD τ).loc b) :=
  (W2_of_ne m ρ c b h1).trans (chain_back1 m ρ c b h0)
theorem chain_back3 (c : Dev nD) (b : Ref sig .tc) (h0 : ∀ w, Pipeline.arrRef spec0 w ≠ b)
    (h1 : ∀ w, Pipeline.arrRef spec1 w ≠ b) (hs : b ∉ written2) :
    W3 m ρ c (Proc.devRef .tc b) = m ((c : Thread nD τ).loc b) :=
  (W3_of_not_written m ρ c b hs).trans (chain_back2 m ρ c b h0 h1)
theorem chain_back4 (c : Dev nD) (b : Ref sig .tc) (h0 : ∀ w, Pipeline.arrRef spec0 w ≠ b)
    (h1 : ∀ w, Pipeline.arrRef spec1 w ≠ b) (hs : b ∉ written2) (hc : ∀ w, Pipeline.arrRef spec2 w ≠ b) :
    W4 m ρ c (Proc.devRef .tc b) = m ((c : Thread nD τ).loc b) :=
  (W4_of_ne m ρ c b hc).trans (chain_back3 m ρ c b h0 h1 hs)
theorem chain_back5 (c : Dev nD) (b : Ref sig .tc) (h0 : ∀ w, Pipeline.arrRef spec0 w ≠ b)
    (h1 : ∀ w, Pipeline.arrRef spec1 w ≠ b) (hs : b ∉ written2) (hc : ∀ w, Pipeline.arrRef spec2 w ≠ b)
    (ht : ∀ w, Pipeline.arrRef spec3 w ≠ b) : W5 m ρ c (Proc.devRef .tc b) = m ((c : Thread nD τ).loc b) :=
  (W5_of_ne m ρ c b ht).trans (chain_back4 m ρ c b h0 h1 hs hc)
theorem chain_back6 (c : Dev nD) (b : Ref sig .tc) (h0 : ∀ w, Pipeline.arrRef spec0 w ≠ b)
    (h1 : ∀ w, Pipeline.arrRef spec1 w ≠ b) (hs : b ∉ written2) (hc : ∀ w, Pipeline.arrRef spec2 w ≠ b)
    (ht : ∀ w, Pipeline.arrRef spec3 w ≠ b) (hr : b ∉ written4) :
    W6 m ρ c (Proc.devRef .tc b) = m ((c : Thread nD τ).loc b) :=
  (W6_of_not_written m ρ c b hr).trans (chain_back5 m ρ c b h0 h1 hs hc ht)
theorem chain_back7 (c : Dev nD) (b : Ref sig .tc) (h0 : ∀ w, Pipeline.arrRef spec0 w ≠ b)
    (h1 : ∀ w, Pipeline.arrRef spec1 w ≠ b) (hs : b ∉ written2) (hc : ∀ w, Pipeline.arrRef spec2 w ≠ b)
    (ht : ∀ w, Pipeline.arrRef spec3 w ≠ b) (hr : b ∉ written4) (hd : ∀ w, Pipeline.arrRef spec4 w ≠ b) :
    W7 m ρ c (Proc.devRef .tc b) = m ((c : Thread nD τ).loc b) :=
  (W7_of_ne m ρ c b hd).trans (chain_back6 m ρ c b h0 h1 hs hc ht hr)

/-! ### The reference's three hidden states, as functions of the launch memory -/

/-- The projected features x · W_map. -/
def chain_x0 (c : Dev nD) : (⟨S50000x256, .f32⟩ : BufTy).Contents (Elt Ideal) :=
  lin0 (F := Ideal) (m ((c : Thread nD τ).loc main_arg0)) (m ((c : Thread nD τ).loc main_arg1))
/-- The first layer's output. -/
def chain_x1 (c : Dev nD) : (⟨S50000x256, .f32⟩ : BufTy).Contents (Elt Ideal) :=
  layer (F := Ideal) (chain_x0 m c) (m ((c : Thread nD τ).loc main_arg2)) (m ((c : Thread nD τ).loc main_arg3))
    (m ((c : Thread nD τ).loc main_arg6)) (m ((c : Thread nD τ).loc main_arg7))
/-- The second layer's output. -/
def chain_x2 (c : Dev nD) : (⟨S50000x256, .f32⟩ : BufTy).Contents (Elt Ideal) :=
  layer (F := Ideal) (chain_x1 m c) (m ((c : Thread nD τ).loc main_arg4)) (m ((c : Thread nD τ).loc main_arg5))
    (m ((c : Thread nD τ).loc main_arg6)) (m ((c : Thread nD τ).loc main_arg7))

/-! ### The boundaries, one read each -/

/-- After region 0 its output holds the projected features. -/
theorem chain_h0 (c : Dev nD) : W1 m ρ c (Proc.devRef .tc main_v0) = chain_x0 m c :=
  calc W1 m ρ c (Proc.devRef .tc main_v0)
    _ = (dat0 (V0 m ρ) c).arrAt 2 cfg0.N := W1_arr m ρ c 2
    _ = chain_x0 m c := arr0_out (V0 m ρ) c

/-- After region 1 its first output holds the first layer's transformed rows. -/
theorem chain_hw1 (c : Dev nD) :
    W2 m ρ c (Proc.devRef .tc main_v1_0) = lin (F := Ideal) (chain_x0 m c) (m ((c : Thread nD τ).loc main_arg2)) :=
  calc W2 m ρ c (Proc.devRef .tc main_v1_0)
    _ = (dat1 (V1 m ρ) c).arrAt 3 cfg1.N := W2_arr m ρ c 3
    _ = lin (F := Ideal) (W1 m ρ c (Proc.devRef .tc main_v0)) (W1 m ρ c (Proc.devRef .tc main_arg2)) :=
      arr1_hw (V1 m ρ) c
    _ = _ := by rw [chain_h0 m ρ c, chain_back1 m ρ c main_arg2 (by decide)]

/-- After region 1 its second output holds the first layer's residual branch. -/
theorem chain_hres1 (c : Dev nD) :
    W2 m ρ c (Proc.devRef .tc main_v1_1)
      = relu (F := Ideal) (lin (F := Ideal) (chain_x0 m c) (m ((c : Thread nD τ).loc main_arg3))) :=
  calc W2 m ρ c (Proc.devRef .tc main_v1_1)
    _ = (dat1 (V1 m ρ) c).arrAt 4 cfg1.N := W2_arr m ρ c 4
    _ = relu (F := Ideal) (lin (F := Ideal) (W1 m ρ c (Proc.devRef .tc main_v0)) (W1 m ρ c (Proc.devRef .tc main_arg3))) :=
      arr1_hres (V1 m ρ) c
    _ = _ := by rw [chain_h0 m ρ c, chain_back1 m ρ c main_arg3 (by decide)]

/-- After the first aggregation its result holds the reference's aggregation of the transformed rows. -/
theorem chain_agg1 (c : Dev nD) :
    W3 m ρ c (Proc.devRef .tc main_v11)
      = agg (F := Ideal) (m ((c : Thread nD τ).loc main_arg6)) (m ((c : Thread nD τ).loc main_arg7))
          (lin (F := Ideal) (chain_x0 m c) (m ((c : Thread nD τ).loc main_arg2))) :=
  calc W3 m ρ c (Proc.devRef .tc main_v11)
    _ = agg (F := Ideal) (W2 m ρ c (Proc.devRef .tc main_arg6)) (W2 m ρ c (Proc.devRef .tc main_arg7))
          (W2 m ρ c (Proc.devRef .tc main_v1_0)) := chain_agg_first (W2 m ρ c)
    _ = _ := by rw [chain_back2 m ρ c main_arg6 (by decide) (by decide),
                  chain_back2 m ρ c main_arg7 (by decide) (by decide), chain_hw1 m ρ c]

/-- The first aggregation leaves the residual branch alone. -/
theorem chain_hres1_kept (c : Dev nD) :
    W3 m ρ c (Proc.devRef .tc main_v1_1)
      = relu (F := Ideal) (lin (F := Ideal) (chain_x0 m c) (m ((c : Thread nD τ).loc main_arg3))) :=
  (W3_of_not_written m ρ c main_v1_1 (by decide)).trans (chain_hres1 m ρ c)

/-- After region 2 its output holds the first layer's output. -/
theorem chain_h1 (c : Dev nD) : W4 m ρ c (Proc.devRef .tc main_v12) = chain_x1 m c :=
  calc W4 m ρ c (Proc.devRef .tc main_v12)
    _ = (dat2 (V3 m ρ) c).arrAt 2 cfg2.N := W4_arr m ρ c 2
    _ = addf (F := Ideal) (s := S50000x256) (φ := .f32) (relu (F := Ideal) (W3 m ρ c (Proc.devRef .tc main_v11)))
          (W3 m ρ c (Proc.devRef .tc main_v1_1)) :=
      arr2_out (V3 m ρ) c
    _ = _ := by rw [chain_agg1 m ρ c, chain_hres1_kept m ρ c]; rfl

/-- After region 3 its first output holds the second layer's transformed rows. -/
theorem chain_hw2 (c : Dev nD) :
    W5 m ρ c (Proc.devRef .tc main_v13_0) = lin (F := Ideal) (chain_x1 m c) (m ((c : Thread nD τ).loc main_arg4)) :=
  calc W5 m ρ c (Proc.devRef .tc main_v13_0)
    _ = (dat3 (V4 m ρ) c).arrAt 3 cfg3.N := W5_arr m ρ c 3
    _ = lin (F := Ideal) (W4 m ρ c (Proc.devRef .tc main_v12)) (W4 m ρ c (Proc.devRef .tc main_arg4)) :=
      arr3_hw (V4 m ρ) c
    _ = _ := by rw [chain_h1 m ρ c, chain_back4 m ρ c main_arg4 (by decide) (by decide) (by decide) (by decide)]

/-- After region 3 its second output holds the second layer's residual branch. -/
theorem chain_hres2 (c : Dev nD) :
    W5 m ρ c (Proc.devRef .tc main_v13_1)
      = relu (F := Ideal) (lin (F := Ideal) (chain_x1 m c) (m ((c : Thread nD τ).loc main_arg5))) :=
  calc W5 m ρ c (Proc.devRef .tc main_v13_1)
    _ = (dat3 (V4 m ρ) c).arrAt 4 cfg3.N := W5_arr m ρ c 4
    _ = relu (F := Ideal) (lin (F := Ideal) (W4 m ρ c (Proc.devRef .tc main_v12)) (W4 m ρ c (Proc.devRef .tc main_arg5))) :=
      arr3_hres (V4 m ρ) c
    _ = _ := by rw [chain_h1 m ρ c, chain_back4 m ρ c main_arg5 (by decide) (by decide) (by decide) (by decide)]

/-- After the second aggregation its result holds the reference's aggregation of the second layer's transformed rows. -/
theorem chain_agg2 (c : Dev nD) :
    W6 m ρ c (Proc.devRef .tc main_v23)
      = agg (F := Ideal) (m ((c : Thread nD τ).loc main_arg6)) (m ((c : Thread nD τ).loc main_arg7))
          (lin (F := Ideal) (chain_x1 m c) (m ((c : Thread nD τ).loc main_arg4))) :=
  calc W6 m ρ c (Proc.devRef .tc main_v23)
    _ = agg (F := Ideal) (W5 m ρ c (Proc.devRef .tc main_arg6)) (W5 m ρ c (Proc.devRef .tc main_arg7))
          (W5 m ρ c (Proc.devRef .tc main_v13_0)) := chain_agg_second (W5 m ρ c)
    _ = _ := by rw [chain_back5 m ρ c main_arg6 (by decide) (by decide) (by decide) (by decide) (by decide),
                  chain_back5 m ρ c main_arg7 (by decide) (by decide) (by decide) (by decide) (by decide),
                  chain_hw2 m ρ c]

/-- The second aggregation leaves the residual branch alone. -/
theorem chain_hres2_kept (c : Dev nD) :
    W6 m ρ c (Proc.devRef .tc main_v13_1)
      = relu (F := Ideal) (lin (F := Ideal) (chain_x1 m c) (m ((c : Thread nD τ).loc main_arg5))) :=
  (W6_of_not_written m ρ c main_v13_1 (by decide)).trans (chain_hres2 m ρ c)

/-- After region 4 its output holds the second layer's output. -/
theorem chain_h2 (c : Dev nD) : W7 m ρ c (Proc.devRef .tc main_v24) = chain_x2 m c :=
  calc W7 m ρ c (Proc.devRef .tc main_v24)
    _ = (dat4 (V6 m ρ) c).arrAt 2 cfg4.N := W7_arr m ρ c 2
    _ = addf (F := Ideal) (s := S50000x256) (φ := .f32) (relu (F := Ideal) (W6 m ρ c (Proc.devRef .tc main_v23)))
          (W6 m ρ c (Proc.devRef .tc main_v13_1)) :=
      arr4_out (V6 m ρ) c
    _ = _ := by rw [chain_agg2 m ρ c, chain_hres2_kept m ρ c]; rfl

/-- The reshape of the graph ids leaves the second layer's output alone. -/
theorem chain_h2_kept (c : Dev nD) : W8 m ρ c (Proc.devRef .tc main_v24) = chain_x2 m c :=
  (W8_of_not_written m ρ c main_v24 (by decide)).trans (chain_h2 m ρ c)

/-- After the reshape its result holds the reference's column of the launched graph ids. -/
theorem chain_gid (c : Dev nD) :
    W8 m ρ c (Proc.devRef .tc main_v25) = gidCol (F := Ideal) (m ((c : Thread nD τ).loc main_arg8)) :=
  calc W8 m ρ c (Proc.devRef .tc main_v25)
    _ = gidCol (F := Ideal) (W7 m ρ c (Proc.devRef .tc main_arg8)) := chain_gid_col (W7 m ρ c)
    _ = _ := by rw [chain_back7 m ρ c main_arg8 (by decide) (by decide) (by decide) (by decide) (by decide)
                  (by decide) (by decide)]

/-- THE RESULT: what the run leaves in the result buffer is the reference's function of the nine launched arrays. -/
theorem result_eq (m : (ℓ : Loc nD τ sig) → Buf (Elt Ideal) ℓ) (ρ : Dev nD → PrngReg) (c : Dev nD) :
    W9 m ρ c (Proc.devRef .tc main_v26)
      = Cert.ReferenceIdeal.RefSide.spec (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5))
          (m ((c : Thread nD τ).loc main_arg6)) (m ((c : Thread nD τ).loc main_arg7))
          (m ((c : Thread nD τ).loc main_arg8)) :=
  calc W9 m ρ c (Proc.devRef .tc main_v26)
    _ = (dat5 (V8 m ρ) c).arrAt 2 cfg5.N := W9_out m ρ c
    _ = pool2 (F := Ideal) (W8 m ρ c (Proc.devRef .tc main_v25)) (W8 m ρ c (Proc.devRef .tc main_v24)) :=
      arr5_out (V8 m ρ) c
    _ = pool2 (F := Ideal) (gidCol (F := Ideal) (m ((c : Thread nD τ).loc main_arg8))) (chain_x2 m c) := by
      rw [chain_gid m ρ c, chain_h2_kept m ρ c]
    _ = _ := by unfold chain_x2 chain_x1 chain_x0 Cert.ReferenceIdeal.RefSide.spec; rfl

end Cert.KernelIdeal.Hand

end
-- ==== Proof.lean ====
/-
  The certificate's five claims for the two-layer graph network with per-graph pooling.

  Both programs compute, over the extended reals,
      h0 = x · W_map,
      h1 = max(agg(h0 · W1), 0) + max(h0 · Wres1, 0),   h2 = max(agg(h1 · W2), 0) + max(h1 · Wres2, 0),
      result (g, d) = Σ over the nodes i whose graph id is g of h2 (i, d),
  where agg adds up, at each destination node, the rows gathered at the edges' source nodes. The kernel does the dense
  stages tile by tile (25 tiles of 2000 rows): a matrix product of a row tile is the same rows of the whole product;
  max and + act entry by entry; the per-graph sum is accumulated tile by tile as the product of the tile's transposed
  one-hot id matrix with the tile's rows, which adds row i into row (graph id of i) exactly as the reference's
  scatter-add does, an id outside [0, 128) landing nowhere on either side. The edge aggregation is the same host
  operations in both programs. No law used needs finiteness: sums are only regrouped, and 0 · x = 0, 1 · x = x hold
  for every extended real.

  The frames: the kernel program runs region by region; each region leaves every array it does not write as it
  found it and no host operation writes an argument, so the arguments end as launched. The reference is a straight
  line of host operations.
-/
import proofs.«430456_j88974542504687_1_alg».proof.Defs
import proofs.«430456_j88974542504687_1_alg».proof.Proof.Gen.Kernel
import proofs.«430456_j88974542504687_1_alg».proof.Proof.Gen.KernelIdeal
import proofs.«430456_j88974542504687_1_alg».proof.Proof.Gen.ReferenceIdeal
import proofs.«430456_j88974542504687_1_alg».proof.Proof.Gen.Pre_finite_inputs
import proofs.«430456_j88974542504687_1_alg».proof.Proof.Run
import proofs.«430456_j88974542504687_1_alg».proof.Proof.K.Run
import proofs.«430456_j88974542504687_1_alg».proof.Proof.Chain
import proofs.«430456_j88974542504687_1_alg».proof.Proof.RefSide
import Idealize.ShloMosaic.Adequacy
import Idealize.ShloMosaic.Init

noncomputable section

namespace Cert.Proof

open Idealize.ShloMosaic Idealize.ShloMosaic.TcCoe Idealize.SL.Sem

/-- The word-level kernel program runs to the end and leaves its nine argument arrays as launched. -/
theorem frame_kernel : Cert.frame_Kernel := fun m ρ _ =>
  (θ_run Cert.Kernel.defs _ _).mono (fun r h c =>
    ⟨(h c _ (Cert.Kernel.Hand.mem_uc Cert.Kernel.main_arg0 (by decide))).trans (Cert.Kernel.Hand.W9_main_arg0 m ρ c),
     (h c _ (Cert.Kernel.Hand.mem_uc Cert.Kernel.main_arg1 (by decide))).trans (Cert.Kernel.Hand.W9_main_arg1 m ρ c),
     (h c _ (Cert.Kernel.Hand.mem_uc Cert.Kernel.main_arg2 (by decide))).trans (Cert.Kernel.Hand.W9_main_arg2 m ρ c),
     (h c _ (Cert.Kernel.Hand.mem_uc Cert.Kernel.main_arg3 (by decide))).trans (Cert.Kernel.Hand.W9_main_arg3 m ρ c),
     (h c _ (Cert.Kernel.Hand.mem_uc Cert.Kernel.main_arg4 (by decide))).trans (Cert.Kernel.Hand.W9_main_arg4 m ρ c),
     (h c _ (Cert.Kernel.Hand.mem_uc Cert.Kernel.main_arg5 (by decide))).trans (Cert.Kernel.Hand.W9_main_arg5 m ρ c),
     (h c _ (Cert.Kernel.Hand.mem_uc Cert.Kernel.main_arg6 (by decide))).trans (Cert.Kernel.Hand.W9_main_arg6 m ρ c),
     (h c _ (Cert.Kernel.Hand.mem_uc Cert.Kernel.main_arg7 (by decide))).trans (Cert.Kernel.Hand.W9_main_arg7 m ρ c),
     (h c _ (Cert.Kernel.Hand.mem_uc Cert.Kernel.main_arg8 (by decide))).trans (Cert.Kernel.Hand.W9_main_arg8 m ρ c)⟩)
    (Cert.Kernel.Hand.run_all (F := Bits) m ρ)

/-- So does the kernel program read over the extended reals. -/
theorem frame_kernelIdeal : Cert.frame_KernelIdeal := fun m ρ _ =>
  (θ_run Cert.KernelIdeal.defs _ _).mono (fun r h c =>
    ⟨(h c _ (Cert.KernelIdeal.Hand.mem_uc Cert.KernelIdeal.main_arg0 (by decide))).trans (Cert.KernelIdeal.Hand.W9_main_arg0 m ρ c),
     (h c _ (Cert.KernelIdeal.Hand.mem_uc Cert.KernelIdeal.main_arg1 (by decide))).trans (Cert.KernelIdeal.Hand.W9_main_arg1 m ρ c),
     (h c _ (Cert.KernelIdeal.Hand.mem_uc Cert.KernelIdeal.main_arg2 (by decide))).trans (Cert.KernelIdeal.Hand.W9_main_arg2 m ρ c),
     (h c _ (Cert.KernelIdeal.Hand.mem_uc Cert.KernelIdeal.main_arg3 (by decide))).trans (Cert.KernelIdeal.Hand.W9_main_arg3 m ρ c),
     (h c _ (Cert.KernelIdeal.Hand.mem_uc Cert.KernelIdeal.main_arg4 (by decide))).trans (Cert.KernelIdeal.Hand.W9_main_arg4 m ρ c),
     (h c _ (Cert.KernelIdeal.Hand.mem_uc Cert.KernelIdeal.main_arg5 (by decide))).trans (Cert.KernelIdeal.Hand.W9_main_arg5 m ρ c),
     (h c _ (Cert.KernelIdeal.Hand.mem_uc Cert.KernelIdeal.main_arg6 (by decide))).trans (Cert.KernelIdeal.Hand.W9_main_arg6 m ρ c),
     (h c _ (Cert.KernelIdeal.Hand.mem_uc Cert.KernelIdeal.main_arg7 (by decide))).trans (Cert.KernelIdeal.Hand.W9_main_arg7 m ρ c),
     (h c _ (Cert.KernelIdeal.Hand.mem_uc Cert.KernelIdeal.main_arg8 (by decide))).trans (Cert.KernelIdeal.Hand.W9_main_arg8 m ρ c)⟩)
    (Cert.KernelIdeal.Hand.run_all (F := Ideal) m ρ)

/-- The reference is a straight line of host operations: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the result array at the reference's function `spec` of the (agreeing) arguments. -/
theorem algebraic : Cert.algebraic_KernelIdeal_ReferenceIdeal := by
  intro m ρ m' ρ' _ hagree
  refine ⟨fun c => Cert.ReferenceIdeal.RefSide.spec (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), ?_, ?_⟩
  · exact (θ_run Cert.KernelIdeal.defs _ _).mono (fun r h c =>
      ⟨(h c _ (Cert.KernelIdeal.Hand.mem_uc Cert.KernelIdeal.main_v26 (by decide))).trans (Cert.KernelIdeal.Hand.result_eq m ρ c),
       (h c _ (Cert.KernelIdeal.Hand.mem_uc Cert.KernelIdeal.main_arg0 (by decide))).trans (Cert.KernelIdeal.Hand.W9_main_arg0 m ρ c),
       (h c _ (Cert.KernelIdeal.Hand.mem_uc Cert.KernelIdeal.main_arg1 (by decide))).trans (Cert.KernelIdeal.Hand.W9_main_arg1 m ρ c),
       (h c _ (Cert.KernelIdeal.Hand.mem_uc Cert.KernelIdeal.main_arg2 (by decide))).trans (Cert.KernelIdeal.Hand.W9_main_arg2 m ρ c),
       (h c _ (Cert.KernelIdeal.Hand.mem_uc Cert.KernelIdeal.main_arg3 (by decide))).trans (Cert.KernelIdeal.Hand.W9_main_arg3 m ρ c),
       (h c _ (Cert.KernelIdeal.Hand.mem_uc Cert.KernelIdeal.main_arg4 (by decide))).trans (Cert.KernelIdeal.Hand.W9_main_arg4 m ρ c),
       (h c _ (Cert.KernelIdeal.Hand.mem_uc Cert.KernelIdeal.main_arg5 (by decide))).trans (Cert.KernelIdeal.Hand.W9_main_arg5 m ρ c),
       (h c _ (Cert.KernelIdeal.Hand.mem_uc Cert.KernelIdeal.main_arg6 (by decide))).trans (Cert.KernelIdeal.Hand.W9_main_arg6 m ρ c),
       (h c _ (Cert.KernelIdeal.Hand.mem_uc Cert.KernelIdeal.main_arg7 (by decide))).trans (Cert.KernelIdeal.Hand.W9_main_arg7 m ρ c),
       (h c _ (Cert.KernelIdeal.Hand.mem_uc Cert.KernelIdeal.main_arg8 (by decide))).trans (Cert.KernelIdeal.Hand.W9_main_arg8 m ρ c)⟩)
      (Cert.KernelIdeal.Hand.run_all (F := Ideal) m ρ)
  · refine (θ_run Cert.ReferenceIdeal.defs _ _).mono (fun r h c => ⟨(h c).1.trans ?_, (h c).2⟩)
      (Cert.ReferenceIdeal.Value.run (F := Ideal) m' ρ')
    rw [Cert.ReferenceIdeal.RefSide.res_eq, (hagree c).1, (hagree c).2.1, (hagree c).2.2.1, (hagree c).2.2.2.1,
      (hagree c).2.2.2.2.1, (hagree c).2.2.2.2.2.1, (hagree c).2.2.2.2.2.2.1, (hagree c).2.2.2.2.2.2.2.1,
      (hagree c).2.2.2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
